-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S32x3072 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x3x4 : Shape := ⟨3, ![64, 3, 4]⟩
abbrev S64x65536x3 : Shape := ⟨3, ![64, 65536, 3]⟩
abbrev S64x1x32x32x32 : Shape := ⟨5, ![64, 1, 32, 32, 32]⟩
abbrev S64x32x32x32x3 : Shape := ⟨5, ![64, 32, 32, 32, 3]⟩
abbrev S_ : Shape := ⟨0, ![]⟩

class Facts : Prop where
  bcast_S_S64x3x4 : S_.BroadcastsInDim S64x3x4 (![] : Fin 0 → Fin S64x3x4.rank)
  reducesTo_S64x3x4_S_d0_1_2 : S64x3x4.ReducesTo [0, 1, 2] S_
  h_S_ : 0 < S_.numel
  bcast_S_S64x65536x3 : S_.BroadcastsInDim S64x65536x3 (![] : Fin 0 → Fin S64x65536x3.rank)
  reducesTo_S64x65536x3_S_d0_1_2 : S64x65536x3.ReducesTo [0, 1, 2] S_
  bcast_S_S64x1x32x32x32 : S_.BroadcastsInDim S64x1x32x32x32 (![] : Fin 0 → Fin S64x1x32x32x32.rank)
  reducesTo_S64x1x32x32x32_S_d0_1_2_3_4 : S64x1x32x32x32.ReducesTo [0, 1, 2, 3, 4] S_
  bcast_S_S64x32x32x32x3 : S_.BroadcastsInDim S64x32x32x32x3 (![] : Fin 0 → Fin S64x32x32x32x3.rank)
  reducesTo_S64x32x32x32x3_S_d0_1_2_3_4 : S64x32x32x32x3.ReducesTo [0, 1, 2, 3, 4] S_

variable [Facts]

def fn_part1 {F : FTy → Type} [FloatOps F] (main_v13 : IVec S_ 1) (main_v16 : IVec S64x32x32x32x3 1) : IVec S_ 1 :=
  let main_c_5 : IVec S_ 1 := constantI S_ 1 1#1
  let main_v17 : IVec S_ 1 := (fun x v => Host.reduce IntOp.andi x v reducesTo_S64x32x32x32x3_S_d0_1_2_3_4 h_S_) main_v16 main_c_5
  let main_v18 : IVec S_ 1 := andi main_v13 main_v17
  main_v18

def fn {F : FTy → Type} [FloatOps F] (main_arg0 : FVec F S64x3x4 .f32) (main_arg1 : FVec F S64x65536x3 .f32) (main_arg2 : FVec F S64x1x32x32x32 .f32) (main_arg3 : FVec F S64x32x32x32x3 .f32) : IVec S_ 1 :=
  let main_v0 : FVec F S64x3x4 .f32 := Host.absf main_arg0
  let main_cst : FVec F S_ .f32 := constant S_ .f32 0x7F800000#32
  let main_v1 : FVec F S64x3x4 .f32 := broadcastInDim S64x3x4 ![] bcast_S_S64x3x4 main_cst
  let main_v2 : IVec S64x3x4 1 := cmpf .olt main_v0 main_v1
  let main_c : IVec S_ 1 := constantI S_ 1 1#1
  let main_v3 : IVec S_ 1 := (fun x v => Host.reduce IntOp.andi x v reducesTo_S64x3x4_S_d0_1_2 h_S_) main_v2 main_c
  let main_v4 : FVec F S64x65536x3 .f32 := Host.absf main_arg1
  let main_cst_0 : FVec F S_ .f32 := constant S_ .f32 0x7F800000#32
  let main_v5 : FVec F S64x65536x3 .f32 := broadcastInDim S64x65536x3 ![] bcast_S_S64x65536x3 main_cst_0
  let main_v6 : IVec S64x65536x3 1 := cmpf .olt main_v4 main_v5
  let main_c_1 : IVec S_ 1 := constantI S_ 1 1#1
  let main_v7 : IVec S_ 1 := (fun x v => Host.reduce IntOp.andi x v reducesTo_S64x65536x3_S_d0_1_2 h_S_) main_v6 main_c_1
  let main_v8 : IVec S_ 1 := andi main_v3 main_v7
  let main_v9 : FVec F S64x1x32x32x32 .f32 := Host.absf main_arg2
  let main_cst_2 : FVec F S_ .f32 := constant S_ .f32 0x7F800000#32
  let main_v10 : FVec F S64x1x32x32x32 .f32 := broadcastInDim S64x1x32x32x32 ![] bcast_S_S64x1x32x32x32 main_cst_2
  let main_v11 : IVec S64x1x32x32x32 1 := cmpf .olt main_v9 main_v10
  let main_c_3 : IVec S_ 1 := constantI S_ 1 1#1
  let main_v12 : IVec S_ 1 := (fun x v => Host.reduce IntOp.andi x v reducesTo_S64x1x32x32x32_S_d0_1_2_3_4 h_S_) main_v11 main_c_3
  let main_v13 : IVec S_ 1 := andi main_v8 main_v12
  let main_v14 : FVec F S64x32x32x32x3 .f32 := Host.absf main_arg3
  let main_cst_4 : FVec F S_ .f32 := constant S_ .f32 0x7F800000#32
  let main_v15 : FVec F S64x32x32x32x3 .f32 := broadcastInDim S64x32x32x32x3 ![] bcast_S_S64x32x32x32x3 main_cst_4
  let main_v16 : IVec S64x32x32x32x3 1 := cmpf .olt main_v14 main_v15
  fn_part1 (F := F) main_v13 main_v16
-- ==== Kernel.lean ====
abbrev S64x3x4 : Shape := ⟨3, ![64, 3, 4]⟩
abbrev S64x65536x3 : Shape := ⟨3, ![64, 65536, 3]⟩
abbrev S64x1x32x32x32 : Shape := ⟨5, ![64, 1, 32, 32, 32]⟩
abbrev S64x32x32x32x3 : Shape := ⟨5, ![64, 32, 32, 32, 3]⟩
abbrev S64x3x3 : Shape := ⟨3, ![64, 3, 3]⟩
abbrev S_ : Shape := ⟨0, ![]⟩
abbrev S64x3 : Shape := ⟨2, ![64, 3]⟩
abbrev S64x3x1 : Shape := ⟨3, ![64, 3, 1]⟩
abbrev S64x32x3072 : Shape := ⟨3, ![64, 32, 3072]⟩
abbrev S1x1024x3 : Shape := ⟨3, ![1, 1024, 3]⟩
abbrev S1x3x4 : Shape := ⟨3, ![1, 3, 4]⟩
abbrev S1x32x3072 : Shape := ⟨3, ![1, 32, 3072]⟩
abbrev S1x3x1 : Shape := ⟨3, ![1, 3, 1]⟩
abbrev S1024x3 : Shape := ⟨2, ![1024, 3]⟩
abbrev S32x3072 : Shape := ⟨2, ![32, 3072]⟩
abbrev S1024x32 : Shape := ⟨2, ![1024, 32]⟩
abbrev S1x1x3 : Shape := ⟨3, ![1, 1, 3]⟩
abbrev S3 : Shape := ⟨1, ![3]⟩
abbrev S1x1x1 : Shape := ⟨3, ![1, 1, 1]⟩
abbrev S1x3 : Shape := ⟨2, ![1, 3]⟩
abbrev S1024 : Shape := ⟨1, ![1024]⟩
abbrev S1024x1 : Shape := ⟨2, ![1024, 1]⟩
abbrev S1024x3072 : Shape := ⟨2, ![1024, 3072]⟩
abbrev S1024x32x32x3 : Shape := ⟨4, ![1024, 32, 32, 3]⟩
abbrev S1024x1x32x1 : Shape := ⟨4, ![1024, 1, 32, 1]⟩
abbrev S1024x32x3 : Shape := ⟨3, ![1024, 32, 3]⟩
abbrev S1024x32x1 : Shape := ⟨3, ![1024, 32, 1]⟩
abbrev S1x1024 : Shape := ⟨2, ![1, 1024]⟩
abbrev S1 : Shape := ⟨1, ![1]⟩
abbrev S1x1 : Shape := ⟨2, ![1, 1]⟩
abbrev S3x3 : Shape := ⟨2, ![3, 3]⟩
abbrev S1x3x3 : Shape := ⟨3, ![1, 3, 3]⟩
abbrev S64 : Shape := ⟨1, ![64]⟩

abbrev nBuf : Space → Nat
  | .hbm => 42
  | .vmem => 9
  | .smem => 0
  | _ => 0

abbrev bufTy : (tb : Table) → Fin (tcTables nBuf tb) → BufTy
  | .hbm, ⟨0, _⟩ => ⟨S64x3x4, .f32⟩
  | .hbm, ⟨1, _⟩ => ⟨S64x65536x3, .f32⟩
  | .hbm, ⟨2, _⟩ => ⟨S64x1x32x32x32, .f32⟩
  | .hbm, ⟨3, _⟩ => ⟨S64x32x32x32x3, .f32⟩
  | .hbm, ⟨4, _⟩ => ⟨S64x3x3, .f32⟩
  | .hbm, ⟨5, _⟩ => ⟨S64x3x3, .f32⟩
  | .hbm, ⟨6, _⟩ => ⟨S_, .f32⟩
  | .hbm, ⟨7, _⟩ => ⟨S64x3, .f32⟩
  | .hbm, ⟨8, _⟩ => ⟨S64x3x1, .f32⟩
  | .hbm, ⟨9, _⟩ => ⟨S64x3x1, .f32⟩
  | .hbm, ⟨10, _⟩ => ⟨S64x3x3, .f32⟩
  | .hbm, ⟨11, _⟩ => ⟨S64x3x3, .f32⟩
  | .hbm, ⟨12, _⟩ => ⟨S64x3x1, .f32⟩
  | .hbm, ⟨13, _⟩ => ⟨S64x3x4, .f32⟩
  | .hbm, ⟨14, _⟩ => ⟨S64x32x32x32x3, .f32⟩
  | .hbm, ⟨15, _⟩ => ⟨S64x32x3072, .f32⟩
  | .hbm, ⟨16, _⟩ => ⟨S64x3x1, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S64x3x3, .f32⟩
  | .hbm, ⟨22, _⟩ => ⟨S3x3, .i32⟩
  | .hbm, ⟨23, _⟩ => ⟨S3x3, .i32⟩
  | .hbm, ⟨24, _⟩ => ⟨S_, .i32⟩
  | .hbm, ⟨25, _⟩ => ⟨S3x3, .i32⟩
  | .hbm, ⟨26, _⟩ => ⟨S3x3, .i32⟩
  | .hbm, ⟨27, _⟩ => ⟨S3x3, .i1⟩
  | .hbm, ⟨28, _⟩ => ⟨S3x3, .f32⟩
  | .hbm, ⟨29, _⟩ => ⟨S1x3x3, .f32⟩
  | .hbm, ⟨30, _⟩ => ⟨S64x3x3, .f32⟩
  | .hbm, ⟨31, _⟩ => ⟨S64x3x3, .f32⟩
  | .hbm, ⟨32, _⟩ => ⟨S64x3x3, .f32⟩
  | .hbm, ⟨33, _⟩ => ⟨S_, .f32⟩
  | .hbm, ⟨34, _⟩ => ⟨S64, .f32⟩
  | .hbm, ⟨35, _⟩ => ⟨S64, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S1, .f32⟩
  | .local _ .vmem, ⟨0, _⟩ => ⟨S1x1024x3, .f32⟩
  | .local _ .vmem, ⟨1, _⟩ => ⟨S1x1024x3, .f32⟩
  | .local _ .vmem, ⟨2, _⟩ => ⟨S1x3x4, .f32⟩
  | .local _ .vmem, ⟨3, _⟩ => ⟨S1x3x4, .f32⟩
  | .local _ .vmem, ⟨4, _⟩ => ⟨S1x32x3072, .f32⟩
  | .local _ .vmem, ⟨5, _⟩ => ⟨S1x32x3072, .f32⟩
  | .local _ .vmem, ⟨6, _⟩ => ⟨S1x3x1, .f32⟩
  | .local _ .vmem, ⟨7, _⟩ => ⟨S1x3x1, .f32⟩
  | .local _ .vmem, ⟨8, _⟩ => ⟨S1x3x1, .f32⟩
  | _, _ => ⟨S64x3x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![64, 64], ![false, false]⟩

def k0_cond2 (i : grid0.Coords) : BitVec 1 :=
  let arg1 : BitVec 32 := BitVec.ofNat 32 (i 1).val
  let c63_i32 : BitVec 32 := 63#32
  let v208 : BitVec 1 := Scalar.cmpi .eq arg1 c63_i32
  let v209 : BitVec 32 := Scalar.extui v208
  let c0_i32_59 : BitVec 32 := 0#32
  let v210 : BitVec 1 := Scalar.cmpi .ne v209 c0_i32_59
  v210

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x32x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x3x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  slices_S64x3x4_S64x3x3_0_0_0 : S64x3x4.Slices ![0, 0, 0] S64x3x3
  reducesTo_S64x3x3_S64x3_d2 : S64x3x3.ReducesTo [2] S64x3
  h_S_ : 0 < S_.numel
  bcast_S64x3_S64x3x1_0_1 : S64x3.BroadcastsInDim S64x3x1 (![0, 1] : Fin 2 → Fin S64x3x1.rank)
  bcast_S64x3x1_S64x3x3_0_1_2 : S64x3x1.BroadcastsInDim S64x3x3 (![0, 1, 2] : Fin 3 → Fin S64x3x3.rank)
  slices_S64x3x4_S64x3x1_0_0_3 : S64x3x4.Slices ![0, 0, 3] S64x3x1
  concatenates_S64x3x3_S64x3x1_S64x3x4_d2 : Shape.Concatenates [S64x3x3, S64x3x1] S64x3x4 2
  transposes_S64x32x32x32x3_S64x32x32x32x3_0_3_1_2_4 : S64x32x32x32x3.Transposes [0, 3, 1, 2, 4] S64x32x32x32x3
  shapeCasts_S64x32x32x32x3_S64x32x3072 : S64x32x32x32x3.ShapeCasts S64x32x3072
  inb_S1x3x1_S1x3x1_0_0_0 : ∀ a, (![0, 0, 0] : Fin 3 → Nat) a + S1x3x1.size a ≤ S1x3x1.size a
  h_S1x3x1 : 0 < S1x3x1.numel
  shapeCasts_S1x3x1_S1x3x1 : S1x3x1.ShapeCasts S1x3x1
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  inb_S1x32x3072_S1x32x3072_0_0_0 : ∀ a, (![0, 0, 0] : Fin 3 → Nat) a + S1x32x3072.size a ≤ S1x32x3072.size a
  h_S1x32x3072 : 0 < S1x32x3072.numel
  shapeCasts_S1x32x3072_S32x3072 : S1x32x3072.ShapeCasts S32x3072
  bitsLt_bf16_f32 : FTy.bits .bf16 < FTy.bits .f32
  iota_S1024x32_d1_w32 : S1024x32.Iotas .tc 32 [1]
  inb_S1x3x4_S1x1x3_0_0_0 : ∀ a, (![0, 0, 0] : Fin 3 → Nat) a + S1x1x3.size a ≤ S1x3x4.size a
  h_S1x1x3 : 0 < S1x1x3.numel
  shapeCasts_S1x1x3_S3 : S1x1x3.ShapeCasts S3
  inb_S1x3x4_S1x1x1_0_0_3 : ∀ a, (![0, 0, 3] : Fin 3 → Nat) a + S1x1x1.size a ≤ S1x3x4.size a
  h_S1x1x1 : 0 < S1x1x1.numel
  inpos_S1x1x1_p0_0_0 : ∀ a, (![0, 0, 0] : Fin 3 → Nat) a < S1x1x1.size a
  shapeCasts_S3_S1x3 : S3.ShapeCasts S1x3
  broadcasts_S1x3_S1024x3 : S1x3.Broadcasts S1024x3
  reduces_S1024x3_S1024 : S1024x3.Reduces [1] S1024
  shapeCasts_S1024_S1024x1 : S1024.ShapeCasts S1024x1
  broadcasts_S1024x1_S1024x3 : S1024x1.Broadcasts S1024x3
  slices_S1024x3_o0_0_S1024x1 : S1024x3.Slices ![0, 0] S1024x1
  slices_S1024x3_o0_1_S1024x1 : S1024x3.Slices ![0, 1] S1024x1
  slices_S1024x3_o0_2_S1024x1 : S1024x3.Slices ![0, 2] S1024x1
  broadcasts_S1024x1_S1024x32 : S1024x1.Broadcasts S1024x32
  natLt_1_32 : 1 < 32
  shapeCasts_S1024x3072_S1024x32x32x3 : S1024x3072.ShapeCasts S1024x32x32x3
  shapeCasts_S1024x32_S1024x1x32x1 : S1024x32.ShapeCasts S1024x1x32x1
  broadcasts_S1024x1x32x1_S1024x32x32x3 : S1024x1x32x1.Broadcasts S1024x32x32x3
  reduces_S1024x32x32x3_S1024x32x3 : S1024x32x32x3.Reduces [2] S1024x32x3
  shapeCasts_S1024x32_S1024x32x1 : S1024x32.ShapeCasts S1024x32x1
  broadcasts_S1024x32x1_S1024x32x3 : S1024x32x1.Broadcasts S1024x32x3
  reduces_S1024x32x3_S1024x3 : S1024x32x3.Reduces [1] S1024x3
  shapeCasts_S1024_S1x1024 : S1024.ShapeCasts S1x1024
  reduces_S1x1024_S1 : S1x1024.Reduces [1] S1
  shapeCasts_S1_S1x1 : S1.ShapeCasts S1x1
  inpos_S1x1_p0_0 : ∀ a, (![0, 0] : Fin 2 → Nat) a < S1x1.size a
  inb_S1x3x4_S1x1x3_0_1_0 : ∀ a, (![0, 1, 0] : Fin 3 → Nat) a + S1x1x3.size a ≤ S1x3x4.size a
  inb_S1x3x4_S1x1x1_0_1_3 : ∀ a, (![0, 1, 3] : Fin 3 → Nat) a + S1x1x1.size a ≤ S1x3x4.size a
  inb_S1x3x4_S1x1x3_0_2_0 : ∀ a, (![0, 2, 0] : Fin 3 → Nat) a + S1x1x3.size a ≤ S1x3x4.size a
  inb_S1x3x4_S1x1x1_0_2_3 : ∀ a, (![0, 2, 3] : Fin 3 → Nat) a + S1x1x1.size a ≤ S1x3x4.size a
  concatenates_S1_S1_S1_S3_d0 : Shape.Concatenates [S1, S1, S1] S3 0
  shapeCasts_S3_S1x3x1 : S3.ShapeCasts S1x3x1
  reducesTo_S64x3x1_S_d0_1_2 : S64x3x1.ReducesTo [0, 1, 2] S_
  bcast_S_S3x3 : S_.BroadcastsInDim S3x3 (![] : Fin 0 → Fin S3x3.rank)
  bcast_S3x3_S1x3x3_1_2 : S3x3.BroadcastsInDim S1x3x3 (![1, 2] : Fin 2 → Fin S1x3x3.rank)
  bcast_S1x3x3_S64x3x3_0_1_2 : S1x3x3.BroadcastsInDim S64x3x3 (![0, 1, 2] : Fin 3 → Fin S64x3x3.rank)
  reducesTo_S64x3x3_S64_d1_2 : S64x3x3.ReducesTo [1, 2] S64
  reducesTo_S64_S_d0 : S64.ReducesTo [0] S_
  shapeCasts_S_S1 : S_.ShapeCasts S1
  dot_S1024x32_S32x3072_S1024x3072_1_0_0_1_n_n_wf : DotDims.WF S1024x32 S32x3072 S1024x3072 [1] [0] [0] [1] [] []
  dot_S64x3x3_S64x3x3_S64x3x3_2_2_1_1_0_0_wf : DotDims.WF S64x3x3 S64x3x3 S64x3x3 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S64x65536x3.size a
  hwx0_0 : ∀ i : grid0.Coords, EltTy.bits .f32 = 32 ∨ (Rect.block (s := S64x65536x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x4.size a ≤ S64x3x4.size a
  hwx0_1 : ∀ i : grid0.Coords, EltTy.bits .f32 = 32 ∨ (Rect.block (s := S64x3x4) S1x3x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x3072.size a ≤ S64x32x3072.size a
  hwx0_2 : ∀ i : grid0.Coords, EltTy.bits .f32 = 32 ∨ (Rect.block (s := S64x32x3072) S1x32x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x3x1.size a ≤ S64x3x1.size a
  hwx0_3 : ∀ i : grid0.Coords, EltTy.bits .f32 = 32 ∨ (Rect.block (s := S64x3x1) S1x3x1.size (cc0_transform_3 i) (hinb0_3 i)).WholeWords (EltTy.packing .f32)

variable [Facts₀]

def dot_S1024x32_S32x3072_S1024x3072_1_0_0_1_n_n : DotDims S1024x32 S32x3072 S1024x3072 where
  lhsContracting := [1]
  rhsContracting := [0]
  lhsNonContracting := [0]
  rhsNonContracting := [1]
  lhsBatch := []
  rhsBatch := []
  wf := dot_S1024x32_S32x3072_S1024x3072_1_0_0_1_n_n_wf
def dot_S64x3x3_S64x3x3_S64x3x3_2_2_1_1_0_0 : DotDims S64x3x3 S64x3x3 S64x3x3 where
  lhsContracting := [2]
  rhsContracting := [2]
  lhsNonContracting := [1]
  rhsNonContracting := [1]
  lhsBatch := [0]
  rhsBatch := [0]
  wf := dot_S64x3x3_S64x3x3_S64x3x3_2_2_1_1_0_0_wf

abbrev win0_0 : Pipeline.Window sig grid0 :=
  Pipeline.Window.ofSpec (Memref.whole main_arg1) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x3x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x32x3072.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x3x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S64x3x4 : Shape := ⟨3, ![64, 3, 4]⟩
abbrev S64x65536x3 : Shape := ⟨3, ![64, 65536, 3]⟩
abbrev S64x1x32x32x32 : Shape := ⟨5, ![64, 1, 32, 32, 32]⟩
abbrev S64x32x32x32x3 : Shape := ⟨5, ![64, 32, 32, 32, 3]⟩
abbrev S64x3x3 : Shape := ⟨3, ![64, 3, 3]⟩
abbrev S_ : Shape := ⟨0, ![]⟩
abbrev S64x3 : Shape := ⟨2, ![64, 3]⟩
abbrev S64x3x1 : Shape := ⟨3, ![64, 3, 1]⟩
abbrev S64x3x65536 : Shape := ⟨3, ![64, 3, 65536]⟩
abbrev S64x1x65536x3 : Shape := ⟨4, ![64, 1, 65536, 3]⟩
abbrev S64x3x65536x1 : Shape := ⟨4, ![64, 3, 65536, 1]⟩
abbrev S64x3x1x3 : Shape := ⟨4, ![64, 3, 1, 3]⟩
abbrev S64x3x65536x3 : Shape := ⟨4, ![64, 3, 65536, 3]⟩
abbrev S3x3 : Shape := ⟨2, ![3, 3]⟩
abbrev S1x3x3 : Shape := ⟨3, ![1, 3, 3]⟩
abbrev S64 : Shape := ⟨1, ![64]⟩
abbrev S1 : Shape := ⟨1, ![1]⟩

abbrev nBuf : Space → Nat
  | .hbm => 114
  | .vmem => 0
  | .smem => 0
  | _ => 0

abbrev bufTy : (tb : Table) → Fin (tcTables nBuf tb) → BufTy
  | .hbm, ⟨0, _⟩ => ⟨S64x3x4, .f32⟩
  | .hbm, ⟨1, _⟩ => ⟨S64x65536x3, .f32⟩
  | .hbm, ⟨2, _⟩ => ⟨S64x1x32x32x32, .f32⟩
  | .hbm, ⟨3, _⟩ => ⟨S64x32x32x32x3, .f32⟩
  | .hbm, ⟨4, _⟩ => ⟨S64x3x3, .f32⟩
  | .hbm, ⟨5, _⟩ => ⟨S64x3x3, .f32⟩
  | .hbm, ⟨6, _⟩ => ⟨S_, .f32⟩
  | .hbm, ⟨7, _⟩ => ⟨S64x3, .f32⟩
  | .hbm, ⟨8, _⟩ => ⟨S64x3x1, .f32⟩
  | .hbm, ⟨9, _⟩ => ⟨S64x3x1, .f32⟩
  | .hbm, ⟨10, _⟩ => ⟨S64x3x3, .f32⟩
  | .hbm, ⟨11, _⟩ => ⟨S64x3x3, .f32⟩
  | .hbm, ⟨12, _⟩ => ⟨S64x3x1, .f32⟩
  | .hbm, ⟨13, _⟩ => ⟨S64x3, .f32⟩
  | .hbm, ⟨14, _⟩ => ⟨S64x3x65536, .f32⟩
  | .hbm, ⟨15, _⟩ => ⟨S64x3x1, .f32⟩
  | .hbm, ⟨16, _⟩ => ⟨S64x3x65536, .f32⟩
  | .hbm, ⟨17, _⟩ => ⟨S64x3x65536, .f32⟩
  | .hbm, ⟨18, _⟩ => ⟨S64x1x65536x3, .f32⟩
  | .hbm, ⟨19, _⟩ => ⟨S64x3x65536x1, .f32⟩
  | .hbm, ⟨20, _⟩ => ⟨S_, .f32⟩
  | .hbm, ⟨21, _⟩ => ⟨S64x3x65536x1, .f32⟩
  | .hbm, ⟨22, _⟩ => ⟨S64x3x65536x1, .f32⟩
  | .hbm, ⟨23, _⟩ => ⟨S64x3x1x3, .f32⟩
  | .hbm, ⟨24, _⟩ => ⟨S64x3x65536x3, .f32⟩
  | .hbm, ⟨25, _⟩ => ⟨S64x3x65536x3, .f32⟩
  | .hbm, ⟨26, _⟩ => ⟨S64x3x65536x3, .f32⟩
  | .hbm, ⟨27, _⟩ => ⟨S64x3x65536x3, .f32⟩
  | .hbm, ⟨28, _⟩ => ⟨S64x3x65536x3, .f32⟩
  | .hbm, ⟨29, _⟩ => ⟨S_, .f32⟩
  | .hbm, ⟨30, _⟩ => ⟨S64x3x65536x3, .f32⟩
  | .hbm, ⟨31, _⟩ => ⟨S64x3x65536x3, .f32⟩
  | .hbm, ⟨32, _⟩ => ⟨S64x3x65536x3, .f32⟩
  | .hbm, ⟨33, _⟩ => ⟨S_, .i32⟩
  | .hbm, ⟨34, _⟩ => ⟨S_, .i32⟩
  | .hbm, ⟨35, _⟩ => ⟨S_, .f32⟩
  | .hbm, ⟨36, _⟩ => ⟨S64x3x65536x3, .f32⟩
  | .hbm, ⟨37, _⟩ => ⟨S64x3x65536x3, .f32⟩
  | .hbm, ⟨38, _⟩ => ⟨S_, .f32⟩
  | .hbm, ⟨39, _⟩ => ⟨S64x3x65536x3, .f32⟩
  | .hbm, ⟨40, _⟩ => ⟨S64x3x65536x3, .f32⟩
  | .hbm, ⟨41, _⟩ => ⟨S64x3x65536x3, .i32⟩
  | .hbm, ⟨42, _⟩ => ⟨S64x3x65536x1, .i32⟩
  | .hbm, ⟨43, _⟩ => ⟨S64x3x65536, .i32⟩
  | .hbm, ⟨44, _⟩ => ⟨S64x3x65536x1, .i32⟩
  | .hbm, ⟨45, _⟩ => ⟨S64x3x65536, .i32⟩
  | .hbm, ⟨46, _⟩ => ⟨S64x3x65536x1, .i32⟩
  | .hbm, ⟨47, _⟩ => ⟨S64x3x65536, .i32⟩
  | .hbm, ⟨48, _⟩ => ⟨S_, .i32⟩
  | .hbm, ⟨49, _⟩ => ⟨S64x3x65536, .i32⟩
  | .hbm, ⟨50, _⟩ => ⟨S64x3x65536, .i1⟩
  | .hbm, ⟨51, _⟩ => ⟨S_, .i32⟩
  | .hbm, ⟨52, _⟩ => ⟨S64x3x65536, .i32⟩
  | .hbm, ⟨53, _⟩ => ⟨S64x3x65536, .i32⟩
  | .hbm, ⟨54, _⟩ => ⟨S64x3x65536, .i32⟩
  | .hbm, ⟨55, _⟩ => ⟨S_, .i32⟩
  | .hbm, ⟨56, _⟩ => ⟨S64x3x65536, .i32⟩
  | .hbm, ⟨57, _⟩ => ⟨S64x3x65536, .i1⟩
  | .hbm, ⟨58, _⟩ => ⟨S_, .i32⟩
  | .hbm, ⟨59, _⟩ => ⟨S64x3x65536, .i32⟩
  | .hbm, ⟨60, _⟩ => ⟨S64x3x65536, .i32⟩
  | .hbm, ⟨61, _⟩ => ⟨S64x3x65536, .i32⟩
  | .hbm, ⟨62, _⟩ => ⟨S_, .i32⟩
  | .hbm, ⟨63, _⟩ => ⟨S64x3x65536, .i32⟩
  | .hbm, ⟨64, _⟩ => ⟨S64x3x65536, .i1⟩
  | .hbm, ⟨65, _⟩ => ⟨S_, .i32⟩
  | .hbm, ⟨66, _⟩ => ⟨S64x3x65536, .i32⟩
  | .hbm, ⟨67, _⟩ => ⟨S64x3x65536, .i32⟩
  | .hbm, ⟨68, _⟩ => ⟨S64x3x65536, .i32⟩
  | .hbm, ⟨69, _⟩ => ⟨S64x3x65536x1, .i32⟩
  | .hbm, ⟨70, _⟩ => ⟨S64x3x65536x1, .i32⟩
  | .hbm, ⟨71, _⟩ => ⟨S64x3x65536x1, .i32⟩
  | .hbm, ⟨72, _⟩ => ⟨S64x3x65536x3, .i32⟩
  | .hbm, ⟨73, _⟩ => ⟨S64x3x65536x3, .f32⟩
  | .hbm, ⟨74, _⟩ => ⟨S64x3x65536x3, .f32⟩
  | .hbm, ⟨75, _⟩ => ⟨S64x3x65536x3, .f32⟩
  | .hbm, ⟨76, _⟩ => ⟨S_, .f32⟩
  | .hbm, ⟨77, _⟩ => ⟨S64x3x65536, .f32⟩
  | .hbm, ⟨78, _⟩ => ⟨S64x3x65536, .f32⟩
  | .hbm, ⟨79, _⟩ => ⟨S_, .f32⟩
  | .hbm, ⟨80, _⟩ => ⟨S64x3, .f32⟩
  | .hbm, ⟨81, _⟩ => ⟨S_, .f32⟩
  | .hbm, ⟨82, _⟩ => ⟨S64x3, .f32⟩
  | .hbm, ⟨83, _⟩ => ⟨S64x3, .f32⟩
  | .hbm, ⟨84, _⟩ => ⟨S_, .f32⟩
  | .hbm, ⟨85, _⟩ => ⟨S_, .f32⟩
  | .hbm, ⟨86, _⟩ => ⟨S64x3x3, .f32⟩
  | .hbm, ⟨87, _⟩ => ⟨S_, .f32⟩
  | .hbm, ⟨88, _⟩ => ⟨S64x3, .f32⟩
  | .hbm, ⟨89, _⟩ => ⟨S64x3x1, .f32⟩
  | .hbm, ⟨90, _⟩ => ⟨S64x3x1, .f32⟩
  | .hbm, ⟨91, _⟩ => ⟨S64x3x3, .f32⟩
  | .hbm, ⟨92, _⟩ => ⟨S64x3x3, .f32⟩
  | .hbm, ⟨93, _⟩ => ⟨S64x3x3, .f32⟩
  | .hbm, ⟨94, _⟩ => ⟨S3x3, .i32⟩
  | .hbm, ⟨95, _⟩ => ⟨S3x3, .i32⟩
  | .hbm, ⟨96, _⟩ => ⟨S_, .i32⟩
  | .hbm, ⟨97, _⟩ => ⟨S3x3, .i32⟩
  | .hbm, ⟨98, _⟩ => ⟨S3x3, .i32⟩
  | .hbm, ⟨99, _⟩ => ⟨S3x3, .i1⟩
  | .hbm, ⟨100, _⟩ => ⟨S3x3, .f32⟩
  | .hbm, ⟨101, _⟩ => ⟨S1x3x3, .f32⟩
  | .hbm, ⟨102, _⟩ => ⟨S64x3x3, .f32⟩
  | .hbm, ⟨103, _⟩ => ⟨S64x3x3, .f32⟩
  | .hbm, ⟨104, _⟩ => ⟨S64x3x3, .f32⟩
  | .hbm, ⟨105, _⟩ => ⟨S_, .f32⟩
  | .hbm, ⟨106, _⟩ => ⟨S64, .f32⟩
  | .hbm, ⟨107, _⟩ => ⟨S64, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S1, .f32⟩
  | _, _ => ⟨S64x3x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c : Ref sig .tc := ⟨.hbm, 33, rfl⟩
abbrev main_c_1 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_2 : Ref sig .tc := ⟨.hbm, 48, rfl⟩
abbrev main_v31 : Ref sig .tc := ⟨.hbm, 49, rfl⟩
abbrev main_v32 : Ref sig .tc := ⟨.hbm, 50, rfl⟩
abbrev main_c_3 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_4 : Ref sig .tc := ⟨.hbm, 55, rfl⟩
abbrev main_v36 : Ref sig .tc := ⟨.hbm, 56, rfl⟩
abbrev main_v37 : Ref sig .tc := ⟨.hbm, 57, rfl⟩
abbrev main_c_5 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_6 : Ref sig .tc := ⟨.hbm, 62, rfl⟩
abbrev main_v41 : Ref sig .tc := ⟨.hbm, 63, rfl⟩
abbrev main_v42 : Ref sig .tc := ⟨.hbm, 64, rfl⟩
abbrev main_c_7 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_call2_v0 : Ref sig .tc := ⟨.hbm, 75, rfl⟩
abbrev main_call2_cst : Ref sig .tc := ⟨.hbm, 76, rfl⟩
abbrev main_call2_v1 : Ref sig .tc := ⟨.hbm, 77, rfl⟩
abbrev main_v52 : Ref sig .tc := ⟨.hbm, 78, rfl⟩
abbrev main_cst_8 : Ref sig .tc := ⟨.hbm, 79, rfl⟩
abbrev main_v53 : Ref sig .tc := ⟨.hbm, 80, rfl⟩
abbrev main_cst_9 : Ref sig .tc := ⟨.hbm, 81, rfl⟩
abbrev main_v54 : Ref sig .tc := ⟨.hbm, 82, rfl⟩
abbrev main_v55 : Ref sig .tc := ⟨.hbm, 83, rfl⟩
abbrev main_cst_10 : Ref sig .tc := ⟨.hbm, 84, rfl⟩
abbrev main_v56 : Ref sig .tc := ⟨.hbm, 85, rfl⟩
abbrev main_call3_v0 : Ref sig .tc := ⟨.hbm, 86, rfl⟩
abbrev main_call3_cst : Ref sig .tc := ⟨.hbm, 87, rfl⟩
abbrev main_call3_v1 : Ref sig .tc := ⟨.hbm, 88, rfl⟩
abbrev main_call3_v2 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_c_11 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_12 : Ref sig .tc := ⟨.hbm, 105, rfl⟩
abbrev main_v71 : Ref sig .tc := ⟨.hbm, 106, rfl⟩
abbrev main_v72 : Ref sig .tc := ⟨.hbm, 107, rfl⟩
abbrev main_cst_13 : Ref sig .tc := ⟨.hbm, 108, rfl⟩
abbrev main_v73 : Ref sig .tc := ⟨.hbm, 109, rfl⟩
abbrev main_cst_14 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩

abbrev nD : Nat := 1
abbrev τ : Topo := Topo.v7x

variable {F : FTy → Type} [FloatOps F]

class Facts₀ : Prop where
  slices_S64x3x4_S64x3x3_0_0_0 : S64x3x4.Slices ![0, 0, 0] S64x3x3
  reducesTo_S64x3x3_S64x3_d2 : S64x3x3.ReducesTo [2] S64x3
  h_S_ : 0 < S_.numel
  bcast_S64x3_S64x3x1_0_1 : S64x3.BroadcastsInDim S64x3x1 (![0, 1] : Fin 2 → Fin S64x3x1.rank)
  bcast_S64x3x1_S64x3x3_0_1_2 : S64x3x1.BroadcastsInDim S64x3x3 (![0, 1, 2] : Fin 3 → Fin S64x3x3.rank)
  slices_S64x3x4_S64x3x1_0_0_3 : S64x3x4.Slices ![0, 0, 3] S64x3x1
  shapeCasts_S64x3x1_S64x3 : S64x3x1.ShapeCasts S64x3
  bcast_S64x3x1_S64x3x65536_0_1_2 : S64x3x1.BroadcastsInDim S64x3x65536 (![0, 1, 2] : Fin 3 → Fin S64x3x65536.rank)
  bcast_S64x65536x3_S64x1x65536x3_0_2_3 : S64x65536x3.BroadcastsInDim S64x1x65536x3 (![0, 2, 3] : Fin 3 → Fin S64x1x65536x3.rank)
  bcast_S64x3x65536_S64x3x65536x1_0_1_2 : S64x3x65536.BroadcastsInDim S64x3x65536x1 (![0, 1, 2] : Fin 3 → Fin S64x3x65536x1.rank)
  bcast_S_S64x3x65536x1 : S_.BroadcastsInDim S64x3x65536x1 (![] : Fin 0 → Fin S64x3x65536x1.rank)
  bcast_S64x3x3_S64x3x1x3_0_1_3 : S64x3x3.BroadcastsInDim S64x3x1x3 (![0, 1, 3] : Fin 3 → Fin S64x3x1x3.rank)
  bcast_S64x3x65536x1_S64x3x65536x3_0_1_2_3 : S64x3x65536x1.BroadcastsInDim S64x3x65536x3 (![0, 1, 2, 3] : Fin 4 → Fin S64x3x65536x3.rank)
  bcast_S64x3x1x3_S64x3x65536x3_0_1_2_3 : S64x3x1x3.BroadcastsInDim S64x3x65536x3 (![0, 1, 2, 3] : Fin 4 → Fin S64x3x65536x3.rank)
  bcast_S64x1x65536x3_S64x3x65536x3_0_1_2_3 : S64x1x65536x3.BroadcastsInDim S64x3x65536x3 (![0, 1, 2, 3] : Fin 4 → Fin S64x3x65536x3.rank)
  bcast_S_S64x3x65536x3 : S_.BroadcastsInDim S64x3x65536x3 (![] : Fin 0 → Fin S64x3x65536x3.rank)
  slices_S64x3x65536x3_S64x3x65536x1_0_0_0_0 : S64x3x65536x3.Slices ![0, 0, 0, 0] S64x3x65536x1
  shapeCasts_S64x3x65536x1_S64x3x65536 : S64x3x65536x1.ShapeCasts S64x3x65536
  slices_S64x3x65536x3_S64x3x65536x1_0_0_0_1 : S64x3x65536x3.Slices ![0, 0, 0, 1] S64x3x65536x1
  slices_S64x3x65536x3_S64x3x65536x1_0_0_0_2 : S64x3x65536x3.Slices ![0, 0, 0, 2] S64x3x65536x1
  bcast_S_S64x3x65536 : S_.BroadcastsInDim S64x3x65536 (![] : Fin 0 → Fin S64x3x65536.rank)
  concatenates_S64x3x65536x1_S64x3x65536x1_S64x3x65536x1_S64x3x65536x3_d3 : Shape.Concatenates [S64x3x65536x1, S64x3x65536x1, S64x3x65536x1] S64x3x65536x3 3
  reducesTo_S64x3x65536x3_S64x3x65536_d3 : S64x3x65536x3.ReducesTo [3] S64x3x65536
  reducesTo_S64x3x65536_S64x3_d2 : S64x3x65536.ReducesTo [2] S64x3
  bcast_S_S64x3 : S_.BroadcastsInDim S64x3 (![] : Fin 0 → Fin S64x3.rank)
  reducesTo_S64x3_S_d0_1 : S64x3.ReducesTo [0, 1] S_
  bcast_S_S3x3 : S_.BroadcastsInDim S3x3 (![] : Fin 0 → Fin S3x3.rank)
  bcast_S3x3_S1x3x3_1_2 : S3x3.BroadcastsInDim S1x3x3 (![1, 2] : Fin 2 → Fin S1x3x3.rank)
  bcast_S1x3x3_S64x3x3_0_1_2 : S1x3x3.BroadcastsInDim S64x3x3 (![0, 1, 2] : Fin 3 → Fin S64x3x3.rank)
  reducesTo_S64x3x3_S64_d1_2 : S64x3x3.ReducesTo [1, 2] S64
  reducesTo_S64_S_d0 : S64.ReducesTo [0] S_
  shapeCasts_S_S1 : S_.ShapeCasts S1
  dot_S64x3x3_S64x65536x3_S64x3x65536_2_2_1_1_0_0_wf : DotDims.WF S64x3x3 S64x65536x3 S64x3x65536 [2] [2] [1] [1] [0] [0]
  gather_S64x32x32x32x3_S64x3x65536x3_S64x3x65536x3_3_123_0_0_123_3_11113_wf : GatherDims.WF S64x32x32x32x3 S64x3x65536x3 S64x3x65536x3 [3] [1, 2, 3] [0] [1, 2, 3] [0] 3 ![1, 1, 1, 1, 3]
  dot_S64x3x3_S64x3x3_S64x3x3_2_2_1_1_0_0_wf : DotDims.WF S64x3x3 S64x3x3 S64x3x3 [2] [2] [1] [1] [0] [0]

variable [Facts₀]

def dot_S64x3x3_S64x65536x3_S64x3x65536_2_2_1_1_0_0 : DotDims S64x3x3 S64x65536x3 S64x3x65536 where
  lhsContracting := [2]
  rhsContracting := [2]
  lhsNonContracting := [1]
  rhsNonContracting := [1]
  lhsBatch := [0]
  rhsBatch := [0]
  wf := dot_S64x3x3_S64x65536x3_S64x3x65536_2_2_1_1_0_0_wf
def gather_S64x32x32x32x3_S64x3x65536x3_S64x3x65536x3_3_123_0_0_123_3_11113 : GatherDims S64x32x32x32x3 S64x3x65536x3 S64x3x65536x3 where
  offsetDims := [3]
  collapsedSliceDims := [1, 2, 3]
  operandBatchingDims := [0]
  startIndicesBatchingDims := [0]
  startIndexMap := [1, 2, 3]
  indexVectorDim := 3
  sliceSizes := ![1, 1, 1, 1, 3]
  wf := gather_S64x32x32x32x3_S64x3x65536x3_S64x3x65536x3_3_123_0_0_123_3_11113_wf
def dot_S64x3x3_S64x3x3_S64x3x3_2_2_1_1_0_0 : DotDims S64x3x3 S64x3x3 S64x3x3 where
  lhsContracting := [2]
  rhsContracting := [2]
  lhsNonContracting := [1]
  rhsNonContracting := [1]
  lhsBatch := [0]
  rhsBatch := [0]
  wf := dot_S64x3x3_S64x3x3_S64x3x3_2_2_1_1_0_0_wf

class Facts : Prop extends Facts₀ where

variable [Facts]
-- ==== Proof.Spec.lean ====
/-
  The mathematics of the symmetry loss, over the extended reals, with no program in sight.

  For one batch element, one plane (unit normal `nh`, offset `d`) and one sample point `p`:
  the signed distance `dist = ∑ₖ pₖ·nhₖ + d`, the reflected point `reflₖ = pₖ − (2·dist)·nhₖ`, its voxel
  `voxₖ = clamp(⌊32·reflₖ⌋, 0, 31)`, the closest-point vector `g vox₀ vox₁ vox₂` stored for that voxel, and
  the distance `pdist = √(∑ₖ (reflₖ − gₖ)²)` between the reflected point and it.  The loss sums `pdist`
  over the points.  Nothing here assumes the normal finite: every identity used later holds for all
  extended reals, except `x − x = 0`, which is asked of grid entries only.
-/
import Idealize.ShloMosaic.PureOps.Ideal
import Idealize.ShloMosaic.PureOps.Ideal.Laws
import Idealize.ShloMosaic.Lib.ValueIdx

noncomputable section

namespace SymLoss

open Idealize.ShloMosaic

/-- The float words the two programs share, never evaluated: 2, 32, 65536. -/
abbrev w2 : EReal := Ideal.ofBits .f32 0x40000000#32
abbrev w32 : EReal := Ideal.ofBits .f32 0x42000000#32
abbrev w65536 : EReal := Ideal.ofBits .f32 0x47800000#32

/-- Signed distance of the point `p` to the plane `(nh, d)`. -/
def dist (p nh : Fin 3 → EReal) (d : EReal) : EReal := (∑ k, p k * nh k) + d

/-- The point reflected through the plane, coordinate `k`. -/
def refl (p nh : Fin 3 → EReal) (d : EReal) (k : Fin 3) : EReal := p k - (w2 * dist p nh d) * nh k

/-- The voxel coordinate of `y` as the machine word both programs compute: scale by 32, floor, clamp to [0, 31], convert. -/
def voxW (y : EReal) : BitVec 32 :=
  Ideal.fptosi 32 (min ((31 : ℝ) : EReal) (max (0 : EReal) (Ideal.liftRound Int.floor (y * w32))))

/-- A value clamped between 0 and 31 converts to a word below 32: it is a real whose floor lies in [0, 31]. -/
theorem fptosi_toNat_lt {z : EReal} (h0 : 0 ≤ z) (h1 : z ≤ ((31 : ℝ) : EReal)) : (Ideal.fptosi 32 z).toNat < 32 := by
  have hbot : z ≠ ⊥ := by
    rintro rfl
    simp at h0
  have htop : z ≠ ⊤ := by
    rintro rfl
    simp at h1
  lift z to ℝ using ⟨htop, hbot⟩
  have h0' : (0 : ℝ) ≤ z := by exact_mod_cast h0
  have h1' : z ≤ 31 := by exact_mod_cast h1
  have hf0 : 0 ≤ ⌊z⌋ := Int.floor_nonneg.mpr h0'
  have hf1 : ⌊z⌋ ≤ 31 := by
    have h : ⌊z⌋ ≤ ⌊(31 : ℝ)⌋ := Int.floor_le_floor h1'
    have e : ⌊(31 : ℝ)⌋ = 31 := by
      have := Int.floor_intCast (R := ℝ) 31
      simpa using this
    omega
  unfold Ideal.fptosi
  rw [Ideal.toIntClamped_coe, if_pos h0', BitVec.toNat_ofInt]
  norm_num
  omega

/-- The clamp keeps the word below 32 whatever `y` is (an infinity included). -/
theorem voxW_lt (y : EReal) : (voxW y).toNat < 32 := by
  unfold voxW
  apply fptosi_toNat_lt
  · exact le_min (by exact_mod_cast (by norm_num : (0 : ℝ) ≤ 31)) (le_max_left _ _)
  · exact min_le_left _ _

/-- The voxel coordinate as an index of an axis of extent 32. -/
def vox (y : EReal) : Fin 32 := ⟨(voxW y).toNat, voxW_lt y⟩

theorem voxW_eq (y : EReal) : voxW y = BitVec.ofNat 32 (vox y).val := by
  show voxW y = BitVec.ofNat 32 (voxW y).toNat
  rw [BitVec.ofNat_toNat, BitVec.setWidth_eq]

/-- Distance from the reflected point to the closest-point vector stored at its voxel. -/
def pdist (g : Fin 32 → Fin 32 → Fin 32 → Fin 3 → EReal) (p nh : Fin 3 → EReal) (d : EReal) : EReal :=
  Ideal.sqrt (∑ k, (refl p nh d k - g (vox (refl p nh d 0)) (vox (refl p nh d 1)) (vox (refl p nh d 2)) k)
    * (refl p nh d k - g (vox (refl p nh d 0)) (vox (refl p nh d 1)) (vox (refl p nh d 2)) k))

/-- The loss of batch element `b` and plane `h`: the distances summed over all sample points. -/
def loss (P : Fin 64 → Fin 65536 → Fin 3 → EReal) (NH : Fin 64 → Fin 3 → Fin 3 → EReal) (D : Fin 64 → Fin 3 → EReal)
    (G : Fin 64 → Fin 32 → Fin 32 → Fin 32 → Fin 3 → EReal) (b : Fin 64) (h : Fin 3) : EReal :=
  ∑ n : Fin 65536, pdist (G b) (P b n) (NH b h) (D b h)

/-! ## Facts about the extended reals that the two sides lean on -/

/-- A one-hot weighted sum selects its entry: no finiteness needed, `0 · x = 0` and `1 · x = x` for every extended real. -/
theorem sum_onehot {n : ℕ} (k : Fin n) (f : Fin n → EReal) :
    (∑ z : Fin n, (if z = k then (1 : EReal) else 0) * f z) = f k := by
  simp [ite_mul]

theorem sum_onehot' {n : ℕ} (k : Fin n) (f : Fin n → EReal) :
    (∑ z : Fin n, f z * (if z = k then (1 : EReal) else 0)) = f k := by
  simp [mul_ite]

/-- A finite entry minus itself is zero. -/
theorem sub_self_of_finite {x : EReal} (h1 : x ≠ ⊤) (h2 : x ≠ ⊥) : x - x = 0 := by
  lift x to ℝ using ⟨h1, h2⟩
  rw [← EReal.coe_sub, sub_self, EReal.coe_zero]

/-- 65536 as a word is the real 65536. -/
theorem w65536_eq : w65536 = ((65536 : ℝ) : EReal) := by
  simp [Ideal.ofBits, Ideal.ieee]
  rw [← EReal.coe_mul]
  norm_num

/-- 31 and 0 as words, as the clamp's bounds are spelt on the vector unit. -/
theorem ofBits_31 : Ideal.ofBits .f32 0x41F80000#32 = ((31 : ℝ) : EReal) := by
  simp [Ideal.ofBits, Ideal.ieee]
  rw [← EReal.coe_mul]
  norm_num

/-- Multiplication by a non-negative real distributes over every finite sum of extended reals. -/
theorem sum_mul_coe {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

/-- Dividing by 65536 distributes over a finite sum of extended reals: division by a positive real is multiplication by a
    non-negative real, which distributes over every sum of extended reals. -/
theorem div_sum {ι : Type} (s : Finset ι) (f : ι → EReal) :
    Ideal.div (∑ i ∈ s, f i) w65536 = ∑ i ∈ s, Ideal.div (f i) w65536 := by
  rw [w65536_eq]
  simp only [Ideal.div_coe (by norm_num : (65536 : ℝ) ≠ 0)]
  exact sum_mul_coe s f (by norm_num)

/-- The sum over all 65536 points is the sum over the 64 tiles of the sums over each tile's 1024 points. -/
theorem sum_tiles (f : Fin 65536 → EReal) :
    (∑ n : Fin 65536, f n) = ∑ t : Fin 64, ∑ j : Fin 1024, f ⟨t.val * 1024 + j.val, by have := t.isLt; have := j.isLt; omega⟩ := by
  rw [← Fintype.sum_prod_type']
  symm
  refine Fintype.sum_equiv (finProdFinEquiv : Fin 64 × Fin 1024 ≃ Fin 65536) _ _ ?_
  rintro ⟨t, j⟩
  congr 1
  apply Fin.ext
  simp [finProdFinEquiv]
  omega

/-! ## Machine words below 32 -/

/-- Two indices of an axis of extent 32 are equal when their 32-bit words are. -/
theorem ofNat_eq_iff (k z : Fin 32) : BitVec.ofNat 32 z.val = BitVec.ofNat 32 k.val ↔ z = k := by
  constructor
  · intro h
    have h' := congrArg BitVec.toNat h
    simp only [BitVec.toNat_ofNat] at h'
    apply Fin.ext
    have := z.isLt
    have := k.isLt
    omega
  · rintro rfl
    rfl

theorem ofNat_beq_iff (k z : Fin 32) : (BitVec.ofNat 32 z.val == BitVec.ofNat 32 k.val) = true ↔ z = k := by
  rw [beq_iff_eq]
  exact ofNat_eq_iff k z

/-- The comparison of two such words is the comparison of the indices. -/
theorem cmpi_eq_ofNat (k z : Fin 32) :
    IntOp.cmpi .eq (BitVec.ofNat 32 z.val) (BitVec.ofNat 32 k.val) = if z = k then 1#1 else 0#1 := by
  unfold IntOp.cmpi
  by_cases h : z = k
  · subst h
    simp
  · have hne : (BitVec.ofNat 32 z.val == BitVec.ofNat 32 k.val) = false := by
      rw [beq_eq_false_iff_ne]
      exact fun e => h ((ofNat_eq_iff k z).mp e)
    simp [hne, h]

/-- The words 0, 1 and 31 converted to floats are the reals 0, 1 and 31. -/
theorem sitofp_0 : (FloatOps.sitofp (F := Ideal) .f32 (0#32 : BitVec 32) : EReal) = 0 := by
  show ((((0#32 : BitVec 32).toInt : ℤ) : ℝ) : EReal) = 0
  simp

theorem sitofp_1 : (FloatOps.sitofp (F := Ideal) .f32 (1#32 : BitVec 32) : EReal) = 1 := by
  show ((((1#32 : BitVec 32).toInt : ℤ) : ℝ) : EReal) = 1
  have e : (1#32 : BitVec 32).toInt = 1 := by decide
  rw [e]
  simp

theorem sitofp_31 : (FloatOps.sitofp (F := Ideal) .f32 (31#32 : BitVec 32) : EReal) = ((31 : ℝ) : EReal) := by
  show ((((31#32 : BitVec 32).toInt : ℤ) : ℝ) : EReal) = ((31 : ℝ) : EReal)
  have e : (31#32 : BitVec 32).toInt = 31 := by decide
  rw [e]
  norm_num

/-- The one-hot weight of lane `z` against the word of `k`: the comparison, widened and converted, is 1 at `z = k` and 0 elsewhere. -/
theorem onehot_word (k z : Fin 32) :
    (FloatOps.sitofp (F := Ideal) .f32
        ((IntOp.cmpi .eq (BitVec.ofNat 32 z.val) (BitVec.ofNat 32 k.val)).setWidth 32) : EReal)
      = if z = k then (1 : EReal) else 0 := by
  rw [cmpi_eq_ofNat]
  by_cases h : z = k
  · rw [if_pos h, if_pos h]
    exact sitofp_1
  · rw [if_neg h, if_neg h]
    exact sitofp_0

/-- A word below 32 is not negative: the signed comparison with zero fails, and its signed value is its unsigned one. -/
theorem cmpi_slt_zero {w : BitVec 32} (h : w.toNat < 32) : IntOp.cmpi .slt w 0#32 = 0#1 := by
  unfold IntOp.cmpi
  have e : w.slt 0#32 = false := by
    rw [BitVec.slt, decide_eq_false_iff_not, BitVec.toInt_eq_toNat_of_lt (by omega)]
    simp
  simp [e]

theorem toInt_of_lt {w : BitVec 32} (h : w.toNat < 32) : w.toInt = (w.toNat : ℤ) :=
  BitVec.toInt_eq_toNat_of_lt (by omega)

theorem voxW_toNat (y : EReal) : (voxW y).toNat = (vox y).val := rfl

theorem voxW_toInt (y : EReal) : (voxW y).toInt = ((vox y).val : ℤ) := toInt_of_lt (voxW_lt y)

theorem voxW_not_neg (y : EReal) : IntOp.cmpi .slt (voxW y) 0#32 = 0#1 := cmpi_slt_zero (voxW_lt y)

end SymLoss

end
-- ==== Proof.HeadSum.lean ====
/-
  One plane's share of a tile's update, as the vector unit computes it, and what it is over the extended reals.

  For the tile's 1024 points `pts`, a plane's unit normal `nh` and offset `dd`, and the batch element's
  closest-point table laid out with the z axis first (`tz[z, (x·32 + y)·3 + k]`, here split into a
  leading part `hi` and a remainder `lo`): reflect every point through the plane (`reflV`), turn each
  reflected coordinate into a voxel word (`voxV`), select the table row of the z word by a one-hot
  matrix product and then the y and x entries by one-hot weighted lane sums (`cpV`), and sum over the
  points the distance between the reflected point and the selected vector (`headSumV`).
  Over the extended reals a one-hot weighted sum IS the selected entry, whatever the other entries are,
  and the remainder `lo = tz − tz` vanishes where the table is finite; so `headSumV` is the sum of
  `SymLoss.pdist` over the tile's points.
-/
import proofs.«121004_j35338990911546_1_alg».proof.Proof.Gen.KernelIdeal
import proofs.«121004_j35338990911546_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option synthInstance.maxSize 4096

noncomputable section

namespace Cert.KernelIdeal.Sym

open Idealize.ShloMosaic Idealize.SL.Sem Idealize.ShloMosaic.ValueIdx
open Cert.KernelIdeal Cert.KernelIdeal.Gen

variable {F : FTy → Type} [FloatOps F]

/-- The tile's points reflected through the plane `(v13, v15)`. -/
def reflV (v4 : FVec F S1024x3 .f32) (v13 : FVec F S3 .f32) (v15 : F .f32) : FVec F S1024x3 .f32 :=
  have v16 : FVec F S1x3 .f32 := shapeCast S1x3 v13 shapeCasts_S3_S1x3
  have v17 : FVec F S1024x3 .f32 := broadcastTo S1024x3 v16 broadcasts_S1x3_S1024x3
  have v18 : FVec F S1024x3 .f32 := mulf v4 v17
  have cst : FVec F S1024 .f32 := constant S1024 .f32 0x00000000#32
  have v19 : FVec F S1024 .f32 := multiReduction .add [1] S1024 v18 0x00000000#32 reduces_S1024x3_S1024 (.inl rfl) rfl
  have v20 : FVec F S1024 .f32 := broadcast S1024 v15
  have v21 : FVec F S1024 .f32 := addf v19 v20
  have v22 : FVec F S1024x1 .f32 := shapeCast S1024x1 v21 shapeCasts_S1024_S1024x1
  have cst_11 : F .f32 := Scalar.ofBits .f32 0x40000000#32
  have v23 : FVec F S1024x1 .f32 := broadcast S1024x1 cst_11
  have v24 : FVec F S1024x1 .f32 := mulf v23 v22
  have v25 : FVec F S1x3 .f32 := shapeCast S1x3 v13 shapeCasts_S3_S1x3
  have v26 : FVec F S1024x3 .f32 := broadcastTo S1024x3 v24 broadcasts_S1024x1_S1024x3
  have v27 : FVec F S1024x3 .f32 := broadcastTo S1024x3 v25 broadcasts_S1x3_S1024x3
  have v28 : FVec F S1024x3 .f32 := mulf v26 v27
  subf v4 v28

/-- The voxel words of reflected points: scale by 32, floor, clamp to [0, 31], convert. -/
def voxV (v29 : FVec F S1024x3 .f32) : IVec S1024x3 32 :=
  have cst_12 : F .f32 := Scalar.ofBits .f32 0x42000000#32
  have v30 : FVec F S1024x3 .f32 := broadcast S1024x3 cst_12
  have v31 : FVec F S1024x3 .f32 := mulf v29 v30
  have v32 : FVec F S1024x3 .f32 := floor v31
  have cst_13 : F .f32 := Scalar.ofBits .f32 0x00000000#32
  have cst_14 : F .f32 := Scalar.ofBits .f32 0x41F80000#32
  have v33 : FVec F S1024x3 .f32 := broadcast S1024x3 cst_13
  have v34 : FVec F S1024x3 .f32 := maximumf v33 v32
  have v35 : FVec F S1024x3 .f32 := broadcast S1024x3 cst_14
  have v36 : FVec F S1024x3 .f32 := minimumf v35 v34
  fptosi 32 v36

/-- The closest-point vectors the voxel words `v37` select from the table `(v7, v10)`; `v11` is the lane counter 0 … 31. -/
def cpV (v7 v10 : FVec F S32x3072 .bf16) (v11 : IVec S1024x32 32) (v37 : IVec S1024x3 32) : FVec F S1024x3 .f32 :=
  have v38 : IVec S1024x1 32 := extractStridedSlice S1024x1 ![0, 0] v37 slices_S1024x3_o0_0_S1024x1
  have v39 : IVec S1024x1 32 := extractStridedSlice S1024x1 ![0, 1] v37 slices_S1024x3_o0_1_S1024x1
  have v40 : IVec S1024x1 32 := extractStridedSlice S1024x1 ![0, 2] v37 slices_S1024x3_o0_2_S1024x1
  have v41 : IVec S1024x32 32 := broadcastTo S1024x32 v40 broadcasts_S1024x1_S1024x32
  have v42 : IVec S1024x32 1 := cmpi .eq v11 v41
  have v43 : IVec S1024x32 32 := extui 32 v42 natLt_1_32
  have v44 : FVec F S1024x32 .f32 := sitofp .f32 v43
  have v45 : FVec F S1024x32 .bf16 := truncf .bf16 v44 bitsLt_bf16_f32
  have cst_15 : FVec F S1024x3072 .f32 := constant S1024x3072 .f32 0x00000000#32
  have v46 : FVec F S1024x3072 .f32 := matmul dot_S1024x32_S32x3072_S1024x3072_1_0_0_1_n_n none v45 v7 cst_15
  have cst_16 : FVec F S1024x3072 .f32 := constant S1024x3072 .f32 0x00000000#32
  have v47 : FVec F S1024x3072 .f32 := matmul dot_S1024x32_S32x3072_S1024x3072_1_0_0_1_n_n none v45 v10 cst_16
  have v48 : FVec F S1024x3072 .f32 := addf v46 v47
  have v49 : FVec F S1024x32x32x3 .f32 := shapeCast S1024x32x32x3 v48 shapeCasts_S1024x3072_S1024x32x32x3
  have v50 : IVec S1024x32 32 := broadcastTo S1024x32 v39 broadcasts_S1024x1_S1024x32
  have v51 : IVec S1024x32 1 := cmpi .eq v11 v50
  have v52 : IVec S1024x32 32 := extui 32 v51 natLt_1_32
  have v53 : FVec F S1024x32 .f32 := sitofp .f32 v52
  have v54 : FVec F S1024x1x32x1 .f32 := shapeCast S1024x1x32x1 v53 shapeCasts_S1024x32_S1024x1x32x1
  have v55 : FVec F S1024x32x32x3 .f32 := broadcastTo S1024x32x32x3 v54 broadcasts_S1024x1x32x1_S1024x32x32x3
  have v56 : FVec F S1024x32x32x3 .f32 := mulf v49 v55
  have cst_17 : FVec F S1024x32x3 .f32 := constant S1024x32x3 .f32 0x00000000#32
  have v57 : FVec F S1024x32x3 .f32 := multiReduction .add [2] S1024x32x3 v56 0x00000000#32 reduces_S1024x32x32x3_S1024x32x3 (.inl rfl) rfl
  have v58 : IVec S1024x32 32 := broadcastTo S1024x32 v38 broadcasts_S1024x1_S1024x32
  have v59 : IVec S1024x32 1 := cmpi .eq v11 v58
  have v60 : IVec S1024x32 32 := extui 32 v59 natLt_1_32
  have v61 : FVec F S1024x32 .f32 := sitofp .f32 v60
  have v62 : FVec F S1024x32x1 .f32 := shapeCast S1024x32x1 v61 shapeCasts_S1024x32_S1024x32x1
  have v63 : FVec F S1024x32x3 .f32 := broadcastTo S1024x32x3 v62 broadcasts_S1024x32x1_S1024x32x3
  have v64 : FVec F S1024x32x3 .f32 := mulf v57 v63
  multiReduction .add [1] S1024x3 v64 0x00000000#32 reduces_S1024x32x3_S1024x3 (.inl rfl) rfl

/-- The plane's share of the tile's update: the distances from the reflected points to their closest-point vectors, summed. -/
def headSumV (v4 : FVec F S1024x3 .f32) (v13 : FVec F S3 .f32) (v15 : F .f32) (v7 v10 : FVec F S32x3072 .bf16) (v11 : IVec S1024x32 32) : F .f32 :=
  have v29 : FVec F S1024x3 .f32 := reflV v4 v13 v15
  have v37 : IVec S1024x3 32 := voxV v29
  have v65 : FVec F S1024x3 .f32 := cpV v7 v10 v11 v37
  have v66 : FVec F S1024x3 .f32 := subf v29 v65
  have v67 : FVec F S1024x3 .f32 := mulf v66 v66
  have cst_19 : FVec F S1024 .f32 := constant S1024 .f32 0x00000000#32
  have v68 : FVec F S1024 .f32 := multiReduction .add [1] S1024 v67 0x00000000#32 reduces_S1024x3_S1024 (.inl rfl) rfl
  have v69 : FVec F S1024 .f32 := sqrt v68
  have v70 : FVec F S1x1024 .f32 := shapeCast S1x1024 v69 shapeCasts_S1024_S1x1024
  have cst_20 : FVec F S1 .f32 := constant S1 .f32 0x00000000#32
  have v71 : FVec F S1 .f32 := multiReduction .add [1] S1 v70 0x00000000#32 reduces_S1x1024_S1 (.inl rfl) rfl
  have v72 : FVec F S1x1 .f32 := shapeCast S1x1 v71 shapeCasts_S1_S1x1
  extractAt ![0, 0] v72 inpos_S1x1_p0_0

/-! ## Over the extended reals -/

/-- The table entry of voxel `(x, y, z)`, component `k`, in the z-first layout. -/
def tzAt (tz : FVec Ideal S32x3072 .f32) (x y z : Fin 32) (k : Fin 3) : EReal :=
  tz (ix2 z ⟨x.val * 96 + y.val * 3 + k.val, by have := x.isLt; have := y.isLt; have := k.isLt; omega⟩)

end Cert.KernelIdeal.Sym

end
-- ==== Proof.CpSelect.lean ====
/-
  The one-hot selection of a closest-point vector from the table, read at one point and one component.

  The table of a batch element is laid out with the z axis first: row `z`, entry `(x·32 + y)·3 + k`. For a tile's 1024
  points with voxel words `(vx, vy, vz)` (each below 32), the vector unit selects the table entry in three stages.
  Along z: the [1024,32] matrix whose row `j` is 1 on lane `vz j` and 0 elsewhere is multiplied into the table and into the
  table's remainder `tz − tz`, both into a zero accumulator, and the two products are added; a one-hot weighted sum is its
  hot entry (`0 · x = 0` and `1 · x = x` for every extended real), and the remainder is zero because the table is finite,
  so row `j` of the sum is the table's row `vz j`. The row of 3072 entries is then viewed as [32,32,3]. Along y: it is
  multiplied by the mask that is 1 where the y coordinate is `vy j` and summed over y. Along x: the same with `vx j`.
  What remains at `(j, k)` is the table entry `tz[vz j, (vx j · 32 + vy j) · 3 + k]`.

  Each operation is first read at an index given by explicit coordinates; the three stages are then stated over an
  arbitrary inner vector and an arbitrary mask known only by its values on row `j`, and composed.
-/
import proofs.«121004_j35338990911546_1_alg».proof.Proof.HeadSum
import Idealize.ShloMosaic.Lib.ValueIdx
import Idealize.ShloMosaic.Lib.Pipeline.Value
import Idealize.ShloMosaic.PureOps.Ideal.Laws

set_option synthInstance.maxSize 4096

noncomputable section

namespace Cert.KernelIdeal.Sym.CpSelect

open Idealize.ShloMosaic Idealize.SL.Sem Idealize.ShloMosaic.ValueIdx
open Cert.KernelIdeal Cert.KernelIdeal.Gen Cert.KernelIdeal.Sym

/-! ## The one-hot masks -/

/-- Two lane numbers below 32 are equal as 32-bit words exactly when they are equal. -/
theorem ofNat32_eq_iff (c v : Fin 32) : BitVec.ofNat 32 c.val = BitVec.ofNat 32 v.val ↔ c = v := by
  constructor
  · intro h
    have h' := congrArg BitVec.toNat h
    simp only [BitVec.toNat_ofNat] at h'
    have := c.isLt; have := v.isLt
    exact Fin.ext (by omega)
  · rintro rfl; rfl

/-- The comparison bit of two lane numbers, widened and converted, is the indicator of their equality. -/
theorem onehot_word (c v : Fin 32) :
    (((((IntOp.cmpi .eq (BitVec.ofNat 32 c.val) (BitVec.ofNat 32 v.val)).setWidth 32).toInt : ℝ)) : EReal)
      = if c = v then (1 : EReal) else 0 := by
  unfold IntOp.cmpi
  by_cases h : c = v
  · subst h; simp
  · have hne : ¬ BitVec.ofNat 32 c.val = BitVec.ofNat 32 v.val := fun e => h ((ofNat32_eq_iff c v).1 e)
    have hb : (BitVec.ofNat 32 c.val == BitVec.ofNat 32 v.val) = false := beq_eq_false_iff_ne.2 hne
    rw [hb, if_neg h]
    simp

/-- The mask of a column of words against the lane counter, at point `j` and lane `c`: 1 on the lane the word names, else 0. -/
theorem mask_apply (w : IVec S1024x1 32) (j : Fin 1024) (c v : Fin 32) (hw : w (ix2 j (0 : Fin 1)) = BitVec.ofNat 32 v.val) :
    (sitofp .f32 (extui 32 (cmpi .eq (iota .tc S1024x32 32 [1] iota_S1024x32_d1_w32)
        (broadcastTo S1024x32 w broadcasts_S1024x1_S1024x32)) natLt_1_32) : FVec Ideal S1024x32 .f32) (ix2 j c)
      = if c = v then (1 : EReal) else 0 := by
  rw [sitofp_apply, extui_apply]
  show FloatOps.sitofp (F := Ideal) .f32 ((IntOp.cmpi .eq (iota .tc S1024x32 32 [1] iota_S1024x32_d1_w32 (ix2 j c))
      (broadcastTo S1024x32 w broadcasts_S1024x1_S1024x32 (ix2 j c))).setWidth 32) = _
  rw [iota_single_apply, broadcastTo_apply w broadcasts_S1024x1_S1024x32 (ix2 j c) (ix2 j (0 : Fin 1))
    (fun a => match a with | ⟨0, _⟩ => rfl | ⟨1, _⟩ => rfl), hw]
  exact onehot_word c v

/-- Column `c` of the voxel words, as a one-column array, at point `j`. -/
theorem col_apply (v37 : IVec S1024x3 32) (c : Fin 3) (h : S1024x3.Slices ![0, c.val] S1024x1) (j : Fin 1024) :
    extractStridedSlice S1024x1 ![0, c.val] v37 h (ix2 j (0 : Fin 1)) = v37 (ix2 j c) :=
  extractStridedSlice_apply ![0, c.val] v37 h (ix2 j (0 : Fin 1)) (ix2 j c)
    (fun a => match a with | ⟨0, _⟩ => (Nat.zero_add _).symm | ⟨1, _⟩ => rfl)

/-! ## The matrix product at an index -/

theorem lhs_mm_0 (i : S1024x3072.Idx) (q : dot_S1024x32_S32x3072_S1024x3072_1_0_0_1_n_n.contr.Idx) :
    (dot_S1024x32_S32x3072_S1024x3072_1_0_0_1_n_n.lhsIdx i q 0).val = (i 0).val := by
  unfold DotDims.lhsIdx
  rw [dif_neg (show ¬(0 : Fin S1024x32.rank) ∈ dot_S1024x32_S32x3072_S1024x3072_1_0_0_1_n_n.lhsBatch by decide), dif_pos (show (0 : Fin S1024x32.rank) ∈ dot_S1024x32_S32x3072_S1024x3072_1_0_0_1_n_n.lhsNonContracting by decide)]
  rfl
theorem lhs_mm_1 (i : S1024x3072.Idx) (q : dot_S1024x32_S32x3072_S1024x3072_1_0_0_1_n_n.contr.Idx) :
    (dot_S1024x32_S32x3072_S1024x3072_1_0_0_1_n_n.lhsIdx i q 1).val = (q ⟨0, by decide⟩).val :=
  dot_S1024x32_S32x3072_S1024x3072_1_0_0_1_n_n.lhsIdx_val_of_single rfl i q
theorem rhs_mm_0 (i : S1024x3072.Idx) (q : dot_S1024x32_S32x3072_S1024x3072_1_0_0_1_n_n.contr.Idx) :
    (dot_S1024x32_S32x3072_S1024x3072_1_0_0_1_n_n.rhsIdx i q 0).val = (q ⟨0, by decide⟩).val :=
  dot_S1024x32_S32x3072_S1024x3072_1_0_0_1_n_n.rhsIdx_val_of_single rfl i q
theorem rhs_mm_1 (i : S1024x3072.Idx) (q : dot_S1024x32_S32x3072_S1024x3072_1_0_0_1_n_n.contr.Idx) :
    (dot_S1024x32_S32x3072_S1024x3072_1_0_0_1_n_n.rhsIdx i q 1).val = (i 1).val := by
  unfold DotDims.rhsIdx
  rw [dif_neg (show ¬(1 : Fin S32x3072.rank) ∈ dot_S1024x32_S32x3072_S1024x3072_1_0_0_1_n_n.rhsBatch by decide), dif_pos (show (1 : Fin S32x3072.rank) ∈ dot_S1024x32_S32x3072_S1024x3072_1_0_0_1_n_n.rhsNonContracting by decide)]
  rfl

/-- The product of a [1024,32] matrix with a [32,3072] matrix into the zero accumulator, at row `j` and column `f`:
    the sum over the 32 contracted lanes of the entries' products. -/
theorem mm_apply (lhs : FVec Ideal S1024x32 .bf16) (rhs : FVec Ideal S32x3072 .bf16) (j : Fin 1024) (f : Fin 3072) :
    matmul dot_S1024x32_S32x3072_S1024x3072_1_0_0_1_n_n none lhs rhs (constant (F := Ideal) S1024x3072 .f32 0x00000000#32) (ix2 j f)
      = ∑ z : Fin 32, lhs (ix2 j z) * rhs (ix2 z f) := by
  simp only [matmul]
  rw [Ideal.matmul_constant_zero_apply, ← Equiv.sum_comp (ValueIdx.contrEquiv1 dot_S1024x32_S32x3072_S1024x3072_1_0_0_1_n_n 32 rfl rfl).symm]
  refine Finset.sum_congr rfl fun k _ => ?_
  have hk := ValueIdx.contrEquiv1_symm_val dot_S1024x32_S32x3072_S1024x3072_1_0_0_1_n_n 32 rfl rfl k
  have el : dot_S1024x32_S32x3072_S1024x3072_1_0_0_1_n_n.lhsIdx (ix2 j f) ((ValueIdx.contrEquiv1 dot_S1024x32_S32x3072_S1024x3072_1_0_0_1_n_n 32 rfl rfl).symm k) = ix2 j k := funext fun a => Fin.ext (by
    match a with
    | ⟨0, _⟩ => exact lhs_mm_0 _ _
    | ⟨1, _⟩ => exact (lhs_mm_1 _ _).trans hk)
  have er : dot_S1024x32_S32x3072_S1024x3072_1_0_0_1_n_n.rhsIdx (ix2 j f) ((ValueIdx.contrEquiv1 dot_S1024x32_S32x3072_S1024x3072_1_0_0_1_n_n 32 rfl rfl).symm k) = ix2 k f := funext fun a => Fin.ext (by
    match a with
    | ⟨0, _⟩ => exact (rhs_mm_0 _ _).trans hk
    | ⟨1, _⟩ => exact rhs_mm_1 _ _)
  rw [el, er]

/-! ## The layout operations at an index -/

/-- The row of 3072 entries viewed as [32,32,3]: entry `(x, y, k)` is entry `x·96 + y·3 + k` of the row. -/
theorem cast4_apply (v : FVec Ideal S1024x3072 .f32) (j : Fin 1024) (x y : Fin 32) (k : Fin 3) :
    shapeCast S1024x32x32x3 v shapeCasts_S1024x3072_S1024x32x32x3 (ix4 j x y k)
      = v (ix2 j ⟨x.val * 96 + y.val * 3 + k.val, by have := x.isLt; have := y.isLt; have := k.isLt; omega⟩) :=
  shapeCast_apply v shapeCasts_S1024x3072_S1024x32x32x3 (ix4 j x y k) _
    (by rw [Shape.rowMajor_val_two, Shape.rowMajor_val_four]
        show j.val * 3072 + (x.val * 96 + y.val * 3 + k.val) = ((j.val * 32 + x.val) * 32 + y.val) * 3 + k.val
        omega)

/-- A [1024,32] mask placed on the y axis of [1024,32,32,3]: entry `(j, x, y, k)` is the mask at `(j, y)`. -/
theorem ymask_apply (m : FVec Ideal S1024x32 .f32) (j : Fin 1024) (x y : Fin 32) (k : Fin 3) :
    broadcastTo S1024x32x32x3 (shapeCast S1024x1x32x1 m shapeCasts_S1024x32_S1024x1x32x1) broadcasts_S1024x1x32x1_S1024x32x32x3 (ix4 j x y k)
      = m (ix2 j y) :=
  (broadcastTo_apply (shapeCast S1024x1x32x1 m shapeCasts_S1024x32_S1024x1x32x1) broadcasts_S1024x1x32x1_S1024x32x32x3
      (ix4 j x y k) (ix4 j (0 : Fin 1) y (0 : Fin 1))
      (fun a => match a with | ⟨0, _⟩ => rfl | ⟨1, _⟩ => rfl | ⟨2, _⟩ => rfl | ⟨3, _⟩ => rfl)).trans
    (shapeCast_apply m shapeCasts_S1024x32_S1024x1x32x1 (ix4 j (0 : Fin 1) y (0 : Fin 1)) (ix2 j y)
      (by rw [Shape.rowMajor_val_two, Shape.rowMajor_val_four]
          show j.val * 32 + y.val = ((j.val * 1 + 0) * 32 + y.val) * 1 + 0
          omega))

/-- A [1024,32] mask placed on the x axis of [1024,32,3]: entry `(j, x, k)` is the mask at `(j, x)`. -/
theorem xmask_apply (m : FVec Ideal S1024x32 .f32) (j : Fin 1024) (x : Fin 32) (k : Fin 3) :
    broadcastTo S1024x32x3 (shapeCast S1024x32x1 m shapeCasts_S1024x32_S1024x32x1) broadcasts_S1024x32x1_S1024x32x3 (ix3 j x k)
      = m (ix2 j x) :=
  (broadcastTo_apply (shapeCast S1024x32x1 m shapeCasts_S1024x32_S1024x32x1) broadcasts_S1024x32x1_S1024x32x3
      (ix3 j x k) (ix3 j x (0 : Fin 1))
      (fun a => match a with | ⟨0, _⟩ => rfl | ⟨1, _⟩ => rfl | ⟨2, _⟩ => rfl)).trans
    (shapeCast_apply m shapeCasts_S1024x32_S1024x32x1 (ix3 j x (0 : Fin 1)) (ix2 j x)
      (by rw [Shape.rowMajor_val_two, Shape.rowMajor_val_three]
          show j.val * 32 + x.val = (j.val * 32 + x.val) * 1 + 0
          omega))

/-! ## The lane sums at an index -/

/-- The sum over the y axis of a [1024,32,32,3] vector, at `(j, x, k)`. -/
theorem sumY_apply (src : FVec Ideal S1024x32x32x3 .f32) (hφ : FKind.Formats .f32)
    (hacc : (0x00000000#32 : BitVec 32) = 0x00000000#32) (j : Fin 1024) (x : Fin 32) (k : Fin 3) :
    multiReduction .add [2] S1024x32x3 src 0x00000000#32 reduces_S1024x32x32x3_S1024x32x3 hφ hacc (ix3 j x k)
      = ∑ y : Fin 32, src (ix4 j x y k) :=
  (Ideal.multiReduction_add_single src 0x00000000#32 reduces_S1024x32x32x3_S1024x32x3 hφ hacc (ix3 j x k)).trans
    (Finset.sum_congr rfl fun y _ => congrArg src (funext fun a => Fin.ext
      (match a with | ⟨0, _⟩ => rfl | ⟨1, _⟩ => rfl | ⟨2, _⟩ => rfl | ⟨3, _⟩ => rfl)))

/-- The sum over the x axis of a [1024,32,3] vector, at `(j, k)`. -/
theorem sumX_apply (src : FVec Ideal S1024x32x3 .f32) (hφ : FKind.Formats .f32)
    (hacc : (0x00000000#32 : BitVec 32) = 0x00000000#32) (j : Fin 1024) (k : Fin 3) :
    multiReduction .add [1] S1024x3 src 0x00000000#32 reduces_S1024x32x3_S1024x3 hφ hacc (ix2 j k)
      = ∑ x : Fin 32, src (ix3 j x k) :=
  (Ideal.multiReduction_add_single src 0x00000000#32 reduces_S1024x32x3_S1024x3 hφ hacc (ix2 j k)).trans
    (Finset.sum_congr rfl fun x _ => congrArg src (funext fun a => Fin.ext
      (match a with | ⟨0, _⟩ => rfl | ⟨1, _⟩ => rfl | ⟨2, _⟩ => rfl)))

/-! ## The three selections -/

/-- Selection along x: a [1024,32,3] vector weighted by a one-hot mask on the x axis and summed over x is its entry at the hot lane. -/
theorem xsel_apply (V : FVec Ideal S1024x32x3 .f32) (m : FVec Ideal S1024x32 .f32) (j : Fin 1024) (k : Fin 3) (vx : Fin 32)
    (hm : ∀ c : Fin 32, m (ix2 j c) = if c = vx then (1 : EReal) else 0)
    (hφ : FKind.Formats .f32) (hacc : (0x00000000#32 : BitVec 32) = 0x00000000#32) :
    multiReduction .add [1] S1024x3
        (mulf V (broadcastTo S1024x32x3 (shapeCast S1024x32x1 m shapeCasts_S1024x32_S1024x32x1) broadcasts_S1024x32x1_S1024x32x3))
        0x00000000#32 reduces_S1024x32x3_S1024x3 hφ hacc (ix2 j k)
      = V (ix3 j vx k) := by
  refine (sumX_apply _ hφ hacc j k).trans ?_
  refine Eq.trans (Finset.sum_congr rfl fun x _ => ?_) (SymLoss.sum_onehot' vx fun x => V (ix3 j x k))
  rw [mulf_apply, xmask_apply, hm]

/-- Selection along y: the [1024,3072] rows viewed as [32,32,3], weighted by a one-hot mask on the y axis and summed over y. -/
theorem ysel_apply (V : FVec Ideal S1024x3072 .f32) (m : FVec Ideal S1024x32 .f32) (j : Fin 1024) (x : Fin 32) (k : Fin 3) (vy : Fin 32)
    (hm : ∀ c : Fin 32, m (ix2 j c) = if c = vy then (1 : EReal) else 0)
    (hφ : FKind.Formats .f32) (hacc : (0x00000000#32 : BitVec 32) = 0x00000000#32) :
    multiReduction .add [2] S1024x32x3
        (mulf (shapeCast S1024x32x32x3 V shapeCasts_S1024x3072_S1024x32x32x3)
          (broadcastTo S1024x32x32x3 (shapeCast S1024x1x32x1 m shapeCasts_S1024x32_S1024x1x32x1) broadcasts_S1024x1x32x1_S1024x32x32x3))
        0x00000000#32 reduces_S1024x32x32x3_S1024x32x3 hφ hacc (ix3 j x k)
      = V (ix2 j ⟨x.val * 96 + vy.val * 3 + k.val, by have := x.isLt; have := vy.isLt; have := k.isLt; omega⟩) := by
  refine (sumY_apply _ hφ hacc j x k).trans ?_
  refine Eq.trans (Finset.sum_congr rfl fun y _ => ?_)
    (SymLoss.sum_onehot' vy fun y : Fin 32 =>
      V (ix2 j ⟨x.val * 96 + y.val * 3 + k.val, by have := x.isLt; have := y.isLt; have := k.isLt; omega⟩))
  rw [mulf_apply, ymask_apply, cast4_apply, hm]

/-- Selection along z: the one-hot matrix times the table, plus the one-hot matrix times the table's remainder, is the table's
    row at the hot lane; the remainder `tz − tz` is zero because the table is finite. -/
theorem zsel_apply (tz : FVec Ideal S32x3072 .f32) (hfin : ∀ i, tz i ≠ ⊤ ∧ tz i ≠ ⊥)
    (m : FVec Ideal S1024x32 .f32) (j : Fin 1024) (f : Fin 3072) (vz : Fin 32)
    (hm : ∀ c : Fin 32, m (ix2 j c) = if c = vz then (1 : EReal) else 0) :
    addf
        (matmul dot_S1024x32_S32x3072_S1024x3072_1_0_0_1_n_n none (truncf .bf16 m bitsLt_bf16_f32)
          (truncf .bf16 tz bitsLt_bf16_f32) (constant (F := Ideal) S1024x3072 .f32 0x00000000#32))
        (matmul dot_S1024x32_S32x3072_S1024x3072_1_0_0_1_n_n none (truncf .bf16 m bitsLt_bf16_f32)
          (truncf .bf16 (subf tz tz) bitsLt_bf16_f32) (constant (F := Ideal) S1024x3072 .f32 0x00000000#32)) (ix2 j f)
      = tz (ix2 vz f) := by
  rw [addf_apply, mm_apply, mm_apply]
  have e1 : (∑ z : Fin 32, (truncf .bf16 m bitsLt_bf16_f32 : FVec Ideal S1024x32 .bf16) (ix2 j z)
        * (truncf .bf16 tz bitsLt_bf16_f32 : FVec Ideal S32x3072 .bf16) (ix2 z f)) = tz (ix2 vz f) := by
    refine Eq.trans (Finset.sum_congr rfl fun z _ => ?_) (SymLoss.sum_onehot vz fun z => tz (ix2 z f))
    rw [truncf_apply, truncf_apply, hm]
  have e2 : (∑ z : Fin 32, (truncf .bf16 m bitsLt_bf16_f32 : FVec Ideal S1024x32 .bf16) (ix2 j z)
        * (truncf .bf16 (subf tz tz) bitsLt_bf16_f32 : FVec Ideal S32x3072 .bf16) (ix2 z f)) = 0 := by
    refine Eq.trans (Finset.sum_congr rfl fun z _ => ?_) (Finset.sum_const_zero)
    rw [truncf_apply, truncf_apply, subf_apply, SymLoss.sub_self_of_finite (hfin _).1 (hfin _).2, mul_zero]
  rw [e1, e2, add_zero]

end Cert.KernelIdeal.Sym.CpSelect

namespace Cert.KernelIdeal.Sym

open Idealize.ShloMosaic Idealize.SL.Sem Idealize.ShloMosaic.ValueIdx
open Cert.KernelIdeal Cert.KernelIdeal.Gen
open Cert.KernelIdeal.Sym.CpSelect

/-! ## The selection -/

/-- The selection, read at point `j`, component `k`: the table entry at the voxel the three words name. -/
theorem cpV_select (tz : FVec Ideal S32x3072 .f32) (hfin : ∀ i, tz i ≠ ⊤ ∧ tz i ≠ ⊥)
    (v37 : IVec S1024x3 32) (vx : Fin 1024 → Fin 3 → Fin 32) (hv : ∀ j k, v37 (ix2 j k) = BitVec.ofNat 32 (vx j k).val)
    (j : Fin 1024) (k : Fin 3) :
    cpV (F := Ideal) (truncf .bf16 tz bitsLt_bf16_f32) (truncf .bf16 (subf tz tz) bitsLt_bf16_f32)
        (iota .tc S1024x32 32 [1] iota_S1024x32_d1_w32) v37 (ix2 j k)
      = tzAt tz (vx j 0) (vx j 1) (vx j 2) k := by
  unfold cpV tzAt
  dsimp only
  refine (xsel_apply _ _ j k (vx j 0)
    (fun c => mask_apply _ j c (vx j 0) ((col_apply v37 0 slices_S1024x3_o0_0_S1024x1 j).trans (hv j 0))) _ _).trans ?_
  refine (ysel_apply _ _ j (vx j 0) k (vx j 1)
    (fun c => mask_apply _ j c (vx j 1) ((col_apply v37 1 slices_S1024x3_o0_1_S1024x1 j).trans (hv j 1))) _ _).trans ?_
  exact zsel_apply tz hfin _ j _ (vx j 2)
    (fun c => mask_apply _ j c (vx j 2) ((col_apply v37 2 slices_S1024x3_o0_2_S1024x1 j).trans (hv j 2)))

end Cert.KernelIdeal.Sym

end
-- ==== Proof.HeadValue.lean ====
/-
  What one plane's share of a tile's update is, entry by entry, over the extended reals.

  The reflected point: at point `j`, component `k`, the vector unit's chain (the normal laid along every row, the
  row sums `∑ₖ pₖ·nhₖ`, the offset added, the factor 2, the column laid along every component) is
  `pₖ − (2·(∑ₖ pₖ·nhₖ + d))·nhₖ`, which is `SymLoss.refl`.  The voxel word: the clamp's bounds are the words of 0 and 31,
  so the chain is `SymLoss.voxW` of the coordinate.  The share itself: the squares of `refl − selected vector` summed
  over the three components, the root taken, and the roots summed over the tile's 1024 points; with the selection
  read as the table entry at the voxel the three words name, this is the sum of `SymLoss.pdist` over the points.
  Only identities that hold for every extended real are used on the reflected point.
-/
import proofs.«121004_j35338990911546_1_alg».proof.Proof.HeadSum
import proofs.«121004_j35338990911546_1_alg».proof.Proof.CpSelect

set_option synthInstance.maxSize 4096

noncomputable section

namespace Cert.KernelIdeal.Sym

open Idealize.ShloMosaic Idealize.SL.Sem Idealize.ShloMosaic.ValueIdx
open Cert.KernelIdeal Cert.KernelIdeal.Gen

namespace HeadValue

section Reads
variable {α : Type}

/-- A column `[a, 1]` broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Reads

/-- A sum over the three components of each of 1024 rows, read at row `j`. -/
theorem rowSum_apply (src : FVec Ideal S1024x3 .f32) (h : S1024x3.Reduces [1] S1024) (hφ : FKind.Formats .f32)
    (hacc : (0x00000000#32 : BitVec 32) = FKind.add.neutral .f32 hφ) (j : Fin 1024) :
    multiReduction .add [1] S1024 src 0x00000000#32 h hφ hacc (ix1 j) = ∑ k : Fin 3, src (ix2 j k) := by
  refine (Ideal.multiReduction_add_single src 0x00000000#32 h hφ hacc (ix1 j)).trans ?_
  refine Finset.sum_congr rfl fun k _ => congrArg src ?_
  funext a
  match a with
  | ⟨0, _⟩ => rfl
  | ⟨1, _⟩ => rfl

/-- A sum over the 1024 entries of a single row, read at that row. -/
theorem laneSum_apply (src : FVec Ideal S1x1024 .f32) (h : S1x1024.Reduces [1] S1) (hφ : FKind.Formats .f32)
    (hacc : (0x00000000#32 : BitVec 32) = FKind.add.neutral .f32 hφ) (u : Fin 1) :
    multiReduction .add [1] S1 src 0x00000000#32 h hφ hacc (ix1 u) = ∑ n : Fin 1024, src (ix2 (0 : Fin 1) n) := by
  refine (Ideal.multiReduction_add_single src 0x00000000#32 h hφ hacc (ix1 u)).trans ?_
  refine Finset.sum_congr rfl fun n _ => congrArg src ?_
  funext a
  match a with
  | ⟨0, _⟩ => exact Fin.ext (by have := u.isLt; show u.val = 0; omega)
  | ⟨1, _⟩ => rfl

/-- The plane's normal laid along every row: at `(j, k)` it is the normal's component `k`. -/
theorem normalRows_apply (v13 : FVec Ideal S3 .f32) (j : Fin 1024) (k : Fin 3) :
    broadcastTo S1024x3 (shapeCast S1x3 v13 shapeCasts_S3_S1x3) broadcasts_S1x3_S1024x3 (ix2 j k) = v13 (ix1 k) :=
  (broadcastTo_1b_ab_apply _ broadcasts_S1x3_S1024x3 j k).trans (shapeCast_a_1a_apply v13 shapeCasts_S3_S1x3 0 k)

/-- The tail of the plane's share: for every point the root of the summed squares of `R − C`, then the sum over the
    points, read out of the one-entry result. -/
theorem distSum_apply (R C : FVec Ideal S1024x3 .f32) :
    extractAt ![0, 0]
        (shapeCast S1x1
          (multiReduction .add [1] S1
            (shapeCast S1x1024
              (sqrt (multiReduction .add [1] S1024 (mulf (subf R C) (subf R C)) 0x00000000#32 reduces_S1024x3_S1024 (.inl rfl) rfl))
              shapeCasts_S1024_S1x1024)
            0x00000000#32 reduces_S1x1024_S1 (.inl rfl) rfl)
          shapeCasts_S1_S1x1)
        inpos_S1x1_p0_0
      = ∑ j : Fin 1024, Ideal.sqrt (∑ k : Fin 3, (R (ix2 j k) - C (ix2 j k)) * (R (ix2 j k) - C (ix2 j k))) := by
  have hi : (fun a : Fin S1x1.rank => (⟨(![0, 0] : Fin 2 → ℕ) a, inpos_S1x1_p0_0 a⟩ : Fin (S1x1.size a)))
      = ix2 (0 : Fin 1) (0 : Fin 1) := by
    funext a
    match a with
    | ⟨0, _⟩ => rfl
    | ⟨1, _⟩ => rfl
  unfold extractAt
  rw [hi, shapeCast_a_1a_apply]
  refine (laneSum_apply _ reduces_S1x1024_S1 (.inl rfl) rfl 0).trans ?_
  refine Finset.sum_congr rfl fun n _ => ?_
  rw [shapeCast_a_1a_apply]
  exact congrArg Ideal.sqrt
    ((rowSum_apply _ reduces_S1024x3_S1024 (.inl rfl) rfl n).trans (Finset.sum_congr rfl fun k _ => rfl))

end HeadValue

open HeadValue

/-- A reflected coordinate, read at point `j`, component `k`. -/
theorem reflV_read (v4 : FVec Ideal S1024x3 .f32) (v13 : FVec Ideal S3 .f32) (v15 : EReal) (j : Fin 1024) (k : Fin 3) :
    reflV (F := Ideal) v4 v13 v15 (ix2 j k) = SymLoss.refl (fun k => v4 (ix2 j k)) (fun k => v13 (ix1 k)) v15 k := by
  have hsum : multiReduction .add [1] S1024
      (mulf v4 (broadcastTo S1024x3 (shapeCast S1x3 v13 shapeCasts_S3_S1x3) broadcasts_S1x3_S1024x3))
      0x00000000#32 reduces_S1024x3_S1024 (.inl rfl) rfl (ix1 j) = ∑ k : Fin 3, v4 (ix2 j k) * v13 (ix1 k) :=
    (rowSum_apply _ reduces_S1024x3_S1024 (.inl rfl) rfl j).trans
      (Finset.sum_congr rfl fun k _ => by rw [mulf_apply, normalRows_apply])
  unfold reflV SymLoss.refl SymLoss.dist
  dsimp only
  rw [subf_apply, mulf_apply, normalRows_apply, broadcastTo_a1_ab_apply, mulf_apply, broadcast_apply,
    shapeCast_a_a1_apply, addf_apply, broadcast_apply]
  exact congrArg (fun s => v4 (ix2 j k) - SymLoss.w2 * (s + v15) * v13 (ix1 k)) hsum

/-- A voxel word, read at point `j`, component `k`: the clamp's bounds are the words of `0` and `31`. -/
theorem voxV_read (v29 : FVec Ideal S1024x3 .f32) (j : Fin 1024) (k : Fin 3) :
    voxV (F := Ideal) v29 (ix2 j k) = SymLoss.voxW (v29 (ix2 j k)) := by
  unfold voxV SymLoss.voxW
  show Ideal.fptosi 32 (min (Ideal.ofBits .f32 0x41F80000#32)
      (max (Ideal.ofBits .f32 0x00000000#32) (Ideal.liftRound Int.floor (v29 (ix2 j k) * SymLoss.w32)))) = _
  rw [SymLoss.ofBits_31, Ideal.ofBits_zero_f32]

/-- The plane's share of the tile's update is the sum over the tile's points of the point's distance. -/
theorem headSumV_read (v4 : FVec Ideal S1024x3 .f32) (v13 : FVec Ideal S3 .f32) (v15 : EReal)
    (tz : FVec Ideal S32x3072 .f32) (hfin : ∀ i, tz i ≠ ⊤ ∧ tz i ≠ ⊥) :
    headSumV (F := Ideal) v4 v13 v15 (truncf .bf16 tz bitsLt_bf16_f32) (truncf .bf16 (subf tz tz) bitsLt_bf16_f32)
        (iota .tc S1024x32 32 [1] iota_S1024x32_d1_w32)
      = ∑ j : Fin 1024, SymLoss.pdist (tzAt tz) (fun k => v4 (ix2 j k)) (fun k => v13 (ix1 k)) v15 := by
  have hv : ∀ j k, voxV (F := Ideal) (reflV (F := Ideal) v4 v13 v15) (ix2 j k)
      = BitVec.ofNat 32 (SymLoss.vox (reflV (F := Ideal) v4 v13 v15 (ix2 j k))).val :=
    fun j k => (voxV_read _ j k).trans (SymLoss.voxW_eq _)
  unfold headSumV
  dsimp only
  refine (distSum_apply _ _).trans (Finset.sum_congr rfl fun j _ => ?_)
  unfold SymLoss.pdist
  refine congrArg Ideal.sqrt (Finset.sum_congr rfl fun k _ => ?_)
  rw [cpV_select tz hfin _ (fun j k => SymLoss.vox (reflV (F := Ideal) v4 v13 v15 (ix2 j k))) hv j k]
  simp only [reflV_read]

end Cert.KernelIdeal.Sym

end
-- ==== Proof.Pieces.lean ====
/-
  What one grid point does to the three running sums, and what its update is over the extended reals.

  The kernel keeps, for one batch element, the three planes' running sums in a carried `[1, 3, 1]` vector. At a
  tile it forms the update `updV`: for each plane `h` the plane's share `headSumV` of the tile (the distances
  from the tile's reflected points to their closest-point vectors, summed), computed from row `h` of the plane
  block (its first three columns the unit normal, its last the offset), the three shares laid one per row. The
  three control cases differ only in what the running sums are before the step: the first tile of a batch
  element resets them to zero and then adds (`accStep zeroV`), every later tile adds to what the tile before
  left (`accStep xs0`), and the last tile of a batch element also copies the result to the output block.
  Over the extended reals an accumulation step is entrywise addition, the reset vector is zero, and row `h` of
  the update is `∑ j, SymLoss.pdist` over the tile's 1024 points with the table read in its z-first layout.
-/
import proofs.«121004_j35338990911546_1_alg».proof.Proof.Gen.KernelIdeal.Frame
import proofs.«121004_j35338990911546_1_alg».proof.Proof.HeadSum
import proofs.«121004_j35338990911546_1_alg».proof.Proof.HeadValue
import Idealize.ShloMosaic.Lib.ValueIdx
import Idealize.ShloMosaic.Lib.Pipeline.Value
import Idealize.ShloMosaic.Lib.ValueLayout
import Idealize.ShloMosaic.Lib.Tactic
import Idealize.ShloMosaic.PureOps.Ideal.Laws

set_option synthInstance.maxSize 4096
set_option maxRecDepth 16384

noncomputable section

namespace Cert.KernelIdeal.Sym

open Idealize.ShloMosaic Idealize.ShloMosaic.TcCoe Idealize.ShloMosaic.Tactic Idealize.SL.Sem Idealize.ShloMosaic.ValueIdx
open Cert.KernelIdeal Cert.KernelIdeal.Gen

variable {F : FTy → Type} [FloatOps F]

/-! ## The step's ingredients, for any float instance -/

namespace Pieces

/-- The zero offsets of a rank-3 whole-block access, as a constant function. -/
theorem hz3 : (![0, 0, 0] : Fin 3 → Nat) = fun _ => 0 := funext fun a => by fin_cases a <;> rfl

/-- The tile's points, the leading unit axis dropped. -/
def ptsV (x0 : Vec F S1x1024x3 .f32) : FVec F S1024x3 .f32 :=
  shapeCast S1024x3 x0 shapeCasts_S1x1024x3_S1024x3

/-- The batch element's closest-point table (z first), the leading unit axis dropped. -/
def tzV (x2 : Vec F S1x32x3072 .f32) : FVec F S32x3072 .f32 :=
  shapeCast S32x3072 x2 shapeCasts_S1x32x3072_S32x3072

/-- One plane's share of the tile's update, from the plane's normal row `nrow` and offset cell `dcell`. -/
def planeSumV (x0 : Vec F S1x1024x3 .f32) (x2 : Vec F S1x32x3072 .f32) (nrow : Vec F S1x1x3 .f32) (dcell : Vec F S1x1x1 .f32) : F .f32 :=
  headSumV (ptsV x0) (shapeCast S3 nrow shapeCasts_S1x1x3_S3) (extractAt ![0, 0, 0] dcell inpos_S1x1x1_p0_0_0)
    (truncf .bf16 (tzV x2) bitsLt_bf16_f32) (truncf .bf16 (subf (tzV x2) (tzV x2)) bitsLt_bf16_f32)
    (iota .tc S1024x32 32 [1] iota_S1024x32_d1_w32)

end Pieces

open Pieces

/-- The zero vector the first tile of a batch element resets the running sums to. -/
def zeroV : Vec F S1x3x1 .f32 :=
  shapeCast S1x3x1 (broadcast S1x3x1 (Scalar.ofBits .f32 0x00000000#32)) shapeCasts_S1x3x1_S1x3x1

/-- One accumulation step: the running sums plus the tile's update. -/
def accStep (acc u : Vec F S1x3x1 .f32) : Vec F S1x3x1 .f32 :=
  shapeCast S1x3x1 (addf acc u) shapeCasts_S1x3x1_S1x3x1

/-- The tile's update of the three running sums: the three planes' shares, one per row. -/
def updV (x0 : Vec F S1x1024x3 .f32) (x1 : Vec F S1x3x4 .f32) (x2 : Vec F S1x32x3072 .f32) : FVec F S1x3x1 .f32 :=
  shapeCast S1x3x1
    (concatenate S3 0
      [⟨S1, broadcast S1 (planeSumV x0 x2 (View.ld x1 (Rect.unit ![0, 0, 0] S1x1x3.size inb_S1x3x4_S1x1x3_0_0_0)) (View.ld x1 (Rect.unit ![0, 0, 3] S1x1x1.size inb_S1x3x4_S1x1x1_0_0_3)))⟩,
       ⟨S1, broadcast S1 (planeSumV x0 x2 (View.ld x1 (Rect.unit ![0, 1, 0] S1x1x3.size inb_S1x3x4_S1x1x3_0_1_0)) (View.ld x1 (Rect.unit ![0, 1, 3] S1x1x1.size inb_S1x3x4_S1x1x1_0_1_3)))⟩,
       ⟨S1, broadcast S1 (planeSumV x0 x2 (View.ld x1 (Rect.unit ![0, 2, 0] S1x1x3.size inb_S1x3x4_S1x1x3_0_2_0)) (View.ld x1 (Rect.unit ![0, 2, 3] S1x1x1.size inb_S1x3x4_S1x1x1_0_2_3)))⟩]
      concatenates_S1_S1_S1_S3_d0)
    shapeCasts_S3_S1x3x1

/-! ## What each control case leaves -/

/-- The first tile of a batch element: the running sums are reset to zero, then the tile's update is added. -/
theorem sout_A (c : Dev nD) (i : grid0.Coords) (a2 : Memref sig .tc .vmem S1x1024x3 .f32) (h2 : a2.IsWhole) (a3 : Memref sig .tc .vmem S1x3x4 .f32) (h3 : a3.IsWhole) (a4 : Memref sig .tc .vmem S1x32x3072 .f32) (h4 : a4.IsWhole) (a5 : Memref sig .tc .vmem S1x3x1 .f32) (h5 : a5.IsWhole) (a6 : Memref sig .tc .vmem S1x3x1 .f32) (h6 : a6.IsWhole) (hc0 : cond0_0 i) (hc1 : ¬cond0_1 i)
    (x0 : Vec F S1x1024x3 .f32) (x1 : Vec F S1x3x4 .f32) (x2 : Vec F S1x32x3072 .f32) :
    sout0_A_0 c i a2 h2 a3 h3 a4 h4 a5 h5 a6 h6 hc0 hc1 x0 x1 x2 = accStep zeroV (updV x0 x1 x2) := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S1x3x1) hz3]
  simp only [View.readAt_eq_ld, h2.read_unread, h3.read_unread, h4.read_unread, h6.read_unread, View.readCov_unit_zero (S := S1x3x1) _ hz3, View.ld_unit_zero (S := S1x3x1) hz3, View.ld_unit_zero (S := S1x1024x3) hz3, View.ld_unit_zero (S := S1x32x3072) hz3]
  rfl

/-- A middle tile: the tile's update is added to what the tile before left. -/
theorem sout_B (c : Dev nD) (i : grid0.Coords) (a2 : Memref sig .tc .vmem S1x1024x3 .f32) (h2 : a2.IsWhole) (a3 : Memref sig .tc .vmem S1x3x4 .f32) (h3 : a3.IsWhole) (a4 : Memref sig .tc .vmem S1x32x3072 .f32) (h4 : a4.IsWhole) (a5 : Memref sig .tc .vmem S1x3x1 .f32) (h5 : a5.IsWhole) (a6 : Memref sig .tc .vmem S1x3x1 .f32) (h6 : a6.IsWhole) (hc0 : ¬cond0_0 i) (hc1 : ¬cond0_1 i)
    (x0 : Vec F S1x1024x3 .f32) (x1 : Vec F S1x3x4 .f32) (x2 : Vec F S1x32x3072 .f32) (xs0 : Vec F S1x3x1 .f32) :
    sout0_B_0 c i a2 h2 a3 h3 a4 h4 a5 h5 a6 h6 hc0 hc1 x0 x1 x2 xs0 = accStep xs0 (updV x0 x1 x2) := by
  unfold sout0_B_0
  rw [View.read_writes_eq_canon _ _ _ (scover0_B_0 c i a2 h2 a3 h3 a4 h4 a5 h5 a6 h6 hc0 hc1 x0 x1 x2 xs0)]
  unfold kernelRun0_B
  dsimp only
  sl_unfold_words
  rw [View.canon_unit_zero hz3]
  simp only [View.readAt_eq_ld, h2.read_unread, h3.read_unread, h4.read_unread, h6.read_unread, View.ld_unit_zero (S := S1x3x1) hz3, View.ld_unit_zero (S := S1x1024x3) hz3, View.ld_unit_zero (S := S1x32x3072) hz3]
  rfl

/-- The last tile of a batch element leaves the same in the carried vector … -/
theorem sout_C (c : Dev nD) (i : grid0.Coords) (a2 : Memref sig .tc .vmem S1x1024x3 .f32) (h2 : a2.IsWhole) (a3 : Memref sig .tc .vmem S1x3x4 .f32) (h3 : a3.IsWhole) (a4 : Memref sig .tc .vmem S1x32x3072 .f32) (h4 : a4.IsWhole) (a5 : Memref sig .tc .vmem S1x3x1 .f32) (h5 : a5.IsWhole) (a6 : Memref sig .tc .vmem S1x3x1 .f32) (h6 : a6.IsWhole) (hc0 : ¬cond0_0 i) (hc1 : cond0_1 i)
    (x0 : Vec F S1x1024x3 .f32) (x1 : Vec F S1x3x4 .f32) (x2 : Vec F S1x32x3072 .f32) (xs0 : Vec F S1x3x1 .f32) :
    sout0_C_0 c i a2 h2 a3 h3 a4 h4 a5 h5 a6 h6 hc0 hc1 x0 x1 x2 xs0 = accStep xs0 (updV x0 x1 x2) := by
  unfold sout0_C_0
  rw [View.read_writes_eq_canon _ _ _ (scover0_C_0 c i a2 h2 a3 h3 a4 h4 a5 h5 a6 h6 hc0 hc1 x0 x1 x2 xs0)]
  unfold kernelRun0_C
  dsimp only
  sl_unfold_words
  rw [View.canon_unit_zero hz3]
  simp only [View.readAt_eq_ld, h2.read_unread, h3.read_unread, h4.read_unread, h6.read_unread, View.readCov_unit_zero (S := S1x3x1) _ hz3, View.ld_unit_zero (S := S1x3x1) hz3, View.ld_unit_zero (S := S1x1024x3) hz3, View.ld_unit_zero (S := S1x32x3072) hz3]
  rfl

/-- … and writes the same to the output block. -/
theorem out_C (c : Dev nD) (i : grid0.Coords) (a2 : Memref sig .tc .vmem S1x1024x3 .f32) (h2 : a2.IsWhole) (a3 : Memref sig .tc .vmem S1x3x4 .f32) (h3 : a3.IsWhole) (a4 : Memref sig .tc .vmem S1x32x3072 .f32) (h4 : a4.IsWhole) (a5 : Memref sig .tc .vmem S1x3x1 .f32) (h5 : a5.IsWhole) (a6 : Memref sig .tc .vmem S1x3x1 .f32) (h6 : a6.IsWhole) (hc0 : ¬cond0_0 i) (hc1 : cond0_1 i)
    (x0 : Vec F S1x1024x3 .f32) (x1 : Vec F S1x3x4 .f32) (x2 : Vec F S1x32x3072 .f32) (xs0 : Vec F S1x3x1 .f32) :
    out0_C_3 c i a2 h2 a3 h3 a4 h4 a5 h5 a6 h6 hc0 hc1 x0 x1 x2 xs0 = accStep xs0 (updV x0 x1 x2) := by
  unfold out0_C_3
  rw [View.read_writes_eq_canon _ _ _ (cover0_C_3 c i a2 h2 a3 h3 a4 h4 a5 h5 a6 h6 hc0 hc1 x0 x1 x2 xs0)]
  unfold kernelRun0_C
  dsimp only
  sl_unfold_words
  rw [View.canon_unit_zero hz3]
  simp only [View.readAt_eq_ld, h2.read_unread, h3.read_unread, h4.read_unread, h6.read_unread, View.readCov_unit_zero (S := S1x3x1) _ hz3, View.ld_unit_zero (S := S1x3x1) hz3, View.ld_unit_zero (S := S1x1024x3) hz3, View.ld_unit_zero (S := S1x32x3072) hz3]
  rfl

/-! ## Over the extended reals -/

/-- An accumulation step adds entry by entry. -/
theorem accStep_apply (acc u : Vec Ideal S1x3x1 .f32) (i : S1x3x1.Idx) :
    accStep (F := Ideal) acc u i = acc i + u i := by
  unfold accStep
  rw [shapeCast_self]
  rfl

/-- The reset vector is zero everywhere. -/
theorem zeroV_apply (i : S1x3x1.Idx) : zeroV (F := Ideal) i = 0 := by
  unfold zeroV
  rw [shapeCast_self]
  exact Ideal.ofBits_zero_f32

namespace Pieces

/-- Row `h` of the plane block, its first three columns, read at component `k`. -/
theorem ld_nrow_apply (x1 : Vec Ideal S1x3x4 .f32) (off : Fin 3 → Nat) (inb : ∀ a, off a + S1x1x3.size a ≤ S1x3x4.size a)
    (h : Fin 3) (h0 : off 0 = 0) (h1 : off 1 = h.val) (h2 : off 2 = 0) (k : Fin 3) :
    View.ld x1 (Rect.unit off S1x1x3.size inb) (ix3 (0 : Fin 1) (0 : Fin 1) k) = x1 (ix3 (0 : Fin 1) h k.castSucc) := by
  show x1 _ = x1 _
  congr 1
  funext a
  apply Fin.ext
  match a with
  | ⟨0, _⟩ => show off 0 + 1 * 0 = 0; omega
  | ⟨1, _⟩ => show off 1 + 1 * 0 = h.val; omega
  | ⟨2, _⟩ => show off 2 + 1 * k.val = k.val; omega

/-- Row `h` of the plane block, its last column. -/
theorem ld_dcell_apply (x1 : Vec Ideal S1x3x4 .f32) (off : Fin 3 → Nat) (inb : ∀ a, off a + S1x1x1.size a ≤ S1x3x4.size a)
    (h : Fin 3) (h0 : off 0 = 0) (h1 : off 1 = h.val) (h2 : off 2 = 3) :
    View.ld x1 (Rect.unit off S1x1x1.size inb) (ix3 (0 : Fin 1) (0 : Fin 1) (0 : Fin 1)) = x1 (ix3 (0 : Fin 1) h (3 : Fin 4)) := by
  show x1 _ = x1 _
  congr 1
  funext a
  apply Fin.ext
  match a with
  | ⟨0, _⟩ => show off 0 + 1 * 0 = 0; omega
  | ⟨1, _⟩ => show off 1 + 1 * 0 = h.val; omega
  | ⟨2, _⟩ => show off 2 + 1 * 0 = 3; omega

/-- A `[1, 1, 3]` row cast to `[3]` keeps its components. -/
theorem cast_row_apply (v : Vec Ideal S1x1x3 .f32) (k : Fin 3) :
    shapeCast S3 v shapeCasts_S1x1x3_S3 (ix1 k) = v (ix3 (0 : Fin 1) (0 : Fin 1) k) :=
  shapeCast_apply v shapeCasts_S1x1x3_S3 _ _ (by
    rw [Shape.rowMajor_val_three, Shape.rowMajor_val_one]
    show (0 * 1 + 0) * 3 + k.val = k.val
    omega)

/-- One plane's share over the extended reals, from the plane's loaded row and cell: the points' distances summed. -/
theorem planeSumV_ideal (x0 : Vec Ideal S1x1024x3 .f32) (x2 : Vec Ideal S1x32x3072 .f32)
    (hfin : ∀ i, x2 i ≠ ⊤ ∧ x2 i ≠ ⊥) (nrow : Vec Ideal S1x1x3 .f32) (dcell : Vec Ideal S1x1x1 .f32) :
    planeSumV (F := Ideal) x0 x2 nrow dcell
      = ∑ j : Fin 1024, SymLoss.pdist
          (fun x y z k => x2 (ix3 (0 : Fin 1) z ⟨x.val * 96 + y.val * 3 + k.val, by have := x.isLt; have := y.isLt; have := k.isLt; omega⟩))
          (fun k => x0 (ix3 (0 : Fin 1) j k)) (fun k => nrow (ix3 (0 : Fin 1) (0 : Fin 1) k))
          (dcell (ix3 (0 : Fin 1) (0 : Fin 1) (0 : Fin 1))) := by
  unfold planeSumV
  rw [headSumV_read (ptsV x0) _ _ (tzV x2) (fun i => hfin _)]
  have e1 : tzAt (tzV x2) = fun x y z k => x2 (ix3 (0 : Fin 1) z ⟨x.val * 96 + y.val * 3 + k.val, by have := x.isLt; have := y.isLt; have := k.isLt; omega⟩) := by
    funext x y z k
    unfold tzAt tzV
    exact shapeCast_1ab_ab_apply x2 _ z _
  have e2 : ∀ j : Fin 1024, (fun k : Fin 3 => ptsV x0 (ix2 j k)) = fun k => x0 (ix3 (0 : Fin 1) j k) := fun j => funext fun k => by
    unfold ptsV
    exact shapeCast_1ab_ab_apply x0 _ j k
  have e3 : (fun k : Fin 3 => shapeCast S3 nrow shapeCasts_S1x1x3_S3 (ix1 k)) = fun k => nrow (ix3 (0 : Fin 1) (0 : Fin 1) k) :=
    funext fun k => cast_row_apply nrow k
  have e4 : extractAt ![0, 0, 0] dcell inpos_S1x1x1_p0_0_0 = dcell (ix3 (0 : Fin 1) (0 : Fin 1) (0 : Fin 1)) := by
    unfold extractAt
    congr 1
    funext a
    match a with
    | ⟨0, _⟩ => rfl
    | ⟨1, _⟩ => rfl
    | ⟨2, _⟩ => rfl
  rw [e1, e3, e4]
  exact Finset.sum_congr rfl fun j _ => by rw [e2 j]

/-- The update's row `h` is plane `h`'s share. -/
theorem updV_row (x0 : Vec Ideal S1x1024x3 .f32) (x1 : Vec Ideal S1x3x4 .f32) (x2 : Vec Ideal S1x32x3072 .f32)
    (hfin : ∀ i, x2 i ≠ ⊤ ∧ x2 i ≠ ⊥) (h : Fin 3)
    (offn offd : Fin 3 → Nat) (inbn : ∀ a, offn a + S1x1x3.size a ≤ S1x3x4.size a) (inbd : ∀ a, offd a + S1x1x1.size a ≤ S1x3x4.size a)
    (hn0 : offn 0 = 0) (hn1 : offn 1 = h.val) (hn2 : offn 2 = 0) (hd0 : offd 0 = 0) (hd1 : offd 1 = h.val) (hd2 : offd 2 = 3) :
    planeSumV (F := Ideal) x0 x2 (View.ld x1 (Rect.unit offn S1x1x3.size inbn)) (View.ld x1 (Rect.unit offd S1x1x1.size inbd))
      = ∑ j : Fin 1024, SymLoss.pdist
          (fun x y z k => x2 (ix3 (0 : Fin 1) z ⟨x.val * 96 + y.val * 3 + k.val, by have := x.isLt; have := y.isLt; have := k.isLt; omega⟩))
          (fun k => x0 (ix3 (0 : Fin 1) j k)) (fun k => x1 (ix3 (0 : Fin 1) h k.castSucc))
          (x1 (ix3 (0 : Fin 1) h (3 : Fin 4))) := by
  rw [planeSumV_ideal x0 x2 hfin, ld_dcell_apply x1 offd inbd h hd0 hd1 hd2,
    show (fun k : Fin 3 => View.ld x1 (Rect.unit offn S1x1x3.size inbn) (ix3 (0 : Fin 1) (0 : Fin 1) k))
      = fun k => x1 (ix3 (0 : Fin 1) h k.castSucc) from funext fun k => ld_nrow_apply x1 offn inbn h hn0 hn1 hn2 k]

end Pieces

/-- The tile's update, read at plane `h`: the sum over the tile's points of the distance between the point's reflection
    through the plane and the closest-point vector stored at the reflection's voxel. -/
theorem updV_apply (x0 : Vec Ideal S1x1024x3 .f32) (x1 : Vec Ideal S1x3x4 .f32) (x2 : Vec Ideal S1x32x3072 .f32)
    (hfin : ∀ i, x2 i ≠ ⊤ ∧ x2 i ≠ ⊥) (h : Fin 3) :
    updV (F := Ideal) x0 x1 x2 (ix3 (0 : Fin 1) h (0 : Fin 1))
      = ∑ j : Fin 1024, SymLoss.pdist
          (fun x y z k => x2 (ix3 (0 : Fin 1) z ⟨x.val * 96 + y.val * 3 + k.val, by have := x.isLt; have := y.isLt; have := k.isLt; omega⟩))
          (fun k => x0 (ix3 (0 : Fin 1) j k)) (fun k => x1 (ix3 (0 : Fin 1) h k.castSucc))
          (x1 (ix3 (0 : Fin 1) h (3 : Fin 4))) := by
  unfold updV
  refine (shapeCast_apply _ shapeCasts_S3_S1x3x1 (ix3 (0 : Fin 1) h (0 : Fin 1)) (ix1 h) (by
    rw [Shape.rowMajor_val_one, Shape.rowMajor_val_three]
    show h.val = (0 * 3 + h.val) * 1 + 0
    omega)).trans ?_
  match h with
  | ⟨0, _⟩ =>
    refine Eq.trans (concatenate_apply_piece (t := S3) 0 _ _ (ix1 (⟨0, by omega⟩ : Fin 3)) 0 (by show 0 < 3; omega) S1 _ rfl rfl 0 rfl
      (ix1 (0 : Fin 1)) (fun b hb => absurd (Subsingleton.elim _ _) hb) rfl) ?_
    rw [broadcast_apply]
    exact updV_row x0 x1 x2 hfin ⟨0, by omega⟩ _ _ _ _ rfl rfl rfl rfl rfl rfl
  | ⟨1, _⟩ =>
    refine Eq.trans (concatenate_apply_piece (t := S3) 0 _ _ (ix1 (⟨1, by omega⟩ : Fin 3)) 1 (by show 1 < 3; omega) S1 _ rfl rfl 1 rfl
      (ix1 (0 : Fin 1)) (fun b hb => absurd (Subsingleton.elim _ _) hb) rfl) ?_
    rw [broadcast_apply]
    exact updV_row x0 x1 x2 hfin ⟨1, by omega⟩ _ _ _ _ rfl rfl rfl rfl rfl rfl
  | ⟨2, _⟩ =>
    refine Eq.trans (concatenate_apply_piece (t := S3) 0 _ _ (ix1 (⟨2, by omega⟩ : Fin 3)) 2 (by show 2 < 3; omega) S1 _ rfl rfl 2 rfl
      (ix1 (0 : Fin 1)) (fun b hb => absurd (Subsingleton.elim _ _) hb) rfl) ?_
    rw [broadcast_apply]
    exact updV_row x0 x1 x2 hfin ⟨2, by omega⟩ _ _ _ _ rfl rfl rfl rfl rfl rfl

end Cert.KernelIdeal.Sym

end
-- ==== Proof.Accum.lean ====
/-
  The three running sums over the grid, and the array the kernel leaves.

  The grid is 64 batch elements × 64 tiles, grid point `t` being tile `t % 64` of batch element `t / 64`. The
  kernel keeps the three planes' running sums in a carried `[1, 3, 1]` vector: the first tile of a batch element
  resets it and adds its update, every later tile adds its update to what the tile before left, and the last
  tile also writes the result to row `t / 64` of the `[64, 3, 1]` output array. So after grid point `t` the
  carried vector is a fold over the tiles `64·(t / 64) … t`, by induction on the tile and never on the grid's
  4096 points; over the extended reals, where a step is entrywise addition and the reset is zero, the fold is
  the sum of those tiles' updates. The rows written at the 64 last tiles cover the output array, and each is
  the sum over its batch element's 64 tiles: the array ends at `outArr`.
-/
import proofs.«121004_j35338990911546_1_alg».proof.Proof.Pieces
import Idealize.ShloMosaic.Lib.Pipeline.Value
import Idealize.ShloMosaic.Lib.ValueIdx
import Mathlib.Algebra.BigOperators.Fin

set_option maxRecDepth 16384

noncomputable section

namespace Cert.KernelIdeal.Sym

open Idealize.ShloMosaic Idealize.ShloMosaic.TcCoe Idealize.SL.Sem Idealize.ShloMosaic.ValueIdx
open Idealize.ShloMosaic.Pipeline (Dat)
open Cert.KernelIdeal Cert.KernelIdeal.Gen

variable {F : FTy → Type} [FloatOps F]

/-! ## The tile's update and the running sums, at any float values -/

section Generic

variable (m : (ℓ : Loc nD τ sig) → Buf (Elt F) ℓ)

/-- What the tile at grid point `t` adds: the three planes' distance sums over the tile's 1024 points. -/
def tileUpd (c : Dev nD) (t : Fin cfg0.N) : FVec F S1x3x1 .f32 :=
  updV (iblk m c 0 t) (iblk m c 1 t) (iblk m c 2 t)

/-- At the first tile of a batch element the running sums are reset and then take the tile's update. -/
theorem Accum.scr_first (c : Dev nD) (t : Fin cfg0.N) (h0 : t.val % 64 = 0) :
    (outsAt0 m c t.val t.isLt).2 = accStep zeroV (tileUpd m c t) := by
  have h1 : ¬t.val % 64 = 63 := by omega
  rw [outsAt0_A m c t h0 h1]
  dsimp only
  exact sout_A (F := F) c (grid0.coords t) (ms0_0 t) (hs0_0 t) (ms0_1 t) (hs0_1 t) (ms0_2 t) (hs0_2 t) (ms0_3 t) (hs0_3 t)
    scM0_0 (Memref.isWhole_whole _) ((hcond0_0 t).mpr h0) (fun h => h1 ((hcond0_1 t).mp h))
    (iblk m c 0 t) (iblk m c 1 t) (iblk m c 2 t)

/-- At every later tile the running sums take the tile's update on top of what the tile before left. -/
theorem Accum.scr_later (c : Dev nD) (t : Fin cfg0.N) (h0 : ¬t.val % 64 = 0) :
    (outsAt0 m c t.val t.isLt).2
      = accStep (outsAt0 m c (t.val - 1) (Nat.lt_of_le_of_lt (Nat.sub_le _ _) t.isLt)).2 (tileUpd m c t) := by
  by_cases h1 : t.val % 64 = 63
  · rw [outsAt0_C m c t h0 h1]
    dsimp only
    exact sout_C (F := F) c (grid0.coords t) (ms0_0 t) (hs0_0 t) (ms0_1 t) (hs0_1 t) (ms0_2 t) (hs0_2 t) (ms0_3 t) (hs0_3 t)
      scM0_0 (Memref.isWhole_whole _) (fun h => h0 ((hcond0_0 t).mp h)) ((hcond0_1 t).mpr h1)
      (iblk m c 0 t) (iblk m c 1 t) (iblk m c 2 t)
      (outsAt0 m c (t.val - 1) (Nat.lt_of_le_of_lt (Nat.sub_le _ _) t.isLt)).2
  · rw [outsAt0_B m c t h0 h1]
    dsimp only
    exact sout_B (F := F) c (grid0.coords t) (ms0_0 t) (hs0_0 t) (ms0_1 t) (hs0_1 t) (ms0_2 t) (hs0_2 t) (ms0_3 t) (hs0_3 t)
      scM0_0 (Memref.isWhole_whole _) (fun h => h0 ((hcond0_0 t).mp h)) (fun h => h1 ((hcond0_1 t).mp h))
      (iblk m c 0 t) (iblk m c 1 t) (iblk m c 2 t)
      (outsAt0 m c (t.val - 1) (Nat.lt_of_le_of_lt (Nat.sub_le _ _) t.isLt)).2

/-- At the last tile of a batch element the output block is what the running sums end at. -/
theorem Accum.out_last (c : Dev nD) (t : Fin cfg0.N) (h1 : t.val % 64 = 63) :
    (outsAt0 m c t.val t.isLt).1 = (outsAt0 m c t.val t.isLt).2 := by
  have h0 : ¬t.val % 64 = 0 := by omega
  rw [outsAt0_C m c t h0 h1]
  dsimp only
  exact (out_C (F := F) c (grid0.coords t) (ms0_0 t) (hs0_0 t) (ms0_1 t) (hs0_1 t) (ms0_2 t) (hs0_2 t) (ms0_3 t) (hs0_3 t)
      scM0_0 (Memref.isWhole_whole _) (fun h => h0 ((hcond0_0 t).mp h)) ((hcond0_1 t).mpr h1)
      (iblk m c 0 t) (iblk m c 1 t) (iblk m c 2 t)
      (outsAt0 m c (t.val - 1) (Nat.lt_of_le_of_lt (Nat.sub_le _ _) t.isLt)).2).trans
    (sout_C (F := F) c (grid0.coords t) (ms0_0 t) (hs0_0 t) (ms0_1 t) (hs0_1 t) (ms0_2 t) (hs0_2 t) (ms0_3 t) (hs0_3 t)
      scM0_0 (Memref.isWhole_whole _) (fun h => h0 ((hcond0_0 t).mp h)) ((hcond0_1 t).mpr h1)
      (iblk m c 0 t) (iblk m c 1 t) (iblk m c 2 t)
      (outsAt0 m c (t.val - 1) (Nat.lt_of_le_of_lt (Nat.sub_le _ _) t.isLt)).2).symm

/-- The running sums after grid point `t` are the fold, over the tiles of `t`'s batch element up to `t`, of
    "add the tile's update", started from the reset. -/
theorem Accum.scr_fold (c : Dev nD) (t : ℕ) (ht : t < cfg0.N) (h' : 64 * (t / 64) + t % 64 < cfg0.N) :
    (outsAt0 m c t ht).2
      = Pipeline.accAt (N := cfg0.N) (fun n h => accStep zeroV (tileUpd m c ⟨n, h⟩))
          (fun n h acc => accStep acc (tileUpd m c ⟨n, h⟩)) (64 * (t / 64)) (t % 64) h' :=
  Pipeline.eq_accAt_of_mod (N := cfg0.N) (fun n h => (outsAt0 m c n h).2) 64
    (fun n h => accStep zeroV (tileUpd m c ⟨n, h⟩)) (fun n h acc => accStep acc (tileUpd m c ⟨n, h⟩))
    (fun n h e => Accum.scr_first m c ⟨n, h⟩ e) (fun n h e => Accum.scr_later m c ⟨n + 1, h⟩ e) (by decide) t ht h'

end Generic

/-! ## Over the extended reals: the running sums are sums of the tiles' updates -/

section AtIdeal

variable (m : (ℓ : Loc nD τ sig) → Buf (Elt Ideal) ℓ)

/-- The tile's update as a function of every natural number (zero past the grid), so that sums over runs of
    consecutive grid points need no bound proofs. -/
def tileAdd (c : Dev nD) (n : ℕ) (i : S1x3x1.Idx) : EReal :=
  if h : n < cfg0.N then tileUpd (F := Ideal) m c ⟨n, h⟩ i else 0

theorem Accum.tileAdd_of_lt (c : Dev nD) (n : ℕ) (h : n < cfg0.N) (i : S1x3x1.Idx) :
    tileAdd m c n i = tileUpd (F := Ideal) m c ⟨n, h⟩ i := dif_pos h

/-- After grid point `t` the running sums hold, entry by entry, the sum of the updates of the tiles of `t`'s
    batch element from its first tile `64·(t / 64)` up to `t`: the reset contributes `0`. -/
theorem Accum.scr_sum (c : Dev nD) (t : ℕ) (ht : t < cfg0.N) (i : S1x3x1.Idx) :
    (outsAt0 (F := Ideal) m c t ht).2 i = ∑ s ∈ Finset.range (t % 64 + 1), tileAdd m c (64 * (t / 64) + s) i := by
  have h' : 64 * (t / 64) + t % 64 < cfg0.N := by rw [Nat.div_add_mod]; exact ht
  rw [Accum.scr_fold m c t ht h']
  refine (Pipeline.accAt_add_apply (N := cfg0.N) (ι := S1x3x1.Idx) (β := EReal)
    (fun n h => accStep (F := Ideal) (zeroV (F := Ideal)) (tileUpd (F := Ideal) m c ⟨n, h⟩))
    (fun n h acc => accStep (F := Ideal) acc (tileUpd (F := Ideal) m c ⟨n, h⟩)) (fun _ => 0) (tileAdd m c) (64 * (t / 64)) (t % 64)
    (fun h i => ?_) (fun n h acc i _ _ => ?_) (t % 64) le_rfl h' i).trans (zero_add _)
  · show accStep (F := Ideal) zeroV (tileUpd (F := Ideal) m c ⟨64 * (t / 64), h⟩) i = 0 + tileAdd m c (64 * (t / 64)) i
    rw [accStep_apply, zeroV_apply, Accum.tileAdd_of_lt m c _ h]
  · show accStep (F := Ideal) acc (tileUpd (F := Ideal) m c ⟨n, h⟩) i = acc i + tileAdd m c n i
    rw [accStep_apply, Accum.tileAdd_of_lt m c _ h]

end AtIdeal

/-! ## The output array after the run -/

section Array

variable (m : (ℓ : Loc nD τ sig) → Buf (Elt Ideal) ℓ)

/-- Tile `s` of batch element `b` is grid point `64·b + s`. -/
theorem pt_lt (b s : Fin 64) : b.val * 64 + s.val < cfg0.N := by
  have hb := b.isLt
  have hs := s.isLt
  rw [show cfg0.N = 4096 from N_0]
  omega

/-- The output window's block index at grid point `t`: the batch element `t / 64` on the first axis, `0` on the
    other two — decided over the grid. -/
theorem Accum.idx3 : ∀ t : Fin cfg0.N, win0_3.index t (0 : Fin 3) = t.val / 64 ∧ win0_3.index t (1 : Fin 3) = 0
    ∧ win0_3.index t (2 : Fin 3) = 0 :=
  (by decide +kernel : ∀ t : Fin grid0.N, win0_3.index t (0 : Fin 3) = t.val / 64 ∧ win0_3.index t (1 : Fin 3) = 0
    ∧ win0_3.index t (2 : Fin 3) = 0)

/-- Equal points and equal entries give equal updates. -/
theorem Accum.tileUpd_congr (c : Dev nD) (n n' : ℕ) (h : n < cfg0.N) (h' : n' < cfg0.N) (e : n = n')
    (i i' : S1x3x1.Idx) (ei : i = i') :
    tileUpd (F := Ideal) m c ⟨n, h⟩ i = tileUpd (F := Ideal) m c ⟨n', h'⟩ i' := by
  subst e; subst ei; rfl

/-- The [64,3,1] array the kernel leaves: for batch element `b` and plane `h`, the sum over the element's 64
    tiles of the plane's share of each tile's update. -/
def outArr (c : Dev nD) : Buf (Elt Ideal) ((c : Thread nD τ).loc main_v8) :=
  fun i : S64x3x1.Idx => ((∑ s : Fin 64,
    tileUpd (F := Ideal) m c ⟨(i 0).val * 64 + s.val, pt_lt ⟨(i 0).val, (i 0).isLt⟩ s⟩ (ix3 0 ⟨(i 1).val, (i 1).isLt⟩ 0)) : EReal)

theorem outArr_apply (c : Dev nD) (b : Fin 64) (h : Fin 3) :
    outArr m c (ix3 b h 0) = ∑ s : Fin 64, tileUpd (F := Ideal) m c ⟨b.val * 64 + s.val, pt_lt b s⟩ (ix3 0 h 0) := rfl

/-- What a flushing point writes back is its block of `outArr`: the point is the last tile of its batch element,
    its output block is what the running sums end at, and those are the sum over the element's 64 tiles. -/
theorem Accum.flushed3_eq (c : Dev nD) (t : Fin cfg0.N) (hf : (cfg0.win 3).flush t = true) :
    (dats (F := Ideal) m 0 c).flushed 3 t = ((cfg0.win 3).blk t).view.read (Elt Ideal) (outArr m c) := by
  have h1 : t.val % 64 = 63 := (flush0_3 t).mp hf
  have hN : t.val < 4096 := lt_of_lt_of_eq t.isLt (show cfg0.N = 4096 from N_0)
  show (cfg0.win 3).cut (grid0.coords t) ((dats (F := Ideal) m 0 c).after 3 t) = _
  rw [after0_3, Accum.out_last m c t h1]
  funext y
  rw [View.read_apply]
  show (outsAt0 (F := Ideal) m c t.val t.isLt).2 y = outArr m c (((cfg0.win 3).blk t).view.emb y)
  obtain ⟨e0, e1, e2⟩ := Accum.idx3 t
  have hy0 : (y 0).val < 1 := (y 0).isLt
  have hy1 : (y 1).val < 3 := (y 1).isLt
  have hy2 : (y 2).val < 1 := (y 2).isLt
  -- the block's entry `y` sits in the array at batch element `t / 64`, plane `y 1`
  have p0 : ((((cfg0.win 3).blk t).view.emb y) 0).val = t.val / 64 := by
    show win0_3.index t (0 : Fin 3) * 1 + 1 * (y 0).val = t.val / 64
    rw [e0]; omega
  have p1 : ((((cfg0.win 3).blk t).view.emb y) 1).val = (y 1).val := by
    show win0_3.index t (1 : Fin 3) * 3 + 1 * (y 1).val = (y 1).val
    rw [e1]; omega
  rw [Accum.scr_sum m c t.val t.isLt y, h1, Finset.sum_range]
  show (∑ s : Fin 64, tileAdd m c (64 * (t.val / 64) + s.val) y)
    = ∑ s : Fin 64, tileUpd (F := Ideal) m c ⟨((((cfg0.win 3).blk t).view.emb y) 0).val * 64 + s.val, _⟩
        (ix3 0 ⟨((((cfg0.win 3).blk t).view.emb y) 1).val, _⟩ 0)
  refine Finset.sum_congr rfl fun s _ => ?_
  have hs : s.val < 64 := s.isLt
  have hb : 64 * (t.val / 64) + s.val < cfg0.N :=
    lt_of_lt_of_eq (show 64 * (t.val / 64) + s.val < 4096 by omega) (show cfg0.N = 4096 from N_0).symm
  rw [Accum.tileAdd_of_lt m c _ hb]
  refine Accum.tileUpd_congr m c _ _ hb _ (by rw [p0]; omega) y _ ?_
  funext a
  match a with
  | ⟨0, _⟩ => exact Fin.ext (by show (y 0).val = 0; omega)
  | ⟨1, _⟩ => exact Fin.ext (by show (y 1).val = ((((cfg0.win 3).blk t).view.emb y) 1).val; rw [p1])
  | ⟨2, _⟩ => exact Fin.ext (by show (y 2).val = 0; omega)

/-- An index of the array is in grid point `t`'s block iff each coordinate is in the block's range on its axis. -/
theorem Accum.mem_blk3 (t : Fin cfg0.N) (i : S64x3x1.Idx) :
    i ∈ ((cfg0.win 3).blk t).view.set
      ↔ ∀ a : Fin 3, win0_3.index t a * S1x3x1.size a ≤ (i a).val ∧ (i a).val < win0_3.index t a * S1x3x1.size a + S1x3x1.size a := by
  show i ∈ ((View.whole main_v8).slice (win0_3.rect t)).set ↔ _
  rw [View.set_slice_whole, Rect.mem_set_unit]
  exact Iff.rfl

/-- Every index of the array is in a flushing point's block: row `b` in that of the last tile of batch element `b`. -/
theorem Accum.cover3 (i : S64x3x1.Idx) :
    ∃ t : Fin cfg0.N, (cfg0.win 3).flush t = true ∧ i ∈ ((cfg0.win 3).blk t).view.set := by
  have hi0 : (i 0).val < 64 := (i 0).isLt
  have hi1 : (i 1).val < 3 := (i 1).isLt
  have hi2 : (i 2).val < 1 := (i 2).isLt
  have hlt : (i 0).val * 64 + 63 < cfg0.N := by rw [show cfg0.N = 4096 from N_0]; omega
  refine ⟨⟨(i 0).val * 64 + 63, hlt⟩, (flush0_3 _).mpr (by show ((i 0).val * 64 + 63) % 64 = 63; omega), ?_⟩
  obtain ⟨e0, e1, e2⟩ := Accum.idx3 ⟨(i 0).val * 64 + 63, hlt⟩
  have e0' : win0_3.index ⟨(i 0).val * 64 + 63, hlt⟩ (0 : Fin 3) = (i 0).val := by
    rw [e0]; show ((i 0).val * 64 + 63) / 64 = (i 0).val; omega
  rw [Accum.mem_blk3]
  intro a
  match a with
  | ⟨0, _⟩ =>
    show win0_3.index ⟨(i 0).val * 64 + 63, hlt⟩ (0 : Fin 3) * 1 ≤ (i 0).val
      ∧ (i 0).val < win0_3.index ⟨(i 0).val * 64 + 63, hlt⟩ (0 : Fin 3) * 1 + 1
    rw [e0']; omega
  | ⟨1, _⟩ =>
    show win0_3.index ⟨(i 0).val * 64 + 63, hlt⟩ (1 : Fin 3) * 3 ≤ (i 1).val
      ∧ (i 1).val < win0_3.index ⟨(i 0).val * 64 + 63, hlt⟩ (1 : Fin 3) * 3 + 3
    rw [e1]; omega
  | ⟨2, _⟩ =>
    show win0_3.index ⟨(i 0).val * 64 + 63, hlt⟩ (2 : Fin 3) * 1 ≤ (i 2).val
      ∧ (i 2).val < win0_3.index ⟨(i 0).val * 64 + 63, hlt⟩ (2 : Fin 3) * 1 + 1
    rw [e2]; omega

/-- So the output array ends holding `outArr`. -/
theorem final3 (c : Dev nD) : (dats (F := Ideal) m 0 c).arrAt 3 cfg0.N = outArr m c :=
  (dats (F := Ideal) m 0 c).arrAt_eq_of_cover 3 (outArr m c) (Accum.flushed3_eq m c) Accum.cover3

/-- The running sums after grid point `t`, plane `h`: the sum of that plane's share over the tiles of `t`'s batch
    element up to `t`. -/
theorem scratch_apply (c : Dev nD) (t : Fin cfg0.N) (h : Fin 3) :
    (outsAt0 (F := Ideal) m c t.val t.isLt).2 (ix3 0 h 0)
      = ∑ s : Fin (t.val % 64 + 1), tileAdd m c (64 * (t.val / 64) + s.val) (ix3 0 h 0) := by
  rw [Accum.scr_sum m c t.val t.isLt (ix3 0 h 0), Finset.sum_range]

end Array

end Cert.KernelIdeal.Sym

end
-- ==== Proof.Tail.lean ====
/-
  The host operations that follow the kernel region, and the kernel program's run with its result named.

  After the region the output array `o` of shape [64, 3, 1] holds, for every batch element and plane, the
  sum over all sample points of the distances.  The program then adds up every entry of `o` (a float sum
  from zero over all three axes), divides by the word 65536, adds the orthogonality regulariser of the
  normalised planes, `25 · ∑_b √(∑ (nh·nhᵀ − I)²)`, and reshapes the scalar to one entry.  The regulariser
  is applied to the same normalised planes by the other program too, so it is kept here as one function
  `regK` of them and never opened.  Over the extended reals the float sum from zero is the sum over the
  index set of `o`, which is the double sum over batch elements and planes (the last axis has one entry).
-/
import proofs.«121004_j35338990911546_1_alg».proof.Proof.Gen.KernelIdeal.Frame
import proofs.«121004_j35338990911546_1_alg».proof.Proof.Spec
import proofs.«121004_j35338990911546_1_alg».proof.Proof.Accum
import Idealize.ShloMosaic.Lib.IdealHost
import Idealize.ShloMosaic.PureOps.Ideal.Laws
import Idealize.ShloMosaic.Lib.Pipeline.Value

noncomputable section

namespace Cert.KernelIdeal.Sym

open Idealize.ShloMosaic Idealize.ShloMosaic.TcCoe Idealize.SL.Sem Idealize.ShloMosaic.ValueIdx
open Cert.KernelIdeal Cert.KernelIdeal.Gen

variable {F : FTy → Type} [FloatOps F]

/-- The orthogonality regulariser of the normalised planes `nh`: `25 · ∑_b √(∑_{h,h'} ((nh·nhᵀ)[b,h,h'] − δ_{h,h'})²)`,
    as the host computes it — the batched product of `nh` with its transpose, the identity built from two iotas,
    the difference squared, summed over the two plane axes, rooted, summed over the batch, times the word 25. -/
def regK (nh : FVec F S64x3x3 .f32) : FVec F S_ .f32 :=
  have v11 : FVec F S64x3x3 .f32 := Host.dotGeneral dot_S64x3x3_S64x3x3_S64x3x3_2_2_1_1_0_0 none nh nh
  have v12 : IVec S3x3 32 := iotaInDim S3x3 32 0
  have v13 : IVec S3x3 32 := iotaInDim S3x3 32 1
  have c : IVec S_ 32 := constantI S_ 32 0#32
  have v14 : IVec S3x3 32 := broadcastInDim S3x3 ![] bcast_S_S3x3 c
  have v15 : IVec S3x3 32 := addi v12 v14
  have v16 : IVec S3x3 1 := cmpi .eq v15 v13
  have v17 : FVec F S3x3 .f32 := uitofp .f32 v16
  have v18 : FVec F S1x3x3 .f32 := broadcastInDim S1x3x3 ![1, 2] bcast_S3x3_S1x3x3_1_2 v17
  have v19 : FVec F S64x3x3 .f32 := broadcastInDim S64x3x3 ![0, 1, 2] bcast_S1x3x3_S64x3x3_0_1_2 v18
  have v20 : FVec F S64x3x3 .f32 := subf v11 v19
  have v21 : FVec F S64x3x3 .f32 := mulf v20 v20
  have cst_1 : FVec F S_ .f32 := constant S_ .f32 0x00000000#32
  have v22 : FVec F S64 .f32 := Host.reduceAdd v21 cst_1 reducesTo_S64x3x3_S64_d1_2 h_S_
  have v23 : FVec F S64 .f32 := Host.sqrt v22
  have cst_2 : FVec F S_ .f32 := constant S_ .f32 0x00000000#32
  have v24 : FVec F S_ .f32 := Host.reduceAdd v23 cst_2 reducesTo_S64_S_d0 h_S_
  have cst_3 : FVec F S_ .f32 := constant S_ .f32 0x41C80000#32
  mulf cst_3 v24

/-- An index set of shape [n0, n1, 1] is the product of its first two coordinate ranges: the last coordinate is 0. -/
def idxEquivUnit3 {n0 n1 : Nat} : (⟨3, ![n0, n1, 1]⟩ : Shape).Idx ≃ Fin n0 × Fin n1 where
  toFun i := (i 0, i 1)
  invFun p := ix3 p.1 p.2 0
  left_inv i := by
    funext a
    match a with
    | ⟨0, _⟩ => rfl
    | ⟨1, _⟩ => rfl
    | ⟨2, h2⟩ =>
      have h : (i ⟨2, h2⟩).val < 1 := (i ⟨2, h2⟩).isLt
      exact Fin.ext (by show (0 : ℕ) = (i ⟨2, h2⟩).val; omega)
  right_inv _ := rfl

/-- So a sum over it is the double sum over those two coordinates. -/
theorem sum_idxUnit3 {M : Type*} [AddCommMonoid M] {n0 n1 : Nat} (f : (⟨3, ![n0, n1, 1]⟩ : Shape).Idx → M) :
    ∑ i, f i = ∑ a : Fin n0, ∑ b : Fin n1, f (ix3 a b 0) := by
  rw [← Equiv.sum_comp (idxEquivUnit3 (n0 := n0) (n1 := n1)).symm f, Fintype.sum_prod_type]
  rfl

/-- A scalar reshaped to one entry reads the scalar. -/
theorem shapeCast_scalar_apply {α : Type} (x : S_.Idx → α) (h : S_.ShapeCasts S1) (i : S1.Idx) :
    shapeCast S1 x h i = x ix0 :=
  shapeCast_apply x h i ix0 (by
    have hs : S_.numel = 1 := Shape.numel_eq_one fun a => a.elim0
    have h1 : S1.numel = 1 := Shape.numel_eq_one fun a => by match a with | ⟨0, _⟩ => rfl
    have a0 := (S_.rowMajor ix0).isLt
    have a1 := (S1.rowMajor i).isLt
    omega)

/-- After the region the output array is what the accumulation left in it. -/
theorem tail_arr8 (m : (ℓ : Loc nD τ sig) → Buf (Elt Ideal) ℓ) (c : Dev nD) :
    Pipeline.withArrays (cfgs 0).spec c (V0 m c) (fun w => (dats (F := Ideal) m 0 c).arrAt w (cfgs 0).N) (Proc.devRef .tc main_v8)
      = outArr m c :=
  (Pipeline.withArrays_arr spec0 launch0.win.arr_inj c _ _ 3).trans (final3 m c)

/-- The normalised planes are no array of the region: the later operations find them as the region did. -/
theorem tail_v3 (m : (ℓ : Loc nD τ sig) → Buf (Elt F) ℓ) (c : Dev nD) :
    Pipeline.withArrays (cfgs 0).spec c (V0 m c) (fun w => (dats (F := F) m 0 c).arrAt w (cfgs 0).N) (Proc.devRef .tc main_v3)
      = V m c main_v3 :=
  Pipeline.withArrays_of_ne _ c (V0 m c) _ main_v3 (by exact (by decide : ∀ w, Pipeline.arrRef spec0 w ≠ main_v3))

/-- What the operations after the region leave in the result buffer: the sum of every entry of the output array
    divided by 65536, plus the regulariser of the normalised planes. The float sum starts from the zero word, which is
    the extended real 0; its index set [64, 3, 1] is summed as batch elements by planes. -/
theorem tail_result (m : (ℓ : Loc nD τ sig) → Buf (Elt Ideal) ℓ) (c : Dev nD) :
    Pipeline.afterTail₀ cfgs (dats (F := Ideal) m) 0 (V0 m) [hostOps1] c main_v27
      = fun _ => Ideal.div (∑ b : Fin 64, ∑ h : Fin 3, outArr m c (ix3 b h 0)) SymLoss.w65536 + regK (F := Ideal) (V m c main_v3) ix0 := by
  unfold Pipeline.afterTail₀
  show StableHlo.after hostOps1 _ (Proc.devRef .tc main_v27) = _
  after_results_simp
  rw [tail_arr8 m c, tail_v3 m c]
  show (fun i => shapeCast S1 (addf (Host.divf (Host.reduceAdd (outArr m c) (constant (F := Ideal) S_ .f32 0x00000000#32) reducesTo_S64x3x1_S_d0_1_2 h_S_)
      (constant (F := Ideal) S_ .f32 0x47800000#32)) (regK (F := Ideal) (V m c main_v3))) shapeCasts_S_S1 i) = _
  funext i
  rw [shapeCast_scalar_apply, addf_apply, hostDivf_apply, hostReduceAdd_apply,
    Ideal.hostReduceAdd_total _ (fun b => b.elim0), constant_apply, constant_apply, Ideal.ofBits_zero_f32, zero_add]
  exact congrArg (fun z : EReal => Ideal.div z SymLoss.w65536 + regK (F := Ideal) (V m c main_v3) ix0)
    (sum_idxUnit3 (M := EReal) (fun i => outArr m c i))

/-- The kernel program's run: from any memory with zero counters every weakly fair execution terminates with the
    result buffer at the mean distance plus the regulariser and the four arguments as launched. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v27)
        = (fun _ => Ideal.div (∑ b : Fin 64, ∑ h : Fin 3, outArr m c (ix3 b h 0)) SymLoss.w65536 + regK (F := Ideal) (V m c main_v3) ix0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v27 (Pipeline.mem_restRefs_of main_v27 (by decide) (by decide))).trans (tail_result m c),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Sym

end
-- ==== Proof.Blocks.lean ====
/-
  The three input windows' blocks, and the arrays the host operations leave for them, read at an index.

  The grid is 64 batch elements by 64 tiles of 1024 points; point `b * 64 + s` is tile `s` of batch element `b`.
  Window 0's block there is rows `s * 1024 … s * 1024 + 1023` of batch element `b` of the sample points; window 1's
  is batch element `b` of the normalised planes; window 2's is batch element `b` of the closest-point table laid out
  with the z axis first. A block's element sits in its array, on each axis, at block index times block size plus
  its own coordinate, and the block indices are decided once over the grid.

  The normalised planes are the concatenation, along the last axis, of the unit normals `n / ‖n‖` (one function
  `nhatK` of the predicted planes, never opened here) and the planes' offsets (column 3 of the predicted planes).
  The table is the closest-point grids with the z axis moved in front of x and y and the last three axes merged:
  entry `(b, z, x * 96 + y * 3 + k)` is entry `(b, x, y, z, k)` of the grids, the two having the same row-major
  position in the transposed array.
-/
import proofs.«121004_j35338990911546_1_alg».proof.Proof.Gen.KernelIdeal.Frame
import Idealize.ShloMosaic.Lib.ValueIdx
import Idealize.ShloMosaic.Lib.Pipeline.Value

set_option maxRecDepth 16384

noncomputable section

namespace Cert.KernelIdeal.Sym

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-! ## The arrays the host operations leave -/

/-- The planes' unit normals as the host computes them: the first three columns of the predicted planes, each row
    divided by the square root of the sum of its squares. -/
def nhatK (a0 : Vec F S64x3x4 .f32) : FVec F S64x3x3 .f32 :=
  have v0 : FVec F S64x3x3 .f32 := extractStridedSlice S64x3x3 ![0, 0, 0] a0 slices_S64x3x4_S64x3x3_0_0_0
  have c0_v0 : FVec F S64x3x3 .f32 := mulf v0 v0
  have c0_cst : FVec F S_ .f32 := constant S_ .f32 0x00000000#32
  have c0_v1 : FVec F S64x3 .f32 := Host.reduceAdd c0_v0 c0_cst reducesTo_S64x3x3_S64x3_d2 h_S_
  have c0_v2 : FVec F S64x3x1 .f32 := broadcastInDim S64x3x1 ![0, 1] bcast_S64x3_S64x3x1_0_1 c0_v1
  have v1 : FVec F S64x3x1 .f32 := Host.sqrt c0_v2
  have v2 : FVec F S64x3x3 .f32 := broadcastInDim S64x3x3 ![0, 1, 2] bcast_S64x3x1_S64x3x3_0_1_2 v1
  Host.divf v0 v2

/-- The unit normals' array is `nhatK` of the predicted planes. -/
theorem V3_eq (c : Dev nD) : (V m c main_v3 : FVec F S64x3x3 .f32) = nhatK (m ((c : Thread nD τ).loc main_arg0)) := by
  dsimp only [Gen.V, Gen.V0]
  simp only [Gen.hostOps0, Gen.hostOps0_1, Gen.hostOps0_2, List.flatten_cons, List.flatten_nil, List.append_nil, List.cons_append, List.nil_append]
  after_results
  rfl

/-- The normalised planes: the unit normals with the offsets' column appended. -/
theorem V5_eq (c : Dev nD) : (V m c main_v5 : FVec F S64x3x4 .f32)
    = concatenate S64x3x4 2 [⟨S64x3x3, nhatK (m ((c : Thread nD τ).loc main_arg0))⟩,
        ⟨S64x3x1, extractStridedSlice S64x3x1 ![0, 0, 3] (m ((c : Thread nD τ).loc main_arg0)) slices_S64x3x4_S64x3x1_0_0_3⟩]
        concatenates_S64x3x3_S64x3x1_S64x3x4_d2 := by
  dsimp only [Gen.V, Gen.V0]
  simp only [Gen.hostOps0, Gen.hostOps0_1, Gen.hostOps0_2, List.flatten_cons, List.flatten_nil, List.append_nil, List.cons_append, List.nil_append]
  after_results
  rfl

/-- The table: the closest-point grids transposed to (batch, z, x, y, component) and the last three axes merged. -/
theorem V7_eq (c : Dev nD) : (V m c main_v7 : FVec F S64x32x3072 .f32)
    = shapeCast S64x32x3072 (transpose S64x32x32x32x3 [0, 3, 1, 2, 4] (m ((c : Thread nD τ).loc main_arg3)) transposes_S64x32x32x32x3_S64x32x32x32x3_0_3_1_2_4)
        shapeCasts_S64x32x32x32x3_S64x32x3072 := by
  dsimp only [Gen.V, Gen.V0]
  simp only [Gen.hostOps0, Gen.hostOps0_1, Gen.hostOps0_2, List.flatten_cons, List.flatten_nil, List.append_nil, List.cons_append, List.nil_append]
  after_results
  rfl

/-- A normalised plane's first three entries are its unit normal's. -/
theorem V5_apply (c : Dev nD) (b : Fin 64) (p : Fin 3) (k : Fin 3) :
    (V m c main_v5 : FVec F S64x3x4 .f32) (ix3 b p k.castSucc) = nhatK (m ((c : Thread nD τ).loc main_arg0)) (ix3 b p k) := by
  rw [V5_eq]
  exact concatenate_pair_apply_left (t := S64x3x4) (s₁ := S64x3x3) (s₂ := S64x3x1) (2 : Fin 3) _ _ concatenates_S64x3x3_S64x3x1_S64x3x4_d2 (ix3 b p k.castSucc) rfl (ix3 b p k)
    (fun a => match a with | ⟨0, _⟩ => rfl | ⟨1, _⟩ => rfl | ⟨2, _⟩ => rfl)

/-- A normalised plane's last entry is the predicted plane's offset, untouched. -/
theorem V5_apply_last (c : Dev nD) (b : Fin 64) (p : Fin 3) :
    (V m c main_v5 : FVec F S64x3x4 .f32) (ix3 b p 3) = m ((c : Thread nD τ).loc main_arg0) (ix3 b p 3) := by
  rw [V5_eq]
  refine (concatenate_pair_apply_right (t := S64x3x4) (s₁ := S64x3x3) (s₂ := S64x3x1) (2 : Fin 3) _ _ concatenates_S64x3x3_S64x3x1_S64x3x4_d2 (ix3 b p (3 : Fin 4)) rfl rfl (ix3 b p (0 : Fin 1))
    (fun a => match a with | ⟨0, _⟩ => fun _ => rfl | ⟨1, _⟩ => fun _ => rfl | ⟨2, _⟩ => fun hne => absurd rfl hne) rfl).trans ?_
  exact extractStridedSlice_apply (s := S64x3x4) (t := S64x3x1) _ _ _ (ix3 b p (0 : Fin 1)) (ix3 b p (3 : Fin 4))
    (fun a => match a with | ⟨0, _⟩ => by show b.val = 0 + b.val; omega | ⟨1, _⟩ => by show p.val = 0 + p.val; omega | ⟨2, _⟩ => rfl)

/-- The table's entry `(b, z, x * 96 + y * 3 + k)` is the grids' entry `(b, x, y, z, k)`: both sit at row-major position
    `(((b * 32 + z) * 32 + x) * 32 + y) * 3 + k` of the transposed array. -/
theorem V7_apply (c : Dev nD) (b : Fin 64) (x y z : Fin 32) (k : Fin 3) :
    (V m c main_v7 : FVec F S64x32x3072 .f32) (ix3 b z ⟨x.val * 96 + y.val * 3 + k.val, by have := x.isLt; have := y.isLt; have := k.isLt; omega⟩)
      = m ((c : Thread nD τ).loc main_arg3) (ix5 b x y z k) := by
  rw [V7_eq]
  refine (shapeCast_apply (s := S64x32x32x32x3) (t := S64x32x3072) _ _ _ (ix5 b z x y k) (by
    rw [Shape.rowMajor_val_five, Shape.rowMajor_val_three]
    show (((b.val * 32 + z.val) * 32 + x.val) * 32 + y.val) * 3 + k.val = (b.val * 32 + z.val) * 3072 + (x.val * 96 + y.val * 3 + k.val)
    omega)).trans ?_
  exact transpose_apply (s := S64x32x32x32x3) (t := S64x32x32x32x3) _ _ _ (ix5 b z x y k) (ix5 b x y z k)
    (fun a => match a with | ⟨0, _⟩ => rfl | ⟨1, _⟩ => rfl | ⟨2, _⟩ => rfl | ⟨3, _⟩ => rfl | ⟨4, _⟩ => rfl)

/-! ## The windows' blocks -/

/-- Window 0's block index at point `t`: batch element `t / 64`, tile `t % 64`, all three components. -/
theorem blkIdx0 : ∀ t : Fin cfg0.N, win0_0.index t (0 : Fin 3) = t.val / 64
    ∧ win0_0.index t (1 : Fin 3) = t.val % 64 ∧ win0_0.index t (2 : Fin 3) = 0 :=
  (by decide +kernel : ∀ t : Fin grid0.N, _)

/-- Window 1's block index at point `t`: batch element `t / 64`, whole. -/
theorem blkIdx1 : ∀ t : Fin cfg0.N, win0_1.index t (0 : Fin 3) = t.val / 64
    ∧ win0_1.index t (1 : Fin 3) = 0 ∧ win0_1.index t (2 : Fin 3) = 0 :=
  (by decide +kernel : ∀ t : Fin grid0.N, _)

/-- Window 2's block index at point `t`: batch element `t / 64`, whole. -/
theorem blkIdx2 : ∀ t : Fin cfg0.N, win0_2.index t (0 : Fin 3) = t.val / 64
    ∧ win0_2.index t (1 : Fin 3) = 0 ∧ win0_2.index t (2 : Fin 3) = 0 :=
  (by decide +kernel : ∀ t : Fin grid0.N, _)

/-- Point `j` of tile `s` of batch element `b` is sample point `s * 1024 + j` of that batch element. -/
theorem iblk0_apply (c : Dev nD) (b s : Fin 64) (h : b.val * 64 + s.val < cfg0.N) (j : Fin 1024) (k : Fin 3) :
    (iblk m c 0 ⟨b.val * 64 + s.val, h⟩ : Vec F S1x1024x3 .f32) (ix3 0 j k)
      = m ((c : Thread nD τ).loc main_arg1) (ix3 b ⟨s.val * 1024 + j.val, by have := s.isLt; have := j.isLt; omega⟩ k) := by
  obtain ⟨e0, e1, e2⟩ := blkIdx0 ⟨b.val * 64 + s.val, h⟩
  show V m c main_arg1 (((cfg0.win 0).blk ⟨b.val * 64 + s.val, h⟩).view.emb (ix3 0 j k)) = _
  rw [V_main_arg1]
  refine congrArg _ (funext fun a => Fin.ext ?_)
  have hb := b.isLt; have hs := s.isLt
  match a with
  | ⟨0, _⟩ =>
    show win0_0.index ⟨b.val * 64 + s.val, h⟩ (0 : Fin 3) * 1 + 1 * 0 = b.val
    rw [e0]; show (b.val * 64 + s.val) / 64 * 1 + 1 * 0 = b.val; omega
  | ⟨1, _⟩ =>
    show win0_0.index ⟨b.val * 64 + s.val, h⟩ (1 : Fin 3) * 1024 + 1 * j.val = s.val * 1024 + j.val
    rw [e1]; show (b.val * 64 + s.val) % 64 * 1024 + 1 * j.val = s.val * 1024 + j.val; omega
  | ⟨2, _⟩ =>
    show win0_0.index ⟨b.val * 64 + s.val, h⟩ (2 : Fin 3) * 3 + 1 * k.val = k.val
    rw [e2]; omega

/-- Every tile of batch element `b` sees that batch element's three normalised planes. -/
theorem iblk1_apply (c : Dev nD) (b s : Fin 64) (h : b.val * 64 + s.val < cfg0.N) (p : Fin 3) (k : Fin 4) :
    (iblk m c 1 ⟨b.val * 64 + s.val, h⟩ : Vec F S1x3x4 .f32) (ix3 0 p k)
      = (V m c main_v5 : Vec F S64x3x4 .f32) (ix3 b p k) := by
  obtain ⟨e0, e1, e2⟩ := blkIdx1 ⟨b.val * 64 + s.val, h⟩
  show V m c main_v5 (((cfg0.win 1).blk ⟨b.val * 64 + s.val, h⟩).view.emb (ix3 0 p k)) = _
  refine congrArg _ (funext fun a => Fin.ext ?_)
  have hb := b.isLt; have hs := s.isLt
  match a with
  | ⟨0, _⟩ =>
    show win0_1.index ⟨b.val * 64 + s.val, h⟩ (0 : Fin 3) * 1 + 1 * 0 = b.val
    rw [e0]; show (b.val * 64 + s.val) / 64 * 1 + 1 * 0 = b.val; omega
  | ⟨1, _⟩ =>
    show win0_1.index ⟨b.val * 64 + s.val, h⟩ (1 : Fin 3) * 3 + 1 * p.val = p.val
    rw [e1]; omega
  | ⟨2, _⟩ =>
    show win0_1.index ⟨b.val * 64 + s.val, h⟩ (2 : Fin 3) * 4 + 1 * k.val = k.val
    rw [e2]; omega

/-- Every tile of batch element `b` sees that batch element's table. -/
theorem iblk2_apply (c : Dev nD) (b s : Fin 64) (h : b.val * 64 + s.val < cfg0.N) (z : Fin 32) (f : Fin 3072) :
    (iblk m c 2 ⟨b.val * 64 + s.val, h⟩ : Vec F S1x32x3072 .f32) (ix3 0 z f)
      = (V m c main_v7 : Vec F S64x32x3072 .f32) (ix3 b z f) := by
  obtain ⟨e0, e1, e2⟩ := blkIdx2 ⟨b.val * 64 + s.val, h⟩
  show V m c main_v7 (((cfg0.win 2).blk ⟨b.val * 64 + s.val, h⟩).view.emb (ix3 0 z f)) = _
  refine congrArg _ (funext fun a => Fin.ext ?_)
  have hb := b.isLt; have hs := s.isLt
  match a with
  | ⟨0, _⟩ =>
    show win0_2.index ⟨b.val * 64 + s.val, h⟩ (0 : Fin 3) * 1 + 1 * 0 = b.val
    rw [e0]; show (b.val * 64 + s.val) / 64 * 1 + 1 * 0 = b.val; omega
  | ⟨1, _⟩ =>
    show win0_2.index ⟨b.val * 64 + s.val, h⟩ (1 : Fin 3) * 32 + 1 * z.val = z.val
    rw [e1]; omega
  | ⟨2, _⟩ =>
    show win0_2.index ⟨b.val * 64 + s.val, h⟩ (2 : Fin 3) * 3072 + 1 * f.val = f.val
    rw [e2]; omega

/-- Every entry of window 2's block, at any point, is some entry of the closest-point grids: the transposition and the
    merging of axes only move entries. -/
theorem iblk2_entry (c : Dev nD) (t : Fin cfg0.N) (i : S1x32x3072.Idx) :
    ∃ j : S64x32x32x32x3.Idx, (iblk m c 2 t : Vec F S1x32x3072 .f32) i = m ((c : Thread nD τ).loc main_arg3) j := by
  show ∃ j : S64x32x32x32x3.Idx, (V m c main_v7 : FVec F S64x32x3072 .f32) (((cfg0.win 2).blk t).view.emb i) = _
  rw [V7_eq]
  exact ⟨_, rfl⟩

end Cert.KernelIdeal.Sym

end
-- ==== Proof.Finite.lean ====
/-
  The precondition read at one entry: where "every entry of the closest-point table has absolute value below +∞"
  holds, every entry is a real number — neither +∞ nor −∞.  This is the only finiteness the certificate uses
  (a table entry minus itself is then zero).
-/
import proofs.«121004_j35338990911546_1_alg».proof.Pre_finite_inputs
import Idealize.ShloMosaic.Lib.ReduceAll
import Idealize.ShloMosaic.Lib.Affine
import Idealize.ShloMosaic.Lib.ValueIdx
import Idealize.ShloMosaic.PureOps.Ideal

noncomputable section

namespace Cert.Pre_finite_inputs.Sym

open Idealize.ShloMosaic Cert.Pre_finite_inputs

instance : Subsingleton S_.Idx := ⟨fun a b => funext fun d => d.elim0⟩

/-- The word of +∞ denotes +∞. -/
theorem inf_word : Ideal.ofBits .f32 0x7F800000#32 = (⊤ : EReal) := by
  simp [Ideal.ofBits, Ideal.ieee]

/-- An extended real whose absolute value `max x (−x)` is strictly below +∞ is a real number: at +∞ the maximum is +∞,
    at −∞ its negation is. -/
theorem finite_of_lt_inf (x : EReal)
    (h : FloatOps.cmpf (F := Ideal) .olt (FloatOps.hostAbsf (F := Ideal) x) (Ideal.ofBits .f32 0x7F800000#32) = 1#1) :
    x ≠ ⊤ ∧ x ≠ ⊥ := by
  rw [inf_word] at h
  change BitVec.ofBool (decide (max x (-x) < ⊤)) = 1#1 at h
  have h' : max x (-x) < ⊤ := by
    by_contra hc
    simp [hc] at h
  induction x using EReal.rec with
  | bot => simp at h'
  | top => simp at h'
  | coe r => exact ⟨EReal.coe_ne_top r, EReal.coe_ne_bot r⟩

/-- Under the precondition every entry of the closest-point table is a real number. -/
theorem grid_finite [Facts] (a0 : FVec Ideal S64x3x4 .f32) (a1 : FVec Ideal S64x65536x3 .f32)
    (a2 : FVec Ideal S64x1x32x32x32 .f32) (a3 : FVec Ideal S64x32x32x32x3 .f32)
    (h : fn (F := Ideal) a0 a1 a2 a3 = fun _ => 1#1) (i : S64x32x32x32x3.Idx) : a3 i ≠ ⊤ ∧ a3 i ≠ ⊥ := by
  have h0 := congrFun h ValueIdx.ix0
  dsimp only [fn, fn_part1] at h0
  have h1 := (IntOp.andi_eq_one.mp h0).2
  have h2 := Host.reduce_andi_all _ _ _ _ _ h1 i
  exact finite_of_lt_inf _ h2

end Cert.Pre_finite_inputs.Sym

end
-- ==== Proof.RefPoint.lean ====
/-
  The reference's reflected points, voxel words and table read, one element at a time.

  For batch element `b`, plane `h`, sample point `n` and coordinate `k`, with `nh = n / ‖n‖` the reference's own
  normalised normal (kept as the array `val_main_v3 x0`, never opened: it need not be finite) and `d` the plane's
  offset:
  * the reflected point's coordinate is `SymLoss.refl p nh d k = pₖ − (2 · (∑ₖ pₖ·nhₖ + d)) · nhₖ` — the program
    writes the products of the inner sum as `nhₖ·pₖ`; multiplication of extended reals commutes;
  * its voxel word is `SymLoss.voxW` of that coordinate: scale by 32, floor, clamp between the words 0 and 31
    converted to floats (they are the reals 0 and 31), convert to an integer; the program then adds 32 to a negative
    word, and a word below 32 is not negative, so that step changes nothing; the three words are joined along the
    last axis, piece `k` supplying coordinate `k`;
  * the table read takes, on the batch axis, the batch coordinate, on each of the three grid axes the voxel word
    read as a signed integer and clamped to `[0, 31]` — the word itself, being below 32 — and on the last axis the
    coordinate `k`: it is the closest-point vector stored for the reflected point's voxel.
-/
import proofs.«121004_j35338990911546_1_alg».proof.Proof.Gen.ReferenceIdeal.Read
import proofs.«121004_j35338990911546_1_alg».proof.Proof.Spec
import Idealize.ShloMosaic.Lib.ValueIdx
import Idealize.ShloMosaic.Lib.Pipeline.Value
import Idealize.ShloMosaic.Lib.StableHlo.Predicate

noncomputable section

namespace Cert.ReferenceIdeal.Sym

open Cert.ReferenceIdeal Cert.ReferenceIdeal.Gen Cert.ReferenceIdeal.Value Cert.ReferenceIdeal.Read
open Idealize.ShloMosaic Idealize.ShloMosaic.ValueIdx

/-- The reference's normalised normals `n / ‖n‖`, as an array `[64, 3, 3]`; a zero normal gives `0/0`, so nothing is
    assumed of its entries. -/
def nhatR (x0 : (⟨S64x3x4, .f32⟩ : BufTy).Contents (Elt Ideal)) : (⟨S64x3x3, .f32⟩ : BufTy).Contents (Elt Ideal) :=
  val_main_v3 (F := Ideal) x0

theorem nhatR_eq (x0 : (⟨S64x3x4, .f32⟩ : BufTy).Contents (Elt Ideal)) : nhatR x0 = val_main_v3 (F := Ideal) x0 := rfl

/-! ## The reflected point -/

/-- The broadcast of the sample points over the planes reads point `n`'s coordinate `k`. -/
theorem idx_point (b : Fin 64) (h : Fin 3) (n : Fin 65536) (k : Fin 3) :
    idx_main_v10 (idx_main_v18 (ix4 b h n k)) = ix3 b n k :=
  funext fun a => Fin.ext (by match a with | ⟨0, _⟩ => rfl | ⟨1, _⟩ => rfl | ⟨2, _⟩ => rfl)

/-- The broadcast of the normals over the points reads plane `h`'s coordinate `k`. -/
theorem idx_normal (b : Fin 64) (h : Fin 3) (n : Fin 65536) (k : Fin 3) :
    idx_main_v14 (idx_main_v16 (ix4 b h n k)) = ix3 b h k :=
  funext fun a => Fin.ext (by match a with | ⟨0, _⟩ => rfl | ⟨1, _⟩ => rfl | ⟨2, _⟩ => rfl)

/-- The broadcast of the signed distances over the coordinates reads the distance of point `n` to plane `h`. -/
theorem idx_dist (b : Fin 64) (h : Fin 3) (n : Fin 65536) (k : Fin 3) :
    idx_main_v11 (idx_main_v15 (ix4 b h n k)) = ix3 b h n :=
  funext fun a => Fin.ext (by match a with | ⟨0, _⟩ => rfl | ⟨1, _⟩ => rfl | ⟨2, _⟩ => rfl)

/-- The inner product's left factor: plane `h`'s normal at the summed coordinate. -/
theorem idx_dot_l (b : Fin 64) (h : Fin 3) (n : Fin 65536) (q : Fin 3) :
    lidx_main_v6 (ix3 b h n) q = ix3 b h q :=
  funext fun a => Fin.ext (by match a with | ⟨0, _⟩ => rfl | ⟨1, _⟩ => rfl | ⟨2, _⟩ => rfl)

/-- The inner product's right factor: point `n` at the summed coordinate. -/
theorem idx_dot_r (b : Fin 64) (h : Fin 3) (n : Fin 65536) (q : Fin 3) :
    ridx_main_v6 (ix3 b h n) q = ix3 b n q :=
  funext fun a => Fin.ext (by match a with | ⟨0, _⟩ => rfl | ⟨1, _⟩ => rfl | ⟨2, _⟩ => rfl)

/-- The plane offsets, sliced out as column 3, flattened to `[64, 3]` (row-major: `(3b + h) / 3 = b`,
    `(3b + h) mod 3 = h`) and broadcast over the points, read `x0[b, h, 3]`. -/
theorem idx_offset (b : Fin 64) (h : Fin 3) (n : Fin 65536) :
    idx_main_v4 (idx_main_v5 (idx_main_v7 (idx_main_v8 (ix3 b h n)))) = ix3 b h 3 :=
  funext fun a => Fin.ext (by
    have hb := b.isLt; have hh := h.isLt
    match a with
    | ⟨0, _⟩ => show (b.val * 3 + h.val) / 3 = b.val; omega
    | ⟨1, _⟩ => show (b.val * 3 + h.val) / 1 % 3 = h.val; omega
    | ⟨2, _⟩ => rfl)

/-- **The reflected point**: coordinate `k` of point `n` reflected through plane `h` of batch element `b`. -/
theorem v19_apply (x0 : (⟨S64x3x4, .f32⟩ : BufTy).Contents (Elt Ideal)) (x1 : (⟨S64x65536x3, .f32⟩ : BufTy).Contents (Elt Ideal))
    (b : Fin 64) (h : Fin 3) (n : Fin 65536) (k : Fin 3) :
    val_main_v19 (F := Ideal) x0 x1 (ix4 b h n k) =
      SymLoss.refl (fun k => x1 (ix3 b n k)) (fun k => val_main_v3 (F := Ideal) x0 (ix3 b h k)) (x0 (ix3 b h 3)) k := by
  rw [val_main_v19_apply, val_main_v18_apply, val_main_v10_apply, val_main_v17_apply, val_main_v15_apply,
    val_main_v13_apply, val_main_v12_apply, val_main_cst_apply, val_main_v11_apply, val_main_v9_apply,
    val_main_v6_apply, val_main_v8_apply, val_main_v7_apply, val_main_v5_apply, val_main_v4_apply,
    val_main_v16_apply, val_main_v14_apply]
  rw [idx_point, idx_normal, idx_dist, idx_offset]
  simp only [idx_dot_l, idx_dot_r, Ideal.subf_def, Ideal.mulf_def, Ideal.addf_def, Ideal.ofBits_def]
  unfold SymLoss.refl SymLoss.dist
  -- the inner sum's products, factors exchanged
  have hs : (∑ x, val_main_v3 (F := Ideal) x0 (ix3 b h x) * x1 (ix3 b n x))
      = ∑ x, x1 (ix3 b n x) * val_main_v3 (F := Ideal) x0 (ix3 b h x) :=
    Finset.sum_congr rfl fun x _ => mul_comm _ _
  rw [hs]

/-! ## The voxel words -/

/-- The clamped, floored, scaled coordinate converted to an integer is the voxel word of the reflected coordinate:
    the clamp's bounds are the integers 0 and 31 converted to floats, the reals 0 and 31. -/
theorem voxelWord_apply (x0 : (⟨S64x3x4, .f32⟩ : BufTy).Contents (Elt Ideal)) (x1 : (⟨S64x65536x3, .f32⟩ : BufTy).Contents (Elt Ideal))
    (i : S64x3x65536x3.Idx) :
    val_main_v24 (F := Ideal) x0 x1 i = SymLoss.voxW (val_main_v19 (F := Ideal) x0 x1 i) := by
  rw [val_main_v24_apply, val_main_v23_apply, val_main_call1_v4_apply, val_main_call1_v3_apply, val_main_c_1_apply,
    val_main_call1_v2_apply, val_main_call1_v1_apply, val_main_call1_v0_apply, val_main_c_apply,
    val_main_v22_apply, val_main_v21_apply, val_main_v20_apply, val_main_cst_0_apply]
  rw [SymLoss.sitofp_0, SymLoss.sitofp_31]
  simp only [Ideal.minimumf_def, Ideal.maximumf_def, Ideal.hostUnary_floor_def, Ideal.mulf_def, Ideal.ofBits_def]
  rfl

/-- "Add 32 if negative" leaves a word below 32 as it is: such a word is not negative. -/
theorem wrap_small (w : BitVec 32) (hw : w.toNat < 32) :
    Scalar.select (IntOp.cmpi .slt w 0#32) (IntOp.addi w 32#32) w = w := by
  unfold Scalar.select
  rw [if_neg]
  intro hc
  have := (StableHlo.Predicate.slt_iff_toNat (a := w) (b := 0#32) (by omega) (by decide)).1 hc
  simp at this

/-- Column 0 of the words, flattened to `[64, 3, 65536]` (row-major), read at `(b, h, n)`. -/
theorem idx_word0 (b : Fin 64) (h : Fin 3) (n : Fin 65536) :
    idx_main_v25 (idx_main_v26 (ix3 b h n)) = ix4 b h n 0 :=
  funext fun a => Fin.ext (by
    have hb := b.isLt; have hh := h.isLt; have hn := n.isLt
    match a with
    | ⟨0, _⟩ => show ((b.val * 3 + h.val) * 65536 + n.val) / 196608 = b.val; omega
    | ⟨1, _⟩ => show ((b.val * 3 + h.val) * 65536 + n.val) / 65536 % 3 = h.val; omega
    | ⟨2, _⟩ => show ((b.val * 3 + h.val) * 65536 + n.val) / 1 % 65536 = n.val; omega
    | ⟨3, _⟩ => rfl)

/-- Column 1 likewise. -/
theorem idx_word1 (b : Fin 64) (h : Fin 3) (n : Fin 65536) :
    idx_main_v27 (idx_main_v28 (ix3 b h n)) = ix4 b h n 1 :=
  funext fun a => Fin.ext (by
    have hb := b.isLt; have hh := h.isLt; have hn := n.isLt
    match a with
    | ⟨0, _⟩ => show ((b.val * 3 + h.val) * 65536 + n.val) / 196608 = b.val; omega
    | ⟨1, _⟩ => show ((b.val * 3 + h.val) * 65536 + n.val) / 65536 % 3 = h.val; omega
    | ⟨2, _⟩ => show ((b.val * 3 + h.val) * 65536 + n.val) / 1 % 65536 = n.val; omega
    | ⟨3, _⟩ => rfl)

/-- Column 2 likewise. -/
theorem idx_word2 (b : Fin 64) (h : Fin 3) (n : Fin 65536) :
    idx_main_v29 (idx_main_v30 (ix3 b h n)) = ix4 b h n 2 :=
  funext fun a => Fin.ext (by
    have hb := b.isLt; have hh := h.isLt; have hn := n.isLt
    match a with
    | ⟨0, _⟩ => show ((b.val * 3 + h.val) * 65536 + n.val) / 196608 = b.val; omega
    | ⟨1, _⟩ => show ((b.val * 3 + h.val) * 65536 + n.val) / 65536 % 3 = h.val; omega
    | ⟨2, _⟩ => show ((b.val * 3 + h.val) * 65536 + n.val) / 1 % 65536 = n.val; omega
    | ⟨3, _⟩ => rfl)

/-- Each column, given back its unit last axis, reads `(b, h, n)`. -/
theorem idx_col0 (b : Fin 64) (h : Fin 3) (n : Fin 65536) (z : Fin 1) :
    idx_main_v46 (ix4 b h n z) = ix3 b h n :=
  funext fun a => Fin.ext (by match a with | ⟨0, _⟩ => rfl | ⟨1, _⟩ => rfl | ⟨2, _⟩ => rfl)

theorem idx_col1 (b : Fin 64) (h : Fin 3) (n : Fin 65536) (z : Fin 1) :
    idx_main_v47 (ix4 b h n z) = ix3 b h n :=
  funext fun a => Fin.ext (by match a with | ⟨0, _⟩ => rfl | ⟨1, _⟩ => rfl | ⟨2, _⟩ => rfl)

theorem idx_col2 (b : Fin 64) (h : Fin 3) (n : Fin 65536) (z : Fin 1) :
    idx_main_v48 (ix4 b h n z) = ix3 b h n :=
  funext fun a => Fin.ext (by match a with | ⟨0, _⟩ => rfl | ⟨1, _⟩ => rfl | ⟨2, _⟩ => rfl)

/-- Column 0 after the "add 32 if negative" step is still the voxel word of coordinate 0. -/
theorem word0_apply (x0 : (⟨S64x3x4, .f32⟩ : BufTy).Contents (Elt Ideal)) (x1 : (⟨S64x65536x3, .f32⟩ : BufTy).Contents (Elt Ideal))
    (b : Fin 64) (h : Fin 3) (n : Fin 65536) :
    val_main_v35 (F := Ideal) x0 x1 (ix3 b h n) = SymLoss.voxW (val_main_v19 (F := Ideal) x0 x1 (ix4 b h n 0)) := by
  rw [val_main_v35_apply, val_main_v32_apply, val_main_v34_apply, val_main_v26_apply, val_main_v25_apply,
    val_main_v31_apply, val_main_c_2_apply, val_main_v33_apply, val_main_c_3_apply, idx_word0, voxelWord_apply]
  exact wrap_small _ (SymLoss.voxW_lt _)

/-- Column 1 likewise. -/
theorem word1_apply (x0 : (⟨S64x3x4, .f32⟩ : BufTy).Contents (Elt Ideal)) (x1 : (⟨S64x65536x3, .f32⟩ : BufTy).Contents (Elt Ideal))
    (b : Fin 64) (h : Fin 3) (n : Fin 65536) :
    val_main_v40 (F := Ideal) x0 x1 (ix3 b h n) = SymLoss.voxW (val_main_v19 (F := Ideal) x0 x1 (ix4 b h n 1)) := by
  rw [val_main_v40_apply, val_main_v37_apply, val_main_v39_apply, val_main_v28_apply, val_main_v27_apply,
    val_main_v36_apply, val_main_c_4_apply, val_main_v38_apply, val_main_c_5_apply, idx_word1, voxelWord_apply]
  exact wrap_small _ (SymLoss.voxW_lt _)

/-- Column 2 likewise. -/
theorem word2_apply (x0 : (⟨S64x3x4, .f32⟩ : BufTy).Contents (Elt Ideal)) (x1 : (⟨S64x65536x3, .f32⟩ : BufTy).Contents (Elt Ideal))
    (b : Fin 64) (h : Fin 3) (n : Fin 65536) :
    val_main_v45 (F := Ideal) x0 x1 (ix3 b h n) = SymLoss.voxW (val_main_v19 (F := Ideal) x0 x1 (ix4 b h n 2)) := by
  rw [val_main_v45_apply, val_main_v42_apply, val_main_v44_apply, val_main_v30_apply, val_main_v29_apply,
    val_main_v41_apply, val_main_c_6_apply, val_main_v43_apply, val_main_c_7_apply, idx_word2, voxelWord_apply]
  exact wrap_small _ (SymLoss.voxW_lt _)

/-! ### Three unit columns joined along the last axis -/

section Join
variable {α : Type} (y0 y1 y2 : S64x3x65536x1.Idx → α) (b : Fin 64) (h : Fin 3) (n : Fin 65536)

/-- Off the joined axis an element of the result and the element of the piece it comes from have the same
    coordinates. -/
theorem join_off (k : Fin 3) : ∀ b' : Fin S64x3x65536x1.rank,
    b'.cast (rfl : S64x3x65536x1.rank = S64x3x65536x3.rank) ≠ 3 →
    ((ix4 b h n (0 : Fin 1) : S64x3x65536x1.Idx) b').val = ((ix4 b h n k : S64x3x65536x3.Idx) (b'.cast rfl)).val := by
  intro b' hb'
  match b' with
  | ⟨0, _⟩ => rfl
  | ⟨1, _⟩ => rfl
  | ⟨2, _⟩ => rfl
  | ⟨3, _⟩ => exact absurd rfl hb'

theorem join_at0 :
    concatenate S64x3x65536x3 3 [⟨S64x3x65536x1, y0⟩, ⟨S64x3x65536x1, y1⟩, ⟨S64x3x65536x1, y2⟩]
      concatenates_S64x3x65536x1_S64x3x65536x1_S64x3x65536x1_S64x3x65536x3_d3 (ix4 b h n 0) = y0 (ix4 b h n 0) :=
  concatenate_apply_piece (t := S64x3x65536x3) 3 [⟨S64x3x65536x1, y0⟩, ⟨S64x3x65536x1, y1⟩, ⟨S64x3x65536x1, y2⟩]
    concatenates_S64x3x65536x1_S64x3x65536x1_S64x3x65536x1_S64x3x65536x3_d3 (ix4 b h n 0) 0 (show 0 < 3 from by decide) S64x3x65536x1 y0 rfl rfl 0 rfl
    (ix4 b h n 0) (join_off b h n 0) rfl

theorem join_at1 :
    concatenate S64x3x65536x3 3 [⟨S64x3x65536x1, y0⟩, ⟨S64x3x65536x1, y1⟩, ⟨S64x3x65536x1, y2⟩]
      concatenates_S64x3x65536x1_S64x3x65536x1_S64x3x65536x1_S64x3x65536x3_d3 (ix4 b h n 1) = y1 (ix4 b h n 0) :=
  concatenate_apply_piece (t := S64x3x65536x3) 3 [⟨S64x3x65536x1, y0⟩, ⟨S64x3x65536x1, y1⟩, ⟨S64x3x65536x1, y2⟩]
    concatenates_S64x3x65536x1_S64x3x65536x1_S64x3x65536x1_S64x3x65536x3_d3 (ix4 b h n 1) 1 (show 1 < 3 from by decide) S64x3x65536x1 y1 rfl rfl 1 rfl
    (ix4 b h n 0) (join_off b h n 1) rfl

theorem join_at2 :
    concatenate S64x3x65536x3 3 [⟨S64x3x65536x1, y0⟩, ⟨S64x3x65536x1, y1⟩, ⟨S64x3x65536x1, y2⟩]
      concatenates_S64x3x65536x1_S64x3x65536x1_S64x3x65536x1_S64x3x65536x3_d3 (ix4 b h n 2) = y2 (ix4 b h n 0) :=
  concatenate_apply_piece (t := S64x3x65536x3) 3 [⟨S64x3x65536x1, y0⟩, ⟨S64x3x65536x1, y1⟩, ⟨S64x3x65536x1, y2⟩]
    concatenates_S64x3x65536x1_S64x3x65536x1_S64x3x65536x1_S64x3x65536x3_d3 (ix4 b h n 2) 2 (show 2 < 3 from by decide) S64x3x65536x1 y2 rfl rfl 2 rfl
    (ix4 b h n 0) (join_off b h n 2) rfl

end Join

/-- **The voxel words**: the joined array holds, at coordinate `k`, the voxel word of the reflected point's
    coordinate `k`. -/
theorem v49_apply (x0 : (⟨S64x3x4, .f32⟩ : BufTy).Contents (Elt Ideal)) (x1 : (⟨S64x65536x3, .f32⟩ : BufTy).Contents (Elt Ideal))
    (b : Fin 64) (h : Fin 3) (n : Fin 65536) (k : Fin 3) :
    val_main_v49 (F := Ideal) x0 x1 (ix4 b h n k) = SymLoss.voxW (val_main_v19 (F := Ideal) x0 x1 (ix4 b h n k)) := by
  unfold val_main_v49
  rcases (by decide : ∀ k : Fin 3, k = 0 ∨ k = 1 ∨ k = 2) k with rfl | rfl | rfl
  · rw [join_at0, val_main_v46_apply, idx_col0, word0_apply]
  · rw [join_at1, val_main_v47_apply, idx_col1, word1_apply]
  · rw [join_at2, val_main_v48_apply, idx_col2, word2_apply]

/-! ## The table read -/

/-- The read's dimension numbers: operand `[64, 32, 32, 32, 3]`, start indices `[64, 3, 65536, 3]` with the index
    vector on the last axis, batch axis 0 paired with batch axis 0, the three grid axes addressed and collapsed, the
    last operand axis kept whole as the result's last axis. -/
abbrev gdims := gather_S64x32x32x32x3_S64x3x65536x3_S64x3x65536x3_3_123_0_0_123_3_11113

/-- Component `z` of the start index of result element `(b, h, n, k)` sits at `(b, h, n, z)`. -/
theorem gdims_siIdx (b : Fin 64) (h : Fin 3) (n : Fin 65536) (k : Fin 3) (c : Fin gdims.startIndexMap.length)
    (z : Fin 3) (hc : c.val = z.val) : gdims.siIdx (ix4 b h n k) c = ix4 b h n z := by
  funext b'; refine Fin.ext ?_
  match b' with
  | ⟨0, _⟩ => rfl
  | ⟨1, _⟩ => rfl
  | ⟨2, _⟩ => rfl
  | ⟨3, _⟩ => exact hc

/-- The read at `(b, h, n, k)`, axis by axis of the operand: the batch coordinate `b`; on each grid axis the start
    index's component, read signed and clamped to `[0, 31]` (slice size 1 in an axis of extent 32); the offset
    coordinate `k`. -/
theorem gather_at {α : Type} (x : S64x32x32x32x3.Idx → α) (idx : IVec S64x3x65536x3 32)
    (b : Fin 64) (h : Fin 3) (n : Fin 65536) (k : Fin 3) (c0 c1 c2 : Fin 32)
    (h0 : min (idx (ix4 b h n 0)).toInt.toNat 31 = c0.val)
    (h1 : min (idx (ix4 b h n 1)).toInt.toNat 31 = c1.val)
    (h2 : min (idx (ix4 b h n 2)).toInt.toNat 31 = c2.val) :
    Host.gather gdims x idx (ix4 b h n k) = x (ix5 b c0 c1 c2 k) := by
  unfold Host.gather
  refine congrArg x (funext fun a => Fin.ext ?_)
  match a with
  | ⟨0, _⟩ =>
    show gdims.start (ix4 b h n k) idx 0 + gdims.batchCoord (ix4 b h n k) 0 + gdims.offCoord (ix4 b h n k) 0 = b.val
    rw [gdims.start_batching _ _ 0 (by decide), gdims.offCoord_eq_zero _ 0 (by decide)]
    unfold GatherDims.batchCoord
    rw [dif_pos (by decide), Nat.add_zero, Nat.zero_add]
    rfl
  | ⟨1, _⟩ =>
    show gdims.start (ix4 b h n k) idx 1 + gdims.batchCoord (ix4 b h n k) 1 + gdims.offCoord (ix4 b h n k) 1 = c0.val
    rw [gdims.batchCoord_eq_zero _ 1 (by decide), gdims.offCoord_eq_zero _ 1 (by decide), ← h0]
    unfold GatherDims.start
    rw [dif_pos (by decide), gdims_siIdx b h n k _ 0 (by decide)]
    rfl
  | ⟨2, _⟩ =>
    show gdims.start (ix4 b h n k) idx 2 + gdims.batchCoord (ix4 b h n k) 2 + gdims.offCoord (ix4 b h n k) 2 = c1.val
    rw [gdims.batchCoord_eq_zero _ 2 (by decide), gdims.offCoord_eq_zero _ 2 (by decide), ← h1]
    unfold GatherDims.start
    rw [dif_pos (by decide), gdims_siIdx b h n k _ 1 (by decide)]
    rfl
  | ⟨3, _⟩ =>
    show gdims.start (ix4 b h n k) idx 3 + gdims.batchCoord (ix4 b h n k) 3 + gdims.offCoord (ix4 b h n k) 3 = c2.val
    rw [gdims.batchCoord_eq_zero _ 3 (by decide), gdims.offCoord_eq_zero _ 3 (by decide), ← h2]
    unfold GatherDims.start
    rw [dif_pos (by decide), gdims_siIdx b h n k _ 2 (by decide)]
    rfl
  | ⟨4, _⟩ =>
    show gdims.start (ix4 b h n k) idx 4 + gdims.batchCoord (ix4 b h n k) 4 + gdims.offCoord (ix4 b h n k) 4 = k.val
    rw [gdims.batchCoord_eq_zero _ 4 (by decide)]
    unfold GatherDims.start GatherDims.offCoord
    rw [dif_neg (by decide), dif_pos (by decide)]
    simp only [Nat.zero_add]
    rfl

/-- A voxel word read signed and clamped to `[0, 31]` is the voxel coordinate. -/
theorem clamp_vox (y : EReal) : min (SymLoss.voxW y).toInt.toNat 31 = (SymLoss.vox y).val := by
  rw [SymLoss.voxW_toInt, Int.toNat_natCast]
  exact Nat.min_eq_left (by have := (SymLoss.vox y).isLt; omega)

/-- **The table read**: coordinate `k` of the closest-point vector stored for the voxel of the reflected point. -/
theorem v50_apply (x0 : (⟨S64x3x4, .f32⟩ : BufTy).Contents (Elt Ideal)) (x1 : (⟨S64x65536x3, .f32⟩ : BufTy).Contents (Elt Ideal))
    (x3 : (⟨S64x32x32x32x3, .f32⟩ : BufTy).Contents (Elt Ideal)) (b : Fin 64) (h : Fin 3) (n : Fin 65536) (k : Fin 3) :
    val_main_v50 (F := Ideal) x0 x1 x3 (ix4 b h n k) =
      x3 (ix5 b (SymLoss.vox (val_main_v19 (F := Ideal) x0 x1 (ix4 b h n 0)))
        (SymLoss.vox (val_main_v19 (F := Ideal) x0 x1 (ix4 b h n 1)))
        (SymLoss.vox (val_main_v19 (F := Ideal) x0 x1 (ix4 b h n 2))) k) := by
  unfold val_main_v50
  refine gather_at x3 (val_main_v49 (F := Ideal) x0 x1) b h n k _ _ _ ?_ ?_ ?_
  all_goals (rw [v49_apply]; exact clamp_vox _)

end Cert.ReferenceIdeal.Sym

end
-- ==== Proof.RefTail.lean ====
/-
  The reference's closing operations, read at the one index of its result.

  For a batch element `b`, a plane `h` and a sample point `n` the reference subtracts, coordinate by coordinate, the
  closest-point vector gathered at the reflected point's voxel from the reflected point, squares, sums the three
  coordinates and takes the square root: this is `SymLoss.pdist`. It then sums over the 65536 points, divides by the
  word 65536, sums over the 64 batch elements and the 3 planes, adds the regulariser (a function of the planes alone,
  never opened here) and reshapes the scalar to a one-element array. Every sum starts from the zero word, and
  `0 + x = x` for every extended real, so no entry is assumed finite.
-/
import proofs.«121004_j35338990911546_1_alg».proof.Proof.Gen.ReferenceIdeal.Read
import proofs.«121004_j35338990911546_1_alg».proof.Proof.RefPoint

noncomputable section

namespace Cert.ReferenceIdeal.Sym

open Cert.ReferenceIdeal Cert.ReferenceIdeal.Value Cert.ReferenceIdeal.Read Idealize.ShloMosaic Idealize.ShloMosaic.ValueIdx

/-- The norm of the difference at one point: the square root of the sum over the three coordinates of the squared
    differences between the reflected point and the vector stored at its voxel. -/
theorem v52_point (x0 : (⟨S64x3x4, .f32⟩ : BufTy).Contents (Elt Ideal)) (x1 : (⟨S64x65536x3, .f32⟩ : BufTy).Contents (Elt Ideal)) (x3 : (⟨S64x32x32x32x3, .f32⟩ : BufTy).Contents (Elt Ideal))
    (b : Fin 64) (h : Fin 3) (n : Fin 65536) :
    val_main_v52 (F := Ideal) x0 x1 x3 (ix3 b h n)
      = SymLoss.pdist (fun x y z k => x3 (ix5 b x y z k)) (fun k => x1 (ix3 b n k))
          (fun k => val_main_v3 (F := Ideal) x0 (ix3 b h k)) (x0 (ix3 b h 3)) := by
  rw [val_main_v52_apply, Ideal.hostUnary_sqrt_def, val_main_call2_v1_apply, val_main_call2_cst_apply,
    Ideal.ofBits_def, Ideal.ofBits_zero_f32, zero_add]
  unfold SymLoss.pdist
  refine congrArg Ideal.sqrt (Finset.sum_congr rfl fun k _ => ?_)
  have hi : idx_main_call2_v1 (ix3 b h n) k = ix4 b h n k :=
    funext fun a => Fin.ext (by match a with | ⟨0, _⟩ => rfl | ⟨1, _⟩ => rfl | ⟨2, _⟩ => rfl | ⟨3, _⟩ => rfl)
  rw [hi, val_main_call2_v0_apply, Ideal.mulf_def, val_main_v51_apply, Ideal.subf_def]
  simp only [v50_apply, v19_apply]

/-- The sum over the points of one batch element and one plane. -/
theorem v53_point (x0 : (⟨S64x3x4, .f32⟩ : BufTy).Contents (Elt Ideal)) (x1 : (⟨S64x65536x3, .f32⟩ : BufTy).Contents (Elt Ideal)) (x3 : (⟨S64x32x32x32x3, .f32⟩ : BufTy).Contents (Elt Ideal))
    (b : Fin 64) (h : Fin 3) :
    val_main_v53 (F := Ideal) x0 x1 x3 (ix2 b h)
      = ∑ n : Fin 65536, SymLoss.pdist (fun x y z k => x3 (ix5 b x y z k)) (fun k => x1 (ix3 b n k))
          (fun k => val_main_v3 (F := Ideal) x0 (ix3 b h k)) (x0 (ix3 b h 3)) := by
  rw [val_main_v53_apply, val_main_cst_8_apply, Ideal.ofBits_def, Ideal.ofBits_zero_f32, zero_add]
  refine Finset.sum_congr rfl fun n _ => ?_
  have hi : idx_main_v53 (ix2 b h) n = ix3 b h n :=
    funext fun a => Fin.ext (by match a with | ⟨0, _⟩ => rfl | ⟨1, _⟩ => rfl | ⟨2, _⟩ => rfl)
  rw [hi]
  exact v52_point x0 x1 x3 b h n

/-- The mean over the points: the sum divided by the word 65536. -/
theorem v55_point (x0 : (⟨S64x3x4, .f32⟩ : BufTy).Contents (Elt Ideal)) (x1 : (⟨S64x65536x3, .f32⟩ : BufTy).Contents (Elt Ideal)) (x3 : (⟨S64x32x32x32x3, .f32⟩ : BufTy).Contents (Elt Ideal))
    (b : Fin 64) (h : Fin 3) :
    val_main_v55 (F := Ideal) x0 x1 x3 (ix2 b h)
      = Ideal.div (∑ n : Fin 65536, SymLoss.pdist (fun x y z k => x3 (ix5 b x y z k)) (fun k => x1 (ix3 b n k))
          (fun k => val_main_v3 (F := Ideal) x0 (ix3 b h k)) (x0 (ix3 b h 3))) SymLoss.w65536 := by
  rw [val_main_v55_apply, Ideal.hostDivf_def, v53_point, val_main_v54_apply, val_main_cst_9_apply, Ideal.ofBits_def]

/-- The reference's result: the means summed over batch elements and planes, plus the regulariser. The scalar shape has
    one index, so the reshape to a one-element array reads the scalar. -/
theorem ref_result (x0 : (⟨S64x3x4, .f32⟩ : BufTy).Contents (Elt Ideal)) (x1 : (⟨S64x65536x3, .f32⟩ : BufTy).Contents (Elt Ideal)) (x3 : (⟨S64x32x32x32x3, .f32⟩ : BufTy).Contents (Elt Ideal)) :
    val_main_v76 (F := Ideal) x0 x1 x3 (ix1 0)
      = (∑ b : Fin 64, ∑ h : Fin 3,
          Ideal.div (∑ n : Fin 65536, SymLoss.pdist (fun x y z k => x3 (ix5 b x y z k)) (fun k => x1 (ix3 b n k))
            (fun k => val_main_v3 (F := Ideal) x0 (ix3 b h k)) (x0 (ix3 b h 3))) SymLoss.w65536)
        + val_main_v74 (F := Ideal) x0 ix0 := by
  have e76 : val_main_v76 (F := Ideal) x0 x1 x3 (ix1 0) = val_main_v75 (F := Ideal) x0 x1 x3 ix0 := by
    unfold val_main_v76 shapeCast
    exact congrArg _ (eq_ix0 _)
  rw [e76, val_main_v75_apply, Ideal.addf_def, val_main_v56_apply, val_main_cst_10_apply, Ideal.ofBits_def,
    Ideal.ofBits_zero_f32, zero_add, sum_idx2]
  refine congrArg (· + _) (Finset.sum_congr rfl fun b _ => Finset.sum_congr rfl fun h _ => ?_)
  exact v55_point x0 x1 x3 b h

end Cert.ReferenceIdeal.Sym

end
-- ==== Proof.Bridge.lean ====
/-
  The equation that joins the two sides.

  Kernel side: the output row of batch element `b` and plane `h` is the sum over the 64 tiles of the tile's update;
  a tile's update is the sum over its 1024 points of the point's distance, read through the windows' blocks in the
  arrays' own coordinates (the table block is finite because the table is); regrouping the tiles gives the loss of
  `(b, h)`, the sum over all 65536 points.  The host then divides the grand total by 65536.
  Reference side: each `(b, h)` loss is divided by 65536 and the quotients are summed.
  Division by 65536 distributes over every sum of extended reals, so the two totals are equal; the normalised planes
  and the regulariser are the same host operations on the same argument in both programs, and are never opened.
-/
import proofs.«121004_j35338990911546_1_alg».proof.Proof.Tail
import proofs.«121004_j35338990911546_1_alg».proof.Proof.Accum
import proofs.«121004_j35338990911546_1_alg».proof.Proof.Pieces
import proofs.«121004_j35338990911546_1_alg».proof.Proof.Blocks
import proofs.«121004_j35338990911546_1_alg».proof.Proof.Finite
import proofs.«121004_j35338990911546_1_alg».proof.Proof.RefTail
import proofs.«121004_j35338990911546_1_alg».proof.Proof.Gen.Pre_finite_inputs
import proofs.«121004_j35338990911546_1_alg».proof.Proof.Gen.ReferenceIdeal.Run
import proofs.«121004_j35338990911546_1_alg».proof.Proof.Gen.ReferenceIdeal.Read
import proofs.«121004_j35338990911546_1_alg».proof.Defs

noncomputable section

namespace Cert.Proof.Sym

open Idealize.ShloMosaic Idealize.ShloMosaic.TcCoe Idealize.SL.Sem Idealize.ShloMosaic.ValueIdx
open Cert.KernelIdeal Cert.KernelIdeal.Gen Cert.KernelIdeal.Sym

variable (m : (ℓ : Loc nD τ sig) → Buf (Elt Ideal) ℓ) (c : Dev nD)

/-- The three argument arrays the loss reads, each under its literal shape. -/
abbrev arg0A : Vec Ideal S64x3x4 .f32 := m ((c : Thread nD τ).loc main_arg0)
abbrev arg1A : Vec Ideal S64x65536x3 .f32 := m ((c : Thread nD τ).loc main_arg1)
abbrev arg3A : Vec Ideal S64x32x32x32x3 .f32 := m ((c : Thread nD τ).loc main_arg3)

/-- The sample points, the normalised planes, the planes' offsets and the closest-point table as plain functions of coordinates. -/
abbrev ptsOf : Fin 64 → Fin 65536 → Fin 3 → EReal := fun b n k => arg1A m c (ix3 b n k)
abbrev nhOf : Fin 64 → Fin 3 → Fin 3 → EReal := fun b h k => nhatK (F := Ideal) (arg0A m c) (ix3 b h k)
abbrev offOf : Fin 64 → Fin 3 → EReal := fun b h => arg0A m c (ix3 b h 3)
abbrev gridOf : Fin 64 → Fin 32 → Fin 32 → Fin 32 → Fin 3 → EReal := fun b x y z k => arg3A m c (ix5 b x y z k)

/-- One tile's update for plane `h`: the distances of the tile's 1024 points, summed, in the arrays' coordinates. -/
theorem tile_value (hfin : ∀ j, arg3A m c j ≠ ⊤ ∧ arg3A m c j ≠ ⊥) (b s : Fin 64) (h : Fin 3) :
    tileUpd (F := Ideal) m c ⟨b.val * 64 + s.val, pt_lt b s⟩ (ix3 0 h 0)
      = ∑ j : Fin 1024, SymLoss.pdist (gridOf m c b)
          (ptsOf m c b ⟨s.val * 1024 + j.val, by have := s.isLt; have := j.isLt; omega⟩) (nhOf m c b h) (offOf m c b h) := by
  unfold tileUpd
  rw [updV_apply _ _ _ (fun i => by
    obtain ⟨j, hj⟩ := iblk2_entry m c ⟨b.val * 64 + s.val, pt_lt b s⟩ i
    rw [hj]; exact hfin j) h]
  refine Finset.sum_congr rfl fun j _ => ?_
  congr 1
  · funext x y z k
    rw [iblk2_apply m c b s (pt_lt b s), V7_apply]
  · funext k
    exact iblk0_apply m c b s (pt_lt b s) j k
  · funext k
    rw [iblk1_apply m c b s (pt_lt b s), V5_apply]
  · rw [iblk1_apply m c b s (pt_lt b s), V5_apply_last]

/-- The output row of `(b, h)` after the run is the loss of `(b, h)`: the 64 tiles' sums regrouped into one sum over the points. -/
theorem outArr_loss (hfin : ∀ j, arg3A m c j ≠ ⊤ ∧ arg3A m c j ≠ ⊥) (b : Fin 64) (h : Fin 3) :
    outArr m c (ix3 b h 0) = SymLoss.loss (ptsOf m c) (nhOf m c) (offOf m c) (gridOf m c) b h := by
  rw [outArr_apply]
  unfold SymLoss.loss
  rw [SymLoss.sum_tiles]
  have e : (∑ s : Fin 64, tileUpd (F := Ideal) m c ⟨b.val * 64 + s.val, pt_lt b s⟩ (ix3 0 h 0)) = _ :=
    Finset.sum_congr rfl fun s _ => tile_value m c hfin b s h
  exact e

/-- The kernel program's result, as its run states it. -/
def resultK : Buf (Elt Ideal) ((c : Thread nD τ).loc main_v27) :=
  fun _ => Ideal.div (∑ b : Fin 64, ∑ h : Fin 3, outArr m c (ix3 b h 0)) SymLoss.w65536 + regK (F := Ideal) (V m c main_v3) ix0

/-- The kernel's total with the division moved inside both sums. -/
theorem kernel_value (hfin : ∀ j, arg3A m c j ≠ ⊤ ∧ arg3A m c j ≠ ⊥) :
    Ideal.div (∑ b : Fin 64, ∑ h : Fin 3, outArr m c (ix3 b h 0)) SymLoss.w65536
        + regK (F := Ideal) (V m c main_v3) ix0
      = (∑ b : Fin 64, ∑ h : Fin 3, Ideal.div (SymLoss.loss (ptsOf m c) (nhOf m c) (offOf m c) (gridOf m c) b h) SymLoss.w65536)
        + regK (F := Ideal) (nhatK (F := Ideal) (arg0A m c)) ix0 := by
  rw [V3_eq, SymLoss.div_sum]
  congr 1
  refine Finset.sum_congr rfl fun b _ => ?_
  rw [SymLoss.div_sum]
  exact Finset.sum_congr rfl fun h _ => by rw [outArr_loss m c hfin b h]

/-- The normalised planes are one chain of host operations in both programs. -/
theorem nhat_same (a0 : FVec Ideal S64x3x4 .f32) :
    Cert.ReferenceIdeal.Read.val_main_v3 (F := Ideal) a0 = nhatK (F := Ideal) a0 := rfl

/-- So is the regulariser, 25 times the planes' off-orthogonality. -/
theorem reg_same (a0 : FVec Ideal S64x3x4 .f32) :
    Cert.ReferenceIdeal.Read.val_main_v74 (F := Ideal) a0 = regK (F := Ideal) (nhatK (F := Ideal) a0) := rfl

end Cert.Proof.Sym

namespace Cert.Proof

open Idealize.ShloMosaic Idealize.ShloMosaic.TcCoe Idealize.SL.Sem Idealize.ShloMosaic.ValueIdx

/-- Run from memories agreeing on the arguments, the idealized kernel and the idealized reference end with the same
    result: the kernel's total is the reference's by `Sym.kernel_value`, the reference's by its operations read at
    an index, and the shared host chains are one term. -/
theorem algebraic : Cert.algebraic_KernelIdeal_ReferenceIdeal := by
  intro m ρ m' ρ' hpre hagree
  have hfin : ∀ (c : Dev Cert.KernelIdeal.nD) j, Sym.arg3A m c j ≠ ⊤ ∧ Sym.arg3A m c j ≠ ⊥ :=
    fun c j => Cert.Pre_finite_inputs.Sym.grid_finite _ _ _ _ (hpre c) j
  refine ⟨fun c => Sym.resultK m c, ?_, ?_⟩
  · exact Cert.KernelIdeal.Sym.kernel_run m ρ
  · refine (θ_run Cert.ReferenceIdeal.defs _ _).mono (fun r h c => ⟨?_, (h c).2⟩)
      (Cert.ReferenceIdeal.Value.run (F := Ideal) m' ρ')
    rw [(h c).1, Cert.ReferenceIdeal.Read.val_main_v76_eq, (hagree c).1, (hagree c).2.1, (hagree c).2.2.2]
    funext i
    have hi : i = ix1 (0 : Fin 1) := (eq_ix1 i).trans (congrArg ix1 (Subsingleton.elim (α := Fin 1) _ _))
    rw [hi, Cert.ReferenceIdeal.Sym.ref_result]
    refine Eq.trans ?_ (Sym.kernel_value m c (hfin c)).symm
    rw [Sym.reg_same]
    simp only [Sym.nhat_same]
    rfl

end Cert.Proof

end
-- ==== Proof.lean ====
/-
  The symmetry loss of predicted planes: for every batch element, plane and sample point, reflect the point through
  the plane, look up the closest-point vector stored for the reflected point's voxel, and take the distance between
  the two; average over the points, sum over planes and batch, and add 25 times the planes' off-orthogonality.

  The kernel visits each batch element's points in 64 tiles of 1024, gathers the closest-point vectors by one-hot
  selection (a matrix product over the z axis against the table and its remainder, then weighted lane sums over y
  and x), accumulates the three planes' sums of distances in a scratch row carried across the tiles, writes the row
  out at the last tile, and divides the grand total by the number of points on the host.  The reference gathers
  with an indexed read and divides each (batch, plane) sum before adding them up.

  Over the extended reals the two agree: a one-hot weighted sum is its selected entry whatever the other entries
  are; the table's remainder `tz − tz` vanishes because the table is finite (the precondition); sums may be regrouped
  by tiles; and division by 65536, a multiplication by a non-negative real, distributes over every sum of extended
  reals.  Nothing is asked of the normalised planes, which need not be finite (a zero normal divided by its zero norm).
  The kernel's frame and the point-by-point contents of its scratch are generated; the reference's run and its
  operations read at an index are generated; written by hand are the value of a tile's update, the accumulation over
  the grid, the host operations around the region, the reference's gather, and the equation joining the two sides.
-/
import proofs.«121004_j35338990911546_1_alg».proof.Defs
import proofs.«121004_j35338990911546_1_alg».proof.Proof.Gen.Kernel
import proofs.«121004_j35338990911546_1_alg».proof.Proof.Gen.Kernel.Skeleton
import proofs.«121004_j35338990911546_1_alg».proof.Proof.Gen.Kernel.Launch
import proofs.«121004_j35338990911546_1_alg».proof.Proof.Gen.Kernel.Points
import proofs.«121004_j35338990911546_1_alg».proof.Proof.Gen.Kernel.Frame
import proofs.«121004_j35338990911546_1_alg».proof.Proof.Gen.KernelIdeal
import proofs.«121004_j35338990911546_1_alg».proof.Proof.Gen.KernelIdeal.Skeleton
import proofs.«121004_j35338990911546_1_alg».proof.Proof.Gen.KernelIdeal.Launch
import proofs.«121004_j35338990911546_1_alg».proof.Proof.Gen.KernelIdeal.Points
import proofs.«121004_j35338990911546_1_alg».proof.Proof.Gen.KernelIdeal.Frame
import proofs.«121004_j35338990911546_1_alg».proof.Proof.Gen.ReferenceIdeal
import proofs.«121004_j35338990911546_1_alg».proof.Proof.Gen.Pre_finite_inputs
import proofs.«121004_j35338990911546_1_alg».proof.Proof.Gen.ReferenceIdeal.Run
import proofs.«121004_j35338990911546_1_alg».proof.Proof.Gen.ReferenceIdeal.Read
import proofs.«121004_j35338990911546_1_alg».proof.Proof.Bridge
import Idealize.ShloMosaic.Adequacy
import Idealize.ShloMosaic.Init

noncomputable section

namespace Cert.Proof

open Idealize.ShloMosaic Idealize.SL.Sem

/-- The word-level kernel runs and keeps its arguments: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference has no kernel: its frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the table narrowed to bf16 and widened back is the table, over the extended reals. -/
theorem preserves : Cert.preserves_Kernel_KernelIdeal :=
  IdealRules.truncf_extf.statement Cert.KernelIdeal.S32x3072 .f32 .bf16

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
